-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S32x32x2x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1024x2 : Shape := ⟨2, ![1024, 2]⟩
abbrev S200000x16 : Shape := ⟨2, ![200000, 16]⟩
abbrev S2000000x2 : Shape := ⟨2, ![2000000, 2]⟩
abbrev S2000000 : Shape := ⟨1, ![2000000]⟩
abbrev S16x64 : Shape := ⟨2, ![16, 64]⟩
abbrev S200000x64 : Shape := ⟨2, ![200000, 64]⟩
abbrev S64x1 : Shape := ⟨2, ![64, 1]⟩
abbrev S1 : Shape := ⟨1, ![1]⟩
abbrev S_ : Shape := ⟨0, ![]⟩

class Facts : Prop where
  bcast_S_S16x64 : S_.BroadcastsInDim S16x64 (![] : Fin 0 → Fin S16x64.rank)
  reducesTo_S16x64_S_d0_1 : S16x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1024 : S_.BroadcastsInDim S1024 (![] : Fin 0 → Fin S1024.rank)
  reducesTo_S1024_S_d0 : S1024.ReducesTo [0] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg0 : IVec S1024 32) (main_arg5 : IVec S2000000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S1024 32 := broadcastInDim S1024 ![] bcast_S_S1024 main_c_6
  let main_v20 : IVec S1024 1 := cmpi .sge main_arg0 main_v19
  let main_c_7 : IVec S_ 32 := constantI S_ 32 16#32
  let main_v21 : IVec S1024 32 := broadcastInDim S1024 ![] bcast_S_S1024 main_c_7
  let main_v22 : IVec S1024 1 := cmpi .slt main_arg0 main_v21
  let main_v23 : IVec S1024 1 := andi main_v20 main_v22
  let main_c_8 : IVec S_ 1 := constantI S_ 1 1#1
  let main_v24 : IVec S_ 1 := (fun x v => Host.reduce IntOp.andi x v reducesTo_S1024_S_d0 h_S_) main_v23 main_c_8
  let main_v25 : IVec S_ 1 := andi main_v18 main_v24
  let main_c_9 : IVec S_ 32 := constantI S_ 32 0#32
  let main_v26 : IVec S2000000 32 := broadcastInDim S2000000 ![] bcast_S_S2000000 main_c_9
  let main_v27 : IVec S2000000 1 := cmpi .sge main_arg5 main_v26
  let main_c_10 : IVec S_ 32 := constantI S_ 32 16#32
  let main_v28 : IVec S2000000 32 := broadcastInDim S2000000 ![] bcast_S_S2000000 main_c_10
  let main_v29 : IVec S2000000 1 := cmpi .slt main_arg5 main_v28
  let main_v30 : IVec S2000000 1 := andi main_v27 main_v29
  let main_c_11 : IVec S_ 1 := constantI S_ 1 1#1
  let main_v31 : IVec S_ 1 := (fun x v => Host.reduce IntOp.andi x v reducesTo_S2000000_S_d0 h_S_) main_v30 main_c_11
  let main_v32 : IVec S_ 1 := andi main_v25 main_v31
  main_v32

def fn {F : FTy → Type} [FloatOps F] (main_arg0 : IVec S1024 32) (main_arg1 : IVec S1024x2 32) (main_arg2 : IVec S1024 32) (main_arg3 : IVec S200000x16 32) (main_arg4 : IVec S2000000x2 32) (main_arg5 : IVec S2000000 32) (main_arg6 : FVec F S16x64 .f32) (main_arg7 : FVec F S200000x64 .f32) (main_arg8 : FVec F S64x1 .f32) (main_arg9 : FVec F S1 .f32) : IVec S_ 1 :=
  let main_v0 : FVec F S16x64 .f32 := Host.absf main_arg6
  let main_cst : FVec F S_ .f32 := constant S_ .f32 0x7F800000#32
  let main_v1 : FVec F S16x64 .f32 := broadcastInDim S16x64 ![] bcast_S_S16x64 main_cst
  let main_v2 : IVec S16x64 1 := cmpf .olt main_v0 main_v1
  let main_c : IVec S_ 1 := constantI S_ 1 1#1
  let main_v3 : IVec S_ 1 := (fun x v => Host.reduce IntOp.andi x v reducesTo_S16x64_S_d0_1 h_S_) main_v2 main_c
  let main_v4 : FVec F S200000x64 .f32 := Host.absf main_arg7
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x1 .f32 := Host.absf main_arg8
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S1 .f32 := Host.absf main_arg9
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_arg5 main_v13 main_v16
-- ==== Kernel.lean ====
abbrev S1024 : Shape := ⟨1, ![1024]⟩
abbrev S1024x2 : Shape := ⟨2, ![1024, 2]⟩
abbrev S200000x16 : Shape := ⟨2, ![200000, 16]⟩
abbrev S2000000x2 : Shape := ⟨2, ![2000000, 2]⟩
abbrev S2000000 : Shape := ⟨1, ![2000000]⟩
abbrev S16x64 : Shape := ⟨2, ![16, 64]⟩
abbrev S200000x64 : Shape := ⟨2, ![200000, 64]⟩
abbrev S64x1 : Shape := ⟨2, ![64, 1]⟩
abbrev S1 : Shape := ⟨1, ![1]⟩
abbrev S1024x1 : Shape := ⟨2, ![1024, 1]⟩
abbrev S_ : Shape := ⟨0, ![]⟩
abbrev S1024x2x1 : Shape := ⟨3, ![1024, 2, 1]⟩
abbrev S1024x2x16 : Shape := ⟨3, ![1024, 2, 16]⟩
abbrev S1024x32 : Shape := ⟨2, ![1024, 32]⟩
abbrev S1024x32x1 : Shape := ⟨3, ![1024, 32, 1]⟩
abbrev S1024x32x2 : Shape := ⟨3, ![1024, 32, 2]⟩
abbrev S1024x64 : Shape := ⟨2, ![1024, 64]⟩
abbrev S1024x64x1 : Shape := ⟨3, ![1024, 64, 1]⟩
abbrev S1024x64x16 : Shape := ⟨3, ![1024, 64, 16]⟩
abbrev S1024x1024 : Shape := ⟨2, ![1024, 1024]⟩
abbrev S1024x1024x1 : Shape := ⟨3, ![1024, 1024, 1]⟩
abbrev S2048 : Shape := ⟨1, ![2048]⟩
abbrev S2048x1 : Shape := ⟨2, ![2048, 1]⟩
abbrev S2048x64 : Shape := ⟨2, ![2048, 64]⟩
abbrev S65536 : Shape := ⟨1, ![65536]⟩
abbrev S65536x1 : Shape := ⟨2, ![65536, 1]⟩
abbrev S65536x64 : Shape := ⟨2, ![65536, 64]⟩
abbrev S1x64 : Shape := ⟨2, ![1, 64]⟩
abbrev S32x1 : Shape := ⟨2, ![32, 1]⟩
abbrev S32x32 : Shape := ⟨2, ![32, 32]⟩
abbrev S32x1024 : Shape := ⟨2, ![32, 1024]⟩
abbrev S64x64 : Shape := ⟨2, ![64, 64]⟩
abbrev S1x1x16 : Shape := ⟨3, ![1, 1, 16]⟩
abbrev S32x1x1 : Shape := ⟨3, ![32, 1, 1]⟩
abbrev S32x1x16 : Shape := ⟨3, ![32, 1, 16]⟩
abbrev S32x16 : Shape := ⟨2, ![32, 16]⟩
abbrev S32x64 : Shape := ⟨2, ![32, 64]⟩
abbrev S32x1x64 : Shape := ⟨3, ![32, 1, 64]⟩
abbrev S32x32x1 : Shape := ⟨3, ![32, 32, 1]⟩
abbrev S32x32x16 : Shape := ⟨3, ![32, 32, 16]⟩
abbrev S1024x16 : Shape := ⟨2, ![1024, 16]⟩
abbrev S32x32x64 : Shape := ⟨3, ![32, 32, 64]⟩
abbrev S32x1x2x64 : Shape := ⟨4, ![32, 1, 2, 64]⟩
abbrev S32x32x2x64 : Shape := ⟨4, ![32, 32, 2, 64]⟩
abbrev S32x1x2x16x64 : Shape := ⟨5, ![32, 1, 2, 16, 64]⟩
abbrev S32x1024x1 : Shape := ⟨3, ![32, 1024, 1]⟩
abbrev S32x1024x16 : Shape := ⟨3, ![32, 1024, 16]⟩
abbrev S32x32x2x16x16 : Shape := ⟨5, ![32, 32, 2, 16, 16]⟩
abbrev S32x32x2x16 : Shape := ⟨4, ![32, 32, 2, 16]⟩
abbrev S32x32x2 : Shape := ⟨3, ![32, 32, 2]⟩
abbrev S32x32x2x1 : Shape := ⟨4, ![32, 32, 2, 1]⟩
abbrev S2048x16 : Shape := ⟨2, ![2048, 16]⟩
abbrev S32 : Shape := ⟨1, ![32]⟩

abbrev nBuf : Space → Nat
  | .hbm => 92
  | .vmem => 18
  | .smem => 0
  | _ => 0

abbrev bufTy : (tb : Table) → Fin (tcTables nBuf tb) → BufTy
  | .hbm, ⟨0, _⟩ => ⟨S1024, .i32⟩
  | .hbm, ⟨1, _⟩ => ⟨S1024x2, .i32⟩
  | .hbm, ⟨2, _⟩ => ⟨S1024, .i32⟩
  | .hbm, ⟨3, _⟩ => ⟨S200000x16, .i32⟩
  | .hbm, ⟨4, _⟩ => ⟨S2000000x2, .i32⟩
  | .hbm, ⟨5, _⟩ => ⟨S2000000, .i32⟩
  | .hbm, ⟨6, _⟩ => ⟨S16x64, .f32⟩
  | .hbm, ⟨7, _⟩ => ⟨S200000x64, .f32⟩
  | .hbm, ⟨8, _⟩ => ⟨S64x1, .f32⟩
  | .hbm, ⟨9, _⟩ => ⟨S1, .f32⟩
  | .hbm, ⟨10, _⟩ => ⟨S1024x1, .i32⟩
  | .hbm, ⟨11, _⟩ => ⟨S_, .i32⟩
  | .hbm, ⟨12, _⟩ => ⟨S1024x2, .i32⟩
  | .hbm, ⟨13, _⟩ => ⟨S1024x2, .i1⟩
  | .hbm, ⟨14, _⟩ => ⟨S_, .i32⟩
  | .hbm, ⟨15, _⟩ => ⟨S1024x2, .i32⟩
  | .hbm, ⟨16, _⟩ => ⟨S1024x2, .i32⟩
  | .hbm, ⟨17, _⟩ => ⟨S1024x2, .i32⟩
  | .hbm, ⟨18, _⟩ => ⟨S1024x2x1, .i32⟩
  | .hbm, ⟨19, _⟩ => ⟨S1024x2x16, .i32⟩
  | .hbm, ⟨20, _⟩ => ⟨S1024x32, .i32⟩
  | .hbm, ⟨21, _⟩ => ⟨S1024x32, .i32⟩
  | .hbm, ⟨22, _⟩ => ⟨S1024x32, .i1⟩
  | .hbm, ⟨23, _⟩ => ⟨S1024x32, .f32⟩
  | .hbm, ⟨24, _⟩ => ⟨S_, .i32⟩
  | .hbm, ⟨25, _⟩ => ⟨S1024x32, .i32⟩
  | .hbm, ⟨26, _⟩ => ⟨S1024x32, .i1⟩
  | .hbm, ⟨27, _⟩ => ⟨S_, .i32⟩
  | .hbm, ⟨28, _⟩ => ⟨S1024x32, .i32⟩
  | .hbm, ⟨29, _⟩ => ⟨S1024x32, .i32⟩
  | .hbm, ⟨30, _⟩ => ⟨S1024x32, .i32⟩
  | .hbm, ⟨31, _⟩ => ⟨S1024x32x1, .i32⟩
  | .hbm, ⟨32, _⟩ => ⟨S1024x32x2, .i32⟩
  | .hbm, ⟨33, _⟩ => ⟨S1024x64, .i32⟩
  | .hbm, ⟨34, _⟩ => ⟨S_, .i32⟩
  | .hbm, ⟨35, _⟩ => ⟨S1024x64, .i32⟩
  | .hbm, ⟨36, _⟩ => ⟨S1024x64, .i1⟩
  | .hbm, ⟨37, _⟩ => ⟨S_, .i32⟩
  | .hbm, ⟨38, _⟩ => ⟨S1024x64, .i32⟩
  | .hbm, ⟨39, _⟩ => ⟨S1024x64, .i32⟩
  | .hbm, ⟨40, _⟩ => ⟨S1024x64, .i32⟩
  | .hbm, ⟨41, _⟩ => ⟨S1024x64x1, .i32⟩
  | .hbm, ⟨42, _⟩ => ⟨S1024x64x16, .i32⟩
  | .hbm, ⟨43, _⟩ => ⟨S1024x1024, .i32⟩
  | .hbm, ⟨44, _⟩ => ⟨S1024x1024, .i32⟩
  | .hbm, ⟨45, _⟩ => ⟨S1024x1024, .i1⟩
  | .hbm, ⟨46, _⟩ => ⟨S1024x1024, .f32⟩
  | .hbm, ⟨47, _⟩ => ⟨S1024x1, .i32⟩
  | .hbm, ⟨48, _⟩ => ⟨S_, .i32⟩
  | .hbm, ⟨49, _⟩ => ⟨S1024x32, .i32⟩
  | .hbm, ⟨50, _⟩ => ⟨S1024x32, .i1⟩
  | .hbm, ⟨51, _⟩ => ⟨S_, .i32⟩
  | .hbm, ⟨52, _⟩ => ⟨S1024x32, .i32⟩
  | .hbm, ⟨53, _⟩ => ⟨S1024x32, .i32⟩
  | .hbm, ⟨54, _⟩ => ⟨S1024x32, .i32⟩
  | .hbm, ⟨55, _⟩ => ⟨S1024x32x1, .i32⟩
  | .hbm, ⟨56, _⟩ => ⟨S1024x32, .i32⟩
  | .hbm, ⟨57, _⟩ => ⟨S_, .i32⟩
  | .hbm, ⟨58, _⟩ => ⟨S1024x1024, .i32⟩
  | .hbm, ⟨59, _⟩ => ⟨S1024x1024, .i1⟩
  | .hbm, ⟨60, _⟩ => ⟨S_, .i32⟩
  | .hbm, ⟨61, _⟩ => ⟨S1024x1024, .i32⟩
  | .hbm, ⟨62, _⟩ => ⟨S1024x1024, .i32⟩
  | .hbm, ⟨63, _⟩ => ⟨S1024x1024, .i32⟩
  | .hbm, ⟨64, _⟩ => ⟨S1024x1024x1, .i32⟩
  | .hbm, ⟨65, _⟩ => ⟨S1024x1024, .i32⟩
  | .hbm, ⟨66, _⟩ => ⟨S2048, .i32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S2048x64, .f32⟩
  | .hbm, ⟨76, _⟩ => ⟨S65536, .i32⟩
  | .hbm, ⟨77, _⟩ => ⟨S_, .i32⟩
  | .hbm, ⟨78, _⟩ => ⟨S65536, .i32⟩
  | .hbm, ⟨79, _⟩ => ⟨S65536, .i1⟩
  | .hbm, ⟨80, _⟩ => ⟨S_, .i32⟩
  | .hbm, ⟨81, _⟩ => ⟨S65536, .i32⟩
  | .hbm, ⟨82, _⟩ => ⟨S65536, .i32⟩
  | .hbm, ⟨83, _⟩ => ⟨S65536, .i32⟩
  | .hbm, ⟨84, _⟩ => ⟨S65536x1, .i32⟩
  | .hbm, ⟨85, _⟩ => ⟨S65536x64, .f32⟩
  | .hbm, ⟨86, _⟩ => ⟨S1x64, .f32⟩
  | .hbm, ⟨87, _⟩ => ⟨S1024x1, .f32⟩
  | .hbm, ⟨88, _⟩ => ⟨S1024, .f32⟩
  | .hbm, ⟨89, _⟩ => ⟨S_, .f32⟩
  | .hbm, ⟨90, _⟩ => ⟨S1024, .f32⟩
  | .hbm, ⟨91, _⟩ => ⟨S1024, .f32⟩
  | .local _ .vmem, ⟨0, _⟩ => ⟨S32x1, .i32⟩
  | .local _ .vmem, ⟨1, _⟩ => ⟨S32x1, .i32⟩
  | .local _ .vmem, ⟨2, _⟩ => ⟨S32x32, .i32⟩
  | .local _ .vmem, ⟨3, _⟩ => ⟨S32x32, .i32⟩
  | .local _ .vmem, ⟨4, _⟩ => ⟨S32x1024, .i32⟩
  | .local _ .vmem, ⟨5, _⟩ => ⟨S32x1024, .i32⟩
  | .local _ .vmem, ⟨6, _⟩ => ⟨S32x32, .f32⟩
  | .local _ .vmem, ⟨7, _⟩ => ⟨S32x32, .f32⟩
  | .local _ .vmem, ⟨8, _⟩ => ⟨S32x1024, .f32⟩
  | .local _ .vmem, ⟨9, _⟩ => ⟨S32x1024, .f32⟩
  | .local _ .vmem, ⟨10, _⟩ => ⟨S64x64, .f32⟩
  | .local _ .vmem, ⟨11, _⟩ => ⟨S64x64, .f32⟩
  | .local _ .vmem, ⟨12, _⟩ => ⟨S2048x64, .f32⟩
  | .local _ .vmem, ⟨13, _⟩ => ⟨S2048x64, .f32⟩
  | .local _ .vmem, ⟨14, _⟩ => ⟨S16x64, .f32⟩
  | .local _ .vmem, ⟨15, _⟩ => ⟨S1x64, .f32⟩
  | .local _ .vmem, ⟨16, _⟩ => ⟨S32x1, .f32⟩
  | .local _ .vmem, ⟨17, _⟩ => ⟨S32x1, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S1024_S1024x1_0 : S1024.BroadcastsInDim S1024x1 (![0] : Fin 1 → Fin S1024x1.rank)
  bcast_S_S1024x2 : S_.BroadcastsInDim S1024x2 (![] : Fin 0 → Fin S1024x2.rank)
  bcast_S1024x2_S1024x2x1_0_1 : S1024x2.BroadcastsInDim S1024x2x1 (![0, 1] : Fin 2 → Fin S1024x2x1.rank)
  shapeCasts_S1024x2x16_S1024x32 : S1024x2x16.ShapeCasts S1024x32
  bcast_S1024x1_S1024x32_0_1 : S1024x1.BroadcastsInDim S1024x32 (![0, 1] : Fin 2 → Fin S1024x32.rank)
  bcast_S_S1024x32 : S_.BroadcastsInDim S1024x32 (![] : Fin 0 → Fin S1024x32.rank)
  bcast_S1024x32_S1024x32x1_0_1 : S1024x32.BroadcastsInDim S1024x32x1 (![0, 1] : Fin 2 → Fin S1024x32x1.rank)
  shapeCasts_S1024x32x2_S1024x64 : S1024x32x2.ShapeCasts S1024x64
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  shapeCasts_S1024x64x16_S1024x1024 : S1024x64x16.ShapeCasts S1024x1024
  bcast_S1024x1_S1024x1024_0_1 : S1024x1.BroadcastsInDim S1024x1024 (![0, 1] : Fin 2 → Fin S1024x1024.rank)
  shapeCasts_S1024_S1024x1 : S1024.ShapeCasts S1024x1
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  shapeCasts_S1024x2_S2048 : S1024x2.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  shapeCasts_S1024x32x2_S65536 : S1024x32x2.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  shapeCasts_S64x1_S1x64 : S64x1.ShapeCasts S1x64
  iota_S1x1x16_d2_w32 : S1x1x16.Iotas .tc 32 [2]
  inb_S16x64_S16x64_0_0 : ∀ a, (![0, 0] : Fin 2 → Nat) a + S16x64.size a ≤ S16x64.size a
  h_S16x64 : 0 < S16x64.numel
  bitsLt_bf16_f32 : FTy.bits .bf16 < FTy.bits .f32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x1_S32x1x1 : S32x1.ShapeCasts S32x1x1
  broadcasts_S32x1x1_S32x1x16 : S32x1x1.Broadcasts S32x1x16
  broadcasts_S1x1x16_S32x1x16 : S1x1x16.Broadcasts S32x1x16
  natLt_1_32 : 1 < 32
  shapeCasts_S32x1x16_S32x16 : S32x1x16.ShapeCasts S32x16
  shapeCasts_S32x64_S32x1x64 : S32x64.ShapeCasts S32x1x64
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S32x32_S32x32x1 : S32x32.ShapeCasts S32x32x1
  broadcasts_S32x32x1_S32x32x16 : S32x32x1.Broadcasts S32x32x16
  broadcasts_S1x1x16_S32x32x16 : S1x1x16.Broadcasts S32x32x16
  shapeCasts_S32x32x16_S1024x16 : S32x32x16.ShapeCasts S1024x16
  shapeCasts_S1024x64_S32x32x64 : S1024x64.ShapeCasts S32x32x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x64_S32x1x2x64 : S64x64.ShapeCasts S32x1x2x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S2048x64_S32x32x2x64 : S2048x64.ShapeCasts S32x32x2x64
  shapeCasts_S32x32x1_S32x32x1 : S32x32x1.ShapeCasts S32x32x1
  broadcasts_S32x32x1_S32x32x64 : S32x32x1.Broadcasts S32x32x64
  shapeCasts_S32x32x64_S32x1x2x16x64 : S32x32x64.ShapeCasts S32x1x2x16x64
  reduces_S32x1x2x16x64_S32x1x2x64 : S32x1x2x16x64.Reduces [3] S32x1x2x64
  reduces_S32x1x2x64_S32x1x64 : S32x1x2x64.Reduces [2] S32x1x64
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  shapeCasts_S32x1024_S32x1024x1 : S32x1024.ShapeCasts S32x1024x1
  broadcasts_S32x1024x1_S32x1024x16 : S32x1024x1.Broadcasts S32x1024x16
  broadcasts_S1x1x16_S32x1024x16 : S1x1x16.Broadcasts S32x1024x16
  shapeCasts_S32x1024x1_S32x1024x1 : S32x1024x1.ShapeCasts S32x1024x1
  shapeCasts_S32x1024x16_S32x32x2x16x16 : S32x1024x16.ShapeCasts S32x32x2x16x16
  reduces_S32x32x2x16x16_S32x32x2x16 : S32x32x2x16x16.Reduces [3] S32x32x2x16
  reduces_S32x32x2x16_S32x32x2 : S32x32x2x16.Reduces [3] S32x32x2
  shapeCasts_S32x32x2_S32x32x2x1 : S32x32x2.ShapeCasts S32x32x2x1
  shapeCasts_S32x32x2x16_S2048x16 : S32x32x2x16.ShapeCasts S2048x16
  broadcasts_S32x32x2x1_S32x32x2x64 : S32x32x2x1.Broadcasts S32x32x2x64
  reduces_S32x32x2x64_S32x32x64 : S32x32x2x64.Reduces [2] S32x32x64
  shapeCasts_S32x1x64_S32x64 : S32x1x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S32x64 : S1x64.Broadcasts S32x64
  reduces_S32x64_S32 : S32x64.Reduces [1] S32
  shapeCasts_S32_S32x1 : S32.ShapeCasts S32x1
  shapeCasts_S1024x1_S1024 : S1024x1.ShapeCasts S1024
  shapeCasts_S1_S_ : S1.ShapeCasts S_
  bcast_S_S1024 : S_.BroadcastsInDim S1024 (![] : Fin 0 → Fin S1024.rank)
  gather_S200000x16_S1024x2x1_S1024x2x16_2_0_n_n_0_2_116_wf : GatherDims.WF S200000x16 S1024x2x1 S1024x2x16 [2] [0] [] [0] [] 2 ![1, 16]
  gather_S2000000x2_S1024x32x1_S1024x32x2_2_0_n_n_0_2_12_wf : GatherDims.WF S2000000x2 S1024x32x1 S1024x32x2 [2] [0] [] [0] [] 2 ![1, 2]
  gather_S200000x16_S1024x64x1_S1024x64x16_2_0_n_n_0_2_116_wf : GatherDims.WF S200000x16 S1024x64x1 S1024x64x16 [2] [0] [] [0] [] 2 ![1, 16]
  gather_S2000000_S1024x32x1_S1024x32_n_0_n_n_0_2_1_wf : GatherDims.WF S2000000 S1024x32x1 S1024x32 [] [0] [] [0] [] 2 ![1]
  gather_S2000000_S1024x1024x1_S1024x1024_n_0_n_n_0_2_1_wf : GatherDims.WF S2000000 S1024x1024x1 S1024x1024 [] [0] [] [0] [] 2 ![1]
  gather_S200000x64_S2048x1_S2048x64_1_0_n_n_0_1_164_wf : GatherDims.WF S200000x64 S2048x1 S2048x64 [1] [0] [] [0] [] 1 ![1, 64]
  gather_S200000x64_S65536x1_S65536x64_1_0_n_n_0_1_164_wf : GatherDims.WF S200000x64 S65536x1 S65536x64 [1] [0] [] [0] [] 1 ![1, 64]
  dot_S32x16_S16x64_S32x64_1_0_0_1_n_n_wf : DotDims.WF S32x16 S16x64 S32x64 [1] [0] [0] [1] [] []
  dot_S1024x16_S16x64_S1024x64_1_0_0_1_n_n_wf : DotDims.WF S1024x16 S16x64 S1024x64 [1] [0] [0] [1] [] []
  dot_S2048x16_S16x64_S2048x64_1_0_0_1_n_n_wf : DotDims.WF S2048x16 S16x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1.size a ≤ S1024x1.size a
  hwx0_0 : ∀ i : grid0.Coords, EltTy.bits .i32 = 32 ∨ (Rect.block (s := S1024x1) S32x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S1024x32.size a
  hwx0_1 : ∀ i : grid0.Coords, EltTy.bits .i32 = 32 ∨ (Rect.block (s := S1024x32) S32x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S1024x1024.size a
  hwx0_2 : ∀ i : grid0.Coords, EltTy.bits .i32 = 32 ∨ (Rect.block (s := S1024x1024) S32x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S1024x32.size a
  hwx0_3 : ∀ i : grid0.Coords, EltTy.bits .f32 = 32 ∨ (Rect.block (s := S1024x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S1024x1024.size a
  hwx0_4 : ∀ i : grid0.Coords, EltTy.bits .f32 = 32 ∨ (Rect.block (s := S1024x1024) S32x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S2048x64.size a
  hwx0_5 : ∀ i : grid0.Coords, EltTy.bits .f32 = 32 ∨ (Rect.block (s := S2048x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S65536x64.size a
  hwx0_6 : ∀ i : grid0.Coords, EltTy.bits .f32 = 32 ∨ (Rect.block (s := S65536x64) S2048x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x64.size a ≤ S16x64.size a
  hwx0_7 : ∀ i : grid0.Coords, EltTy.bits .f32 = 32 ∨ (Rect.block (s := S16x64) S16x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S1024x1.size a
  hwx0_9 : ∀ i : grid0.Coords, EltTy.bits .f32 = 32 ∨ (Rect.block (s := S1024x1) S32x1.size (cc0_transform_9 i) (hinb0_9 i)).WholeWords (EltTy.packing .f32)

variable [Facts₀]

def gather_S200000x16_S1024x2x1_S1024x2x16_2_0_n_n_0_2_116 : GatherDims S200000x16 S1024x2x1 S1024x2x16 where
  offsetDims := [2]
  collapsedSliceDims := [0]
  operandBatchingDims := []
  startIndicesBatchingDims := []
  startIndexMap := [0]
  indexVectorDim := 2
  sliceSizes := ![1, 16]
  wf := gather_S200000x16_S1024x2x1_S1024x2x16_2_0_n_n_0_2_116_wf
def gather_S2000000x2_S1024x32x1_S1024x32x2_2_0_n_n_0_2_12 : GatherDims S2000000x2 S1024x32x1 S1024x32x2 where
  offsetDims := [2]
  collapsedSliceDims := [0]
  operandBatchingDims := []
  startIndicesBatchingDims := []
  startIndexMap := [0]
  indexVectorDim := 2
  sliceSizes := ![1, 2]
  wf := gather_S2000000x2_S1024x32x1_S1024x32x2_2_0_n_n_0_2_12_wf
def gather_S200000x16_S1024x64x1_S1024x64x16_2_0_n_n_0_2_116 : GatherDims S200000x16 S1024x64x1 S1024x64x16 where
  offsetDims := [2]
  collapsedSliceDims := [0]
  operandBatchingDims := []
  startIndicesBatchingDims := []
  startIndexMap := [0]
  indexVectorDim := 2
  sliceSizes := ![1, 16]
  wf := gather_S200000x16_S1024x64x1_S1024x64x16_2_0_n_n_0_2_116_wf
def gather_S2000000_S1024x32x1_S1024x32_n_0_n_n_0_2_1 : GatherDims S2000000 S1024x32x1 S1024x32 where
  offsetDims := []
  collapsedSliceDims := [0]
  operandBatchingDims := []
  startIndicesBatchingDims := []
  startIndexMap := [0]
  indexVectorDim := 2
  sliceSizes := ![1]
  wf := gather_S2000000_S1024x32x1_S1024x32_n_0_n_n_0_2_1_wf
def gather_S2000000_S1024x1024x1_S1024x1024_n_0_n_n_0_2_1 : GatherDims S2000000 S1024x1024x1 S1024x1024 where
  offsetDims := []
  collapsedSliceDims := [0]
  operandBatchingDims := []
  startIndicesBatchingDims := []
  startIndexMap := [0]
  indexVectorDim := 2
  sliceSizes := ![1]
  wf := gather_S2000000_S1024x1024x1_S1024x1024_n_0_n_n_0_2_1_wf
def gather_S200000x64_S2048x1_S2048x64_1_0_n_n_0_1_164 : GatherDims S200000x64 S2048x1 S2048x64 where
  offsetDims := [1]
  collapsedSliceDims := [0]
  operandBatchingDims := []
  startIndicesBatchingDims := []
  startIndexMap := [0]
  indexVectorDim := 1
  sliceSizes := ![1, 64]
  wf := gather_S200000x64_S2048x1_S2048x64_1_0_n_n_0_1_164_wf
def gather_S200000x64_S65536x1_S65536x64_1_0_n_n_0_1_164 : GatherDims S200000x64 S65536x1 S65536x64 where
  offsetDims := [1]
  collapsedSliceDims := [0]
  operandBatchingDims := []
  startIndicesBatchingDims := []
  startIndexMap := [0]
  indexVectorDim := 1
  sliceSizes := ![1, 64]
  wf := gather_S200000x64_S65536x1_S65536x64_1_0_n_n_0_1_164_wf
def dot_S32x16_S16x64_S32x64_1_0_0_1_n_n : DotDims S32x16 S16x64 S32x64 where
  lhsContracting := [1]
  rhsContracting := [0]
  lhsNonContracting := [0]
  rhsNonContracting := [1]
  lhsBatch := []
  rhsBatch := []
  wf := dot_S32x16_S16x64_S32x64_1_0_0_1_n_n_wf
def dot_S1024x16_S16x64_S1024x64_1_0_0_1_n_n : DotDims S1024x16 S16x64 S1024x64 where
  lhsContracting := [1]
  rhsContracting := [0]
  lhsNonContracting := [0]
  rhsNonContracting := [1]
  lhsBatch := []
  rhsBatch := []
  wf := dot_S1024x16_S16x64_S1024x64_1_0_0_1_n_n_wf
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf

abbrev win0_0 : Pipeline.Window sig grid0 :=
  Pipeline.Window.ofSpec (Memref.whole main_v31) S32x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S32x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S32x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v53) S64x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v61) S2048x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v62) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v63) S32x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024 : Shape := ⟨1, ![1024]⟩
abbrev S1024x2 : Shape := ⟨2, ![1024, 2]⟩
abbrev S200000x16 : Shape := ⟨2, ![200000, 16]⟩
abbrev S2000000x2 : Shape := ⟨2, ![2000000, 2]⟩
abbrev S2000000 : Shape := ⟨1, ![2000000]⟩
abbrev S16x64 : Shape := ⟨2, ![16, 64]⟩
abbrev S200000x64 : Shape := ⟨2, ![200000, 64]⟩
abbrev S64x1 : Shape := ⟨2, ![64, 1]⟩
abbrev S1 : Shape := ⟨1, ![1]⟩
abbrev S1024x1 : Shape := ⟨2, ![1024, 1]⟩
abbrev S_ : Shape := ⟨0, ![]⟩
abbrev S1024x2x1 : Shape := ⟨3, ![1024, 2, 1]⟩
abbrev S1024x2x16 : Shape := ⟨3, ![1024, 2, 16]⟩
abbrev S1024x32 : Shape := ⟨2, ![1024, 32]⟩
abbrev S1024x32x1 : Shape := ⟨3, ![1024, 32, 1]⟩
abbrev S1024x32x2 : Shape := ⟨3, ![1024, 32, 2]⟩
abbrev S1024x64 : Shape := ⟨2, ![1024, 64]⟩
abbrev S1024x64x1 : Shape := ⟨3, ![1024, 64, 1]⟩
abbrev S1024x64x16 : Shape := ⟨3, ![1024, 64, 16]⟩
abbrev S1024x1024 : Shape := ⟨2, ![1024, 1024]⟩
abbrev S1024x2x64 : Shape := ⟨3, ![1024, 2, 64]⟩
abbrev S1024x32x2x1 : Shape := ⟨4, ![1024, 32, 2, 1]⟩
abbrev S1024x32x2x64 : Shape := ⟨4, ![1024, 32, 2, 64]⟩
abbrev S1024x32x64 : Shape := ⟨3, ![1024, 32, 64]⟩
abbrev S1024x1024x1 : Shape := ⟨3, ![1024, 1024, 1]⟩
abbrev S1024x1024x64 : Shape := ⟨3, ![1024, 1024, 64]⟩
abbrev S1024x1x64 : Shape := ⟨3, ![1024, 1, 64]⟩
abbrev S1024x1x2x64 : Shape := ⟨4, ![1024, 1, 2, 64]⟩
abbrev S1024x1x2x16x64 : Shape := ⟨5, ![1024, 1, 2, 16, 64]⟩
abbrev S1024x1x2x16x1 : Shape := ⟨5, ![1024, 1, 2, 16, 1]⟩
abbrev S1024x1x2x1 : Shape := ⟨4, ![1024, 1, 2, 1]⟩
abbrev S1024x32x2x16x64 : Shape := ⟨5, ![1024, 32, 2, 16, 64]⟩
abbrev S1024x32x2x16x1 : Shape := ⟨5, ![1024, 32, 2, 16, 1]⟩
abbrev S1x1 : Shape := ⟨2, ![1, 1]⟩

abbrev nBuf : Space → Nat
  | .hbm => 206
  | .vmem => 0
  | .smem => 0
  | _ => 0

abbrev hbmTy0_0 (i : Nat) : BufTy := match i % 128 with
  | 0 => ⟨S1024, .i32⟩
  | 1 => ⟨S1024x2, .i32⟩
  | 2 => ⟨S1024, .i32⟩
  | 3 => ⟨S200000x16, .i32⟩
  | 4 => ⟨S2000000x2, .i32⟩
  | 5 => ⟨S2000000, .i32⟩
  | 6 => ⟨S16x64, .f32⟩
  | 7 => ⟨S200000x64, .f32⟩
  | 8 => ⟨S64x1, .f32⟩
  | 9 => ⟨S1, .f32⟩
  | 10 => ⟨S1024x1, .i32⟩
  | 11 => ⟨S_, .i32⟩
  | 12 => ⟨S1024x2, .i32⟩
  | 13 => ⟨S1024x2, .i1⟩
  | 14 => ⟨S_, .i32⟩
  | 15 => ⟨S1024x2, .i32⟩
  | 16 => ⟨S1024x2, .i32⟩
  | 17 => ⟨S1024x2, .i32⟩
  | 18 => ⟨S1024x2x1, .i32⟩
  | 19 => ⟨S1024x2x16, .i32⟩
  | 20 => ⟨S1024x32, .i32⟩
  | 21 => ⟨S1024x32, .i32⟩
  | 22 => ⟨S1024x32, .i1⟩
  | 23 => ⟨S1024x32, .f32⟩
  | 24 => ⟨S_, .i32⟩
  | 25 => ⟨S1024x32, .i32⟩
  | 26 => ⟨S1024x32, .i1⟩
  | 27 => ⟨S_, .i32⟩
  | 28 => ⟨S1024x32, .i32⟩
  | 29 => ⟨S1024x32, .i32⟩
  | 30 => ⟨S1024x32, .i32⟩
  | 31 => ⟨S1024x32x1, .i32⟩
  | 32 => ⟨S1024x32x2, .i32⟩
  | 33 => ⟨S1024x64, .i32⟩
  | 34 => ⟨S_, .i32⟩
  | 35 => ⟨S1024x64, .i32⟩
  | 36 => ⟨S1024x64, .i1⟩
  | 37 => ⟨S_, .i32⟩
  | 38 => ⟨S1024x64, .i32⟩
  | 39 => ⟨S1024x64, .i32⟩
  | 40 => ⟨S1024x64, .i32⟩
  | 41 => ⟨S1024x64x1, .i32⟩
  | 42 => ⟨S1024x64x16, .i32⟩
  | 43 => ⟨S1024x1024, .i32⟩
  | 44 => ⟨S1024x1024, .i32⟩
  | 45 => ⟨S1024x1024, .i1⟩
  | 46 => ⟨S1024x1024, .f32⟩
  | 47 => ⟨S_, .i32⟩
  | 48 => ⟨S1024x2, .i32⟩
  | 49 => ⟨S1024x2, .i1⟩
  | 50 => ⟨S_, .i32⟩
  | 51 => ⟨S1024x2, .i32⟩
  | 52 => ⟨S1024x2, .i32⟩
  | 53 => ⟨S1024x2, .i32⟩
  | 54 => ⟨S1024x2x1, .i32⟩
  | 55 => ⟨S1024x2x64, .f32⟩
  | 56 => ⟨S_, .i32⟩
  | 57 => ⟨S1024x32x2, .i32⟩
  | 58 => ⟨S1024x32x2, .i1⟩
  | 59 => ⟨S_, .i32⟩
  | 60 => ⟨S1024x32x2, .i32⟩
  | 61 => ⟨S1024x32x2, .i32⟩
  | 62 => ⟨S1024x32x2, .i32⟩
  | 63 => ⟨S1024x32x2x1, .i32⟩
  | 64 => ⟨S1024x32x2x64, .f32⟩
  | 65 => ⟨S_, .i32⟩
  | 66 => ⟨S1024, .i32⟩
  | 67 => ⟨S1024, .i1⟩
  | 68 => ⟨S_, .i32⟩
  | 69 => ⟨S1024, .i32⟩
  | 70 => ⟨S1024, .i32⟩
  | 71 => ⟨S1024, .i32⟩
  | 72 => ⟨S1024x1, .i32⟩
  | 73 => ⟨S1024x64, .f32⟩
  | 74 => ⟨S_, .i32⟩
  | 75 => ⟨S1024x32, .i32⟩
  | 76 => ⟨S1024x32, .i1⟩
  | 77 => ⟨S_, .i32⟩
  | 78 => ⟨S1024x32, .i32⟩
  | 79 => ⟨S1024x32, .i32⟩
  | 80 => ⟨S1024x32, .i32⟩
  | 81 => ⟨S1024x32x1, .i32⟩
  | 82 => ⟨S1024x32, .i32⟩
  | 83 => ⟨S_, .i32⟩
  | 84 => ⟨S1024x32, .i32⟩
  | 85 => ⟨S1024x32, .i1⟩
  | 86 => ⟨S_, .i32⟩
  | 87 => ⟨S1024x32, .i32⟩
  | 88 => ⟨S1024x32, .i32⟩
  | 89 => ⟨S1024x32, .i32⟩
  | 90 => ⟨S1024x32x1, .i32⟩
  | 91 => ⟨S1024x32x64, .f32⟩
  | 92 => ⟨S_, .i32⟩
  | 93 => ⟨S1024x1024, .i32⟩
  | 94 => ⟨S1024x1024, .i1⟩
  | 95 => ⟨S_, .i32⟩
  | 96 => ⟨S1024x1024, .i32⟩
  | 97 => ⟨S1024x1024, .i32⟩
  | 98 => ⟨S1024x1024, .i32⟩
  | 99 => ⟨S1024x1024x1, .i32⟩
  | 100 => ⟨S1024x1024, .i32⟩
  | 101 => ⟨S_, .i32⟩
  | 102 => ⟨S1024x1024, .i32⟩
  | 103 => ⟨S1024x1024, .i1⟩
  | 104 => ⟨S_, .i32⟩
  | 105 => ⟨S1024x1024, .i32⟩
  | 106 => ⟨S1024x1024, .i32⟩
  | 107 => ⟨S1024x1024, .i32⟩
  | 108 => ⟨S1024x1024x1, .i32⟩
  | 109 => ⟨S1024x1024x64, .f32⟩
  | 110 => ⟨S1024x1x64, .f32⟩
  | 111 => ⟨S1024x1x2x64, .f32⟩
  | 112 => ⟨S1024x1x2x16x64, .f32⟩
  | 113 => ⟨S1024x1x2x16x1, .f32⟩
  | 114 => ⟨S_, .f32⟩
  | 115 => ⟨S1024x1x2x1, .f32⟩
  | 116 => ⟨S_, .f32⟩
  | 117 => ⟨S1024x1x2x1, .f32⟩
  | 118 => ⟨S1024x1x2x1, .i1⟩
  | 119 => ⟨S_, .f32⟩
  | 120 => ⟨S1024x1x2x1, .f32⟩
  | 121 => ⟨S1024x1x2x1, .f32⟩
  | 122 => ⟨S1024x1x2x16x64, .f32⟩
  | 123 => ⟨S1024x1x2x16x64, .f32⟩
  | 124 => ⟨S_, .f32⟩
  | 125 => ⟨S1024x1x2x64, .f32⟩
  | 126 => ⟨S1024x1x2x64, .f32⟩
  | 127 => ⟨S1024x1x2x64, .f32⟩
  | _ => ⟨S1024, .i32⟩

abbrev hbmTy0_1 (i : Nat) : BufTy := match i % 128 with
  | 0 => ⟨S_, .f32⟩
  | 1 => ⟨S1024x1x2x64, .f32⟩
  | 2 => ⟨S1024x1x2x64, .f32⟩
  | 3 => ⟨S1024x1x2x64, .f32⟩
  | 4 => ⟨S_, .f32⟩
  | 5 => ⟨S1024x1x64, .f32⟩
  | 6 => ⟨S_, .f32⟩
  | 7 => ⟨S1024x1x64, .f32⟩
  | 8 => ⟨S1024x1x64, .f32⟩
  | 9 => ⟨S_, .f32⟩
  | 10 => ⟨S1024x1x64, .f32⟩
  | 11 => ⟨S1024x1x64, .f32⟩
  | 12 => ⟨S1024x1x64, .f32⟩
  | 13 => ⟨S1024x32x2x16x64, .f32⟩
  | 14 => ⟨S1024x32x2x16x1, .f32⟩
  | 15 => ⟨S_, .f32⟩
  | 16 => ⟨S1024x32x2x1, .f32⟩
  | 17 => ⟨S_, .f32⟩
  | 18 => ⟨S1024x32x2x1, .f32⟩
  | 19 => ⟨S1024x32x2x1, .i1⟩
  | 20 => ⟨S_, .f32⟩
  | 21 => ⟨S1024x32x2x1, .f32⟩
  | 22 => ⟨S1024x32x2x1, .f32⟩
  | 23 => ⟨S1024x32x2x16x64, .f32⟩
  | 24 => ⟨S1024x32x2x16x64, .f32⟩
  | 25 => ⟨S_, .f32⟩
  | 26 => ⟨S1024x32x2x64, .f32⟩
  | 27 => ⟨S1024x32x2x64, .f32⟩
  | 28 => ⟨S1024x32x2x64, .f32⟩
  | 29 => ⟨S_, .f32⟩
  | 30 => ⟨S1024x32x2x64, .f32⟩
  | 31 => ⟨S1024x32x2x64, .f32⟩
  | 32 => ⟨S1024x32x2x64, .f32⟩
  | 33 => ⟨S_, .f32⟩
  | 34 => ⟨S1024x32x64, .f32⟩
  | 35 => ⟨S_, .f32⟩
  | 36 => ⟨S1024x32x64, .f32⟩
  | 37 => ⟨S1024x32x64, .f32⟩
  | 38 => ⟨S_, .f32⟩
  | 39 => ⟨S1024x32x64, .f32⟩
  | 40 => ⟨S1024x32x64, .f32⟩
  | 41 => ⟨S1024x32x64, .f32⟩
  | 42 => ⟨S1024x1x2x64, .f32⟩
  | 43 => ⟨S1024x1x2x16x64, .f32⟩
  | 44 => ⟨S1024x1x2x16x1, .f32⟩
  | 45 => ⟨S_, .f32⟩
  | 46 => ⟨S1024x1x2x1, .f32⟩
  | 47 => ⟨S_, .f32⟩
  | 48 => ⟨S1024x1x2x1, .f32⟩
  | 49 => ⟨S1024x1x2x1, .i1⟩
  | 50 => ⟨S_, .f32⟩
  | 51 => ⟨S1024x1x2x1, .f32⟩
  | 52 => ⟨S1024x1x2x1, .f32⟩
  | 53 => ⟨S1024x1x2x16x64, .f32⟩
  | 54 => ⟨S1024x1x2x16x64, .f32⟩
  | 55 => ⟨S_, .f32⟩
  | 56 => ⟨S1024x1x2x64, .f32⟩
  | 57 => ⟨S1024x1x2x64, .f32⟩
  | 58 => ⟨S1024x1x2x64, .f32⟩
  | 59 => ⟨S_, .f32⟩
  | 60 => ⟨S1024x1x2x64, .f32⟩
  | 61 => ⟨S1024x1x2x64, .f32⟩
  | 62 => ⟨S1024x1x2x64, .f32⟩
  | 63 => ⟨S_, .f32⟩
  | 64 => ⟨S1024x1x64, .f32⟩
  | 65 => ⟨S_, .f32⟩
  | 66 => ⟨S1024x1x64, .f32⟩
  | 67 => ⟨S1024x1x64, .f32⟩
  | 68 => ⟨S_, .f32⟩
  | 69 => ⟨S1024x1x64, .f32⟩
  | 70 => ⟨S1024x1x64, .f32⟩
  | 71 => ⟨S1024x1x64, .f32⟩
  | 72 => ⟨S1024x64, .f32⟩
  | 73 => ⟨S1024x1, .f32⟩
  | 74 => ⟨S1x1, .f32⟩
  | 75 => ⟨S1024x1, .f32⟩
  | 76 => ⟨S1024x1, .f32⟩
  | 77 => ⟨S1024, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_15 : Ref sig .tc := ⟨.hbm, 92, rfl⟩
abbrev main_v66 : Ref sig .tc := ⟨.hbm, 93, rfl⟩
abbrev main_v67 : Ref sig .tc := ⟨.hbm, 94, rfl⟩
abbrev main_c_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_17 : Ref sig .tc := ⟨.hbm, 101, rfl⟩
abbrev main_v73 : Ref sig .tc := ⟨.hbm, 102, rfl⟩
abbrev main_v74 : Ref sig .tc := ⟨.hbm, 103, rfl⟩
abbrev main_c_18 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_cst_20 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_21 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_23 : Ref sig .tc := ⟨.hbm, 132, rfl⟩
abbrev main_v97 : Ref sig .tc := ⟨.hbm, 133, rfl⟩
abbrev main_cst_24 : Ref sig .tc := ⟨.hbm, 134, rfl⟩
abbrev main_v98 : Ref sig .tc := ⟨.hbm, 135, rfl⟩
abbrev main_v99 : Ref sig .tc := ⟨.hbm, 136, rfl⟩
abbrev main_cst_25 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_26 : Ref sig .tc := ⟨.hbm, 143, rfl⟩
abbrev main_v105 : Ref sig .tc := ⟨.hbm, 144, rfl⟩
abbrev main_cst_27 : Ref sig .tc := ⟨.hbm, 145, rfl⟩
abbrev main_v106 : Ref sig .tc := ⟨.hbm, 146, rfl⟩
abbrev main_v107 : Ref sig .tc := ⟨.hbm, 147, rfl⟩
abbrev main_cst_28 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_29 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_30 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_31 : Ref sig .tc := ⟨.hbm, 161, rfl⟩
abbrev main_v118 : Ref sig .tc := ⟨.hbm, 162, rfl⟩
abbrev main_cst_32 : Ref sig .tc := ⟨.hbm, 163, rfl⟩
abbrev main_v119 : Ref sig .tc := ⟨.hbm, 164, rfl⟩
abbrev main_v120 : Ref sig .tc := ⟨.hbm, 165, rfl⟩
abbrev main_cst_33 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_34 : Ref sig .tc := ⟨.hbm, 173, rfl⟩
abbrev main_v127 : Ref sig .tc := ⟨.hbm, 174, rfl⟩
abbrev main_cst_35 : Ref sig .tc := ⟨.hbm, 175, rfl⟩
abbrev main_v128 : Ref sig .tc := ⟨.hbm, 176, rfl⟩
abbrev main_v129 : Ref sig .tc := ⟨.hbm, 177, rfl⟩
abbrev main_cst_36 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_37 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_38 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_39 : Ref sig .tc := ⟨.hbm, 191, rfl⟩
abbrev main_v140 : Ref sig .tc := ⟨.hbm, 192, rfl⟩
abbrev main_cst_40 : Ref sig .tc := ⟨.hbm, 193, rfl⟩
abbrev main_v141 : Ref sig .tc := ⟨.hbm, 194, rfl⟩
abbrev main_v142 : Ref sig .tc := ⟨.hbm, 195, rfl⟩
abbrev main_cst_41 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x2 : S_.BroadcastsInDim S1024x2 (![] : Fin 0 → Fin S1024x2.rank)
  bcast_S1024x2_S1024x2x1_0_1 : S1024x2.BroadcastsInDim S1024x2x1 (![0, 1] : Fin 2 → Fin S1024x2x1.rank)
  shapeCasts_S1024x2x16_S1024x32 : S1024x2x16.ShapeCasts S1024x32
  bcast_S1024x1_S1024x32_0_1 : S1024x1.BroadcastsInDim S1024x32 (![0, 1] : Fin 2 → Fin S1024x32.rank)
  bcast_S_S1024x32 : S_.BroadcastsInDim S1024x32 (![] : Fin 0 → Fin S1024x32.rank)
  bcast_S1024x32_S1024x32x1_0_1 : S1024x32.BroadcastsInDim S1024x32x1 (![0, 1] : Fin 2 → Fin S1024x32x1.rank)
  shapeCasts_S1024x32x2_S1024x64 : S1024x32x2.ShapeCasts S1024x64
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  shapeCasts_S1024x64x16_S1024x1024 : S1024x64x16.ShapeCasts S1024x1024
  bcast_S1024x1_S1024x1024_0_1 : S1024x1.BroadcastsInDim S1024x1024 (![0, 1] : Fin 2 → Fin S1024x1024.rank)
  bcast_S_S1024x32x2 : S_.BroadcastsInDim S1024x32x2 (![] : Fin 0 → Fin S1024x32x2.rank)
  bcast_S1024x32x2_S1024x32x2x1_0_1_2 : S1024x32x2.BroadcastsInDim S1024x32x2x1 (![0, 1, 2] : Fin 3 → Fin S1024x32x2x1.rank)
  bcast_S_S1024 : S_.BroadcastsInDim S1024 (![] : Fin 0 → Fin S1024.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  shapeCasts_S1024x64_S1024x1x64 : S1024x64.ShapeCasts S1024x1x64
  shapeCasts_S1024x2x64_S1024x1x2x64 : S1024x2x64.ShapeCasts S1024x1x2x64
  shapeCasts_S1024x32x64_S1024x1x2x16x64 : S1024x32x64.ShapeCasts S1024x1x2x16x64
  shapeCasts_S1024x32_S1024x1x2x16x1 : S1024x32.ShapeCasts S1024x1x2x16x1
  reducesTo_S1024x1x2x16x1_S1024x1x2x1_d3 : S1024x1x2x16x1.ReducesTo [3] S1024x1x2x1
  h_S_ : 0 < S_.numel
  bcast_S_S1024x1x2x1 : S_.BroadcastsInDim S1024x1x2x1 (![] : Fin 0 → Fin S1024x1x2x1.rank)
  bcast_S1024x1x2x16x1_S1024x1x2x16x64_0_1_2_3_4 : S1024x1x2x16x1.BroadcastsInDim S1024x1x2x16x64 (![0, 1, 2, 3, 4] : Fin 5 → Fin S1024x1x2x16x64.rank)
  reducesTo_S1024x1x2x16x64_S1024x1x2x64_d3 : S1024x1x2x16x64.ReducesTo [3] S1024x1x2x64
  bcast_S1024x1x2x1_S1024x1x2x64_0_1_2_3 : S1024x1x2x1.BroadcastsInDim S1024x1x2x64 (![0, 1, 2, 3] : Fin 4 → Fin S1024x1x2x64.rank)
  bcast_S_S1024x1x2x64 : S_.BroadcastsInDim S1024x1x2x64 (![] : Fin 0 → Fin S1024x1x2x64.rank)
  reducesTo_S1024x1x2x64_S1024x1x64_d2 : S1024x1x2x64.ReducesTo [2] S1024x1x64
  bcast_S_S1024x1x64 : S_.BroadcastsInDim S1024x1x64 (![] : Fin 0 → Fin S1024x1x64.rank)
  shapeCasts_S1024x1024x64_S1024x32x2x16x64 : S1024x1024x64.ShapeCasts S1024x32x2x16x64
  shapeCasts_S1024x1024_S1024x32x2x16x1 : S1024x1024.ShapeCasts S1024x32x2x16x1
  reducesTo_S1024x32x2x16x1_S1024x32x2x1_d3 : S1024x32x2x16x1.ReducesTo [3] S1024x32x2x1
  bcast_S_S1024x32x2x1 : S_.BroadcastsInDim S1024x32x2x1 (![] : Fin 0 → Fin S1024x32x2x1.rank)
  bcast_S1024x32x2x16x1_S1024x32x2x16x64_0_1_2_3_4 : S1024x32x2x16x1.BroadcastsInDim S1024x32x2x16x64 (![0, 1, 2, 3, 4] : Fin 5 → Fin S1024x32x2x16x64.rank)
  reducesTo_S1024x32x2x16x64_S1024x32x2x64_d3 : S1024x32x2x16x64.ReducesTo [3] S1024x32x2x64
  bcast_S1024x32x2x1_S1024x32x2x64_0_1_2_3 : S1024x32x2x1.BroadcastsInDim S1024x32x2x64 (![0, 1, 2, 3] : Fin 4 → Fin S1024x32x2x64.rank)
  bcast_S_S1024x32x2x64 : S_.BroadcastsInDim S1024x32x2x64 (![] : Fin 0 → Fin S1024x32x2x64.rank)
  reducesTo_S1024x32x2x64_S1024x32x64_d2 : S1024x32x2x64.ReducesTo [2] S1024x32x64
  bcast_S_S1024x32x64 : S_.BroadcastsInDim S1024x32x64 (![] : Fin 0 → Fin S1024x32x64.rank)
  shapeCasts_S1024x1x64_S1024x64 : S1024x1x64.ShapeCasts S1024x64
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  gather_S200000x16_S1024x2x1_S1024x2x16_2_0_n_n_0_2_116_wf : GatherDims.WF S200000x16 S1024x2x1 S1024x2x16 [2] [0] [] [0] [] 2 ![1, 16]
  gather_S2000000x2_S1024x32x1_S1024x32x2_2_0_n_n_0_2_12_wf : GatherDims.WF S2000000x2 S1024x32x1 S1024x32x2 [2] [0] [] [0] [] 2 ![1, 2]
  gather_S200000x16_S1024x64x1_S1024x64x16_2_0_n_n_0_2_116_wf : GatherDims.WF S200000x16 S1024x64x1 S1024x64x16 [2] [0] [] [0] [] 2 ![1, 16]
  gather_S200000x64_S1024x2x1_S1024x2x64_2_0_n_n_0_2_164_wf : GatherDims.WF S200000x64 S1024x2x1 S1024x2x64 [2] [0] [] [0] [] 2 ![1, 64]
  gather_S200000x64_S1024x32x2x1_S1024x32x2x64_3_0_n_n_0_3_164_wf : GatherDims.WF S200000x64 S1024x32x2x1 S1024x32x2x64 [3] [0] [] [0] [] 3 ![1, 64]
  gather_S16x64_S1024x1_S1024x64_1_0_n_n_0_1_164_wf : GatherDims.WF S16x64 S1024x1 S1024x64 [1] [0] [] [0] [] 1 ![1, 64]
  gather_S2000000_S1024x32x1_S1024x32_n_0_n_n_0_2_1_wf : GatherDims.WF S2000000 S1024x32x1 S1024x32 [] [0] [] [0] [] 2 ![1]
  gather_S16x64_S1024x32x1_S1024x32x64_2_0_n_n_0_2_164_wf : GatherDims.WF S16x64 S1024x32x1 S1024x32x64 [2] [0] [] [0] [] 2 ![1, 64]
  gather_S2000000_S1024x1024x1_S1024x1024_n_0_n_n_0_2_1_wf : GatherDims.WF S2000000 S1024x1024x1 S1024x1024 [] [0] [] [0] [] 2 ![1]
  gather_S16x64_S1024x1024x1_S1024x1024x64_2_0_n_n_0_2_164_wf : GatherDims.WF S16x64 S1024x1024x1 S1024x1024x64 [2] [0] [] [0] [] 2 ![1, 64]
  dot_S1024x64_S64x1_S1024x1_1_0_0_1_n_n_wf : DotDims.WF S1024x64 S64x1 S1024x1 [1] [0] [0] [1] [] []

variable [Facts₀]

def gather_S200000x16_S1024x2x1_S1024x2x16_2_0_n_n_0_2_116 : GatherDims S200000x16 S1024x2x1 S1024x2x16 where
  offsetDims := [2]
  collapsedSliceDims := [0]
  operandBatchingDims := []
  startIndicesBatchingDims := []
  startIndexMap := [0]
  indexVectorDim := 2
  sliceSizes := ![1, 16]
  wf := gather_S200000x16_S1024x2x1_S1024x2x16_2_0_n_n_0_2_116_wf
def gather_S2000000x2_S1024x32x1_S1024x32x2_2_0_n_n_0_2_12 : GatherDims S2000000x2 S1024x32x1 S1024x32x2 where
  offsetDims := [2]
  collapsedSliceDims := [0]
  operandBatchingDims := []
  startIndicesBatchingDims := []
  startIndexMap := [0]
  indexVectorDim := 2
  sliceSizes := ![1, 2]
  wf := gather_S2000000x2_S1024x32x1_S1024x32x2_2_0_n_n_0_2_12_wf
def gather_S200000x16_S1024x64x1_S1024x64x16_2_0_n_n_0_2_116 : GatherDims S200000x16 S1024x64x1 S1024x64x16 where
  offsetDims := [2]
  collapsedSliceDims := [0]
  operandBatchingDims := []
  startIndicesBatchingDims := []
  startIndexMap := [0]
  indexVectorDim := 2
  sliceSizes := ![1, 16]
  wf := gather_S200000x16_S1024x64x1_S1024x64x16_2_0_n_n_0_2_116_wf
def gather_S200000x64_S1024x2x1_S1024x2x64_2_0_n_n_0_2_164 : GatherDims S200000x64 S1024x2x1 S1024x2x64 where
  offsetDims := [2]
  collapsedSliceDims := [0]
  operandBatchingDims := []
  startIndicesBatchingDims := []
  startIndexMap := [0]
  indexVectorDim := 2
  sliceSizes := ![1, 64]
  wf := gather_S200000x64_S1024x2x1_S1024x2x64_2_0_n_n_0_2_164_wf
def gather_S200000x64_S1024x32x2x1_S1024x32x2x64_3_0_n_n_0_3_164 : GatherDims S200000x64 S1024x32x2x1 S1024x32x2x64 where
  offsetDims := [3]
  collapsedSliceDims := [0]
  operandBatchingDims := []
  startIndicesBatchingDims := []
  startIndexMap := [0]
  indexVectorDim := 3
  sliceSizes := ![1, 64]
  wf := gather_S200000x64_S1024x32x2x1_S1024x32x2x64_3_0_n_n_0_3_164_wf
def gather_S16x64_S1024x1_S1024x64_1_0_n_n_0_1_164 : GatherDims S16x64 S1024x1 S1024x64 where
  offsetDims := [1]
  collapsedSliceDims := [0]
  operandBatchingDims := []
  startIndicesBatchingDims := []
  startIndexMap := [0]
  indexVectorDim := 1
  sliceSizes := ![1, 64]
  wf := gather_S16x64_S1024x1_S1024x64_1_0_n_n_0_1_164_wf
def gather_S2000000_S1024x32x1_S1024x32_n_0_n_n_0_2_1 : GatherDims S2000000 S1024x32x1 S1024x32 where
  offsetDims := []
  collapsedSliceDims := [0]
  operandBatchingDims := []
  startIndicesBatchingDims := []
  startIndexMap := [0]
  indexVectorDim := 2
  sliceSizes := ![1]
  wf := gather_S2000000_S1024x32x1_S1024x32_n_0_n_n_0_2_1_wf
def gather_S16x64_S1024x32x1_S1024x32x64_2_0_n_n_0_2_164 : GatherDims S16x64 S1024x32x1 S1024x32x64 where
  offsetDims := [2]
  collapsedSliceDims := [0]
  operandBatchingDims := []
  startIndicesBatchingDims := []
  startIndexMap := [0]
  indexVectorDim := 2
  sliceSizes := ![1, 64]
  wf := gather_S16x64_S1024x32x1_S1024x32x64_2_0_n_n_0_2_164_wf
def gather_S2000000_S1024x1024x1_S1024x1024_n_0_n_n_0_2_1 : GatherDims S2000000 S1024x1024x1 S1024x1024 where
  offsetDims := []
  collapsedSliceDims := [0]
  operandBatchingDims := []
  startIndicesBatchingDims := []
  startIndexMap := [0]
  indexVectorDim := 2
  sliceSizes := ![1]
  wf := gather_S2000000_S1024x1024x1_S1024x1024_n_0_n_n_0_2_1_wf
def gather_S16x64_S1024x1024x1_S1024x1024x64_2_0_n_n_0_2_164 : GatherDims S16x64 S1024x1024x1 S1024x1024x64 where
  offsetDims := [2]
  collapsedSliceDims := [0]
  operandBatchingDims := []
  startIndicesBatchingDims := []
  startIndexMap := [0]
  indexVectorDim := 2
  sliceSizes := ![1, 64]
  wf := gather_S16x64_S1024x1024x1_S1024x1024x64_2_0_n_n_0_2_164_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.PreDecode.lean ====
/-
  What the precondition says about the integer inputs. The precondition is a conjunction, reduced with "and" over
  each array, of: every float input is finite; every relation id is at least 0 and below 16 (signed compares); every
  entry of the edge-to-relation table is at least 0 and below 16. When it holds, the relation ids and the table's
  entries, read as unsigned words, are below 16.
-/
import proofs.«409295_j17566416241101_3_alg».proof.Pre_finite_inputs
import Idealize.ShloMosaic.PureOps.Ideal
import Idealize.ShloMosaic.Lib.StableHlo.Predicate
import Idealize.ShloMosaic.Lib.ReduceAll
import Idealize.ShloMosaic.Lib.ValueIdx

noncomputable section

namespace Cert.PreDecode

open Idealize.ShloMosaic Cert.Pre_finite_inputs

variable [Cert.Pre_finite_inputs.Facts]

/-- The scalar shape has one index. -/
theorem subsingleton_scalar_idx : Subsingleton S_.Idx := ⟨fun a b => funext fun d => d.elim0⟩

/-- A word that tests at least 0 and below 16 as a signed word is below 16 as an unsigned word: were its top bit set its
    signed value would be negative. -/
theorem word_lt_sixteen {a : BitVec 32} (h0 : IntOp.cmpi .sge a 0#32 = 1#1) (h1 : IntOp.cmpi .slt a 16#32 = 1#1) :
    a.toNat < 16 := by
  rw [IntOp.cmpi_sge, show (0#32 : BitVec 32).toInt = 0 from by decide] at h0
  rw [IntOp.cmpi_slt, show (16#32 : BitVec 32).toInt = 16 from by decide] at h1
  have hn : 2 * a.toNat < 2 ^ 32 := BitVec.toInt_pos_iff.1 h0
  rw [BitVec.toInt_eq_toNat_of_lt hn] at h1
  omega

/-- Under the precondition every relation id and every entry of the edge-to-relation table is a word below 16. -/
theorem ranges_of_pre (x0 : IVec S1024 32) (x1 : IVec S1024x2 32) (x2 : IVec S1024 32) (x3 : IVec S200000x16 32)
    (x4 : IVec S2000000x2 32) (x5 : IVec S2000000 32) (x6 : FVec Ideal S16x64 .f32) (x7 : FVec Ideal S200000x64 .f32)
    (x8 : FVec Ideal S64x1 .f32) (x9 : FVec Ideal S1 .f32)
    (h : Cert.Pre_finite_inputs.fn (F := Ideal) x0 x1 x2 x3 x4 x5 x6 x7 x8 x9 = fun _ => 1#1) :
    (∀ i, (x0 i).toNat < 16) ∧ (∀ i, (x5 i).toNat < 16) := by
  haveI : Subsingleton S_.Idx := subsingleton_scalar_idx
  have h0 := congrFun h ValueIdx.ix0
  dsimp only [fn, fn_part1] at h0
  -- the result is the conjunction ((floats ∧ all of x0's bits) ∧ all of x5's bits)
  obtain ⟨h25, h31⟩ := IntOp.andi_eq_one.1 h0
  obtain ⟨-, h24⟩ := IntOp.andi_eq_one.1 h25
  refine ⟨fun i => ?_, fun i => ?_⟩
  · obtain ⟨hge, hlt⟩ := IntOp.andi_eq_one.1 (Host.reduce_andi_all _ _ _ _ _ h24 i)
    exact word_lt_sixteen hge hlt
  · obtain ⟨hge, hlt⟩ := IntOp.andi_eq_one.1 (Host.reduce_andi_all _ _ _ _ _ h31 i)
    exact word_lt_sixteen hge hlt

end Cert.PreDecode

end
-- ==== Proof.Spec.lean ====
/-
  The per-row score of the two-hop relation/entity aggregation, as one function of a row's data.

  A row has a relation id `id0`, 32 first-hop edge relation ids `id1` (two endpoints × 16 samples, position
  `p·16 + s`), 1024 second-hop ids `id2` (position `(e·2 + p)·16 + s`), 0/1 masks `μ0`, `μ1` on those positions,
  endpoint embeddings `en0`, `en1`, the relation table `R` and the scorer weights `w`.
  One aggregation step replaces an edge vector `self` by
  `self + 1 · ((Σ_p (ent p + 1 · mean_s(nb p s ; μ p s))) / 2)`, where the masked mean divides the masked sum by the
  number of unmasked samples, or by 1 when there is none. The score applies the step to the 32 first-hop edge
  vectors (over the second-hop ones), to the row's own relation vector (over the first-hop ones), once more to the
  result (over the updated first-hop vectors), and takes the inner product with `w`.

  Also here: the three identities by which a table lookup is a product with an indicator row, and by which a masked
  sum of looked-up rows is the product of the masked indicator counts with the table.
-/
import Idealize.ShloMosaic.PureOps.Ideal.Laws
import Idealize.ShloMosaic.Lib.ValueIdx

noncomputable section

open scoped BigOperators

namespace Cert.Spec

open Idealize.ShloMosaic

abbrev zeroF : EReal := Ideal.ofBits .f32 0x00000000#32
abbrev oneF : EReal := Ideal.ofBits .f32 0x3F800000#32
abbrev twoF : EReal := Ideal.ofBits .f32 0x40000000#32

/-- Position of sample `s` of endpoint `p` among a row's 32 first-hop edges. -/
def j16 (p : Fin 2) (s : Fin 16) : Fin 32 := ⟨p.val * 16 + s.val, by omega⟩
/-- Position of sample `s` of endpoint `p` of first-hop edge `e` among a row's 1024 second-hop edges. -/
def q16 (e : Fin 32) (p : Fin 2) (s : Fin 16) : Fin 1024 := ⟨(e.val * 2 + p.val) * 16 + s.val, by omega⟩

/-- A count, with an empty count replaced by one. -/
def nz (s : EReal) : EReal := Scalar.select (FloatOps.cmpf (F := Ideal) (φ := .f32) .oeq s zeroF) oneF s
/-- The masked mean of 16 samples. -/
def mmean (v μ : Fin 16 → EReal) : EReal := Ideal.div (∑ s : Fin 16, v s * μ s) (nz (∑ s : Fin 16, μ s))
/-- One aggregation step at one hidden coordinate. -/
def hop (self : EReal) (ent : Fin 2 → EReal) (nb μ : Fin 2 → Fin 16 → EReal) : EReal :=
  self + oneF * Ideal.div (∑ p : Fin 2, (ent p + oneF * mmean (nb p) (μ p))) twoF

/-- The relation id a 32-bit word encodes (the word itself when it is below 16). -/
def idOf (v : BitVec 32) : Fin 16 := ⟨v.toNat % 16, Nat.mod_lt _ (by decide)⟩

section Row
variable (id0 : Fin 16) (id1 : Fin 32 → Fin 16) (id2 : Fin 1024 → Fin 16) (μ0 : Fin 32 → EReal) (μ1 : Fin 1024 → EReal)
  (en0 : Fin 2 → Fin 64 → EReal) (en1 : Fin 32 → Fin 2 → Fin 64 → EReal) (R : Fin 16 → Fin 64 → EReal) (w : Fin 64 → EReal)

/-- A first-hop edge vector after its step over the second-hop edges. -/
def edge1 (j : Fin 32) (d : Fin 64) : EReal :=
  hop (R (id1 j) d) (fun p => en1 j p d) (fun p s => R (id2 (q16 j p s)) d) (fun p s => μ1 (q16 j p s))
/-- The row's relation vector after its step over the first-hop edges. -/
def self1 (d : Fin 64) : EReal :=
  hop (R id0 d) (fun p => en0 p d) (fun p s => R (id1 (j16 p s)) d) (fun p s => μ0 (j16 p s))
/-- The row's vector after the second step, over the updated first-hop edges. -/
def self2 (d : Fin 64) : EReal :=
  hop (self1 id0 id1 μ0 en0 R d) (fun p => en0 p d) (fun p s => edge1 id1 id2 μ1 en1 R (j16 p s) d) (fun p s => μ0 (j16 p s))
/-- The row's score before the bias. -/
def rowScore : EReal := ∑ d : Fin 64, self2 id0 id1 id2 μ0 μ1 en0 en1 R d * w d
end Row

/-! ## Lookups as indicator products -/

/-- A product with an indicator row picks the indicated entry. -/
theorem sum_indicator_mul (i : Fin 16) (r : Fin 16 → EReal) :
    ∑ k : Fin 16, (if k = i then (1 : EReal) else 0) * r k = r i := by
  rw [Finset.sum_eq_single i]
  · rw [if_pos rfl, one_mul]
  · intro k _ hk; rw [if_neg hk, zero_mul]
  · intro h; exact absurd (Finset.mem_univ i) h

/-- A finite sum of non-negative extended reals times a factor is the sum of the products. -/
theorem sum_mul_of_nonneg {ι : Type} [DecidableEq ι] (S : Finset ι) (a : ι → EReal) (ha : ∀ i, 0 ≤ a i) (c : EReal) :
    (∑ i ∈ S, a i) * c = ∑ i ∈ S, a i * c := by
  induction S using Finset.induction_on with
  | empty => simp
  | insert i S hi ih =>
    rw [Finset.sum_insert hi, Finset.sum_insert hi,
      EReal.right_distrib_of_nonneg (ha i) (Finset.sum_nonneg fun j _ => ha j), ih]

/-- Counting the masked samples relation by relation and multiplying with the table is the masked sum of the
    samples' table rows. -/
theorem hist_mul (id : Fin 16 → Fin 16) (μ : Fin 16 → EReal) (hμ : ∀ s, μ s = 0 ∨ μ s = 1) (r : Fin 16 → EReal) :
    ∑ k : Fin 16, (∑ s : Fin 16, (if k = id s then (1 : EReal) else 0) * μ s) * r k = ∑ s : Fin 16, r (id s) * μ s := by
  have hnn : ∀ k s, (0 : EReal) ≤ (if k = id s then (1 : EReal) else 0) * μ s := by
    intro k s
    rcases hμ s with h | h <;> split_ifs <;> simp [h]
  calc ∑ k : Fin 16, (∑ s : Fin 16, (if k = id s then (1 : EReal) else 0) * μ s) * r k
      = ∑ k : Fin 16, ∑ s : Fin 16, (if k = id s then (1 : EReal) else 0) * μ s * r k :=
        Finset.sum_congr rfl fun k _ => sum_mul_of_nonneg _ _ (hnn k) _
    _ = ∑ s : Fin 16, ∑ k : Fin 16, (if k = id s then (1 : EReal) else 0) * μ s * r k := Finset.sum_comm
    _ = ∑ s : Fin 16, r (id s) * μ s := Finset.sum_congr rfl fun s _ => by
        rw [Finset.sum_eq_single (id s)]
        · rw [if_pos rfl, one_mul, mul_comm]
        · intro k _ hk; rw [if_neg hk, zero_mul, zero_mul]
        · intro h; exact absurd (Finset.mem_univ _) h

/-- The masked indicator counts add up to the number of unmasked samples. -/
theorem hist_count (id : Fin 16 → Fin 16) (μ : Fin 16 → EReal) :
    ∑ k : Fin 16, ∑ s : Fin 16, (if k = id s then (1 : EReal) else 0) * μ s = ∑ s : Fin 16, μ s := by
  rw [Finset.sum_comm]
  refine Finset.sum_congr rfl fun s _ => ?_
  rw [Finset.sum_eq_single (id s)]
  · rw [if_pos rfl, one_mul]
  · intro k _ hk; rw [if_neg hk, zero_mul]
  · intro h; exact absurd (Finset.mem_univ _) h

end Cert.Spec

end
-- ==== Proof.RGather.lean ====
/-
  The reference's gathers read at an index. A gather of whole rows of a table [N, C] at start indices [.., 1] reads,
  at (batch.., d), the table's row number "the start index read as a signed integer, clamped into [0, N−1]" at
  column d. A relation id below 16, wrapped (negative ids plus 16) and clamped, is itself: so the three gathers of the
  relation table are the rows of the ids. The gathered relation ids are entries of the edge-to-relation table, so they
  are below 16 when all its entries are.
-/
import proofs.«409295_j17566416241101_3_alg».proof.Proof.RefRead
import proofs.«409295_j17566416241101_3_alg».proof.Proof.Spec
import Idealize.ShloMosaic.Lib.Pipeline.Value
import Idealize.ShloMosaic.Lib.ValueIdx
import Idealize.ShloMosaic.PureOps.Ideal.Laws
import Idealize.ShloMosaic.Lib.StableHlo.Predicate

noncomputable section

open scoped BigOperators

namespace Cert.RGather

open Idealize.ShloMosaic Idealize.ShloMosaic.ValueIdx Cert.ReferenceIdeal Cert.ReferenceIdeal.Gen Cert.ReferenceIdeal.ReadP Cert.Spec

section Rows
variable {α : Type}

theorem gather_v51 (x : S16x64.Idx → α) (idx : IVec S1024x1 32) (b : Fin 1024) (d : Fin 64) :
    Host.gather gather_S16x64_S1024x1_S1024x64_1_0_n_n_0_1_164 x idx (ix2 b d)
      = x (ix2 (⟨min (idx (ix2 b (0 : Fin 1))).toInt.toNat 15, by omega⟩ : Fin 16) d) := by
  unfold Host.gather
  congr 1
  funext a
  refine Fin.ext ?_
  match a with
  | ⟨0, _⟩ =>
    show gather_S16x64_S1024x1_S1024x64_1_0_n_n_0_1_164.start (ix2 b d) idx 0 + gather_S16x64_S1024x1_S1024x64_1_0_n_n_0_1_164.batchCoord (ix2 b d) 0 + gather_S16x64_S1024x1_S1024x64_1_0_n_n_0_1_164.offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x64_S1024x1_S1024x64_1_0_n_n_0_1_164.startIndexMap from List.mem_singleton.mpr rfl)]
    have hsi : gather_S16x64_S1024x1_S1024x64_1_0_n_n_0_1_164.siIdx (ix2 b d)
        ⟨List.idxOf (0 : Fin 2) gather_S16x64_S1024x1_S1024x64_1_0_n_n_0_1_164.startIndexMap, List.idxOf_lt_length_iff.2 (List.mem_singleton.mpr rfl)⟩
        = ix2 b (0 : Fin 1) := by
      funext c; refine Fin.ext ?_
      match c with
      | ⟨0, _⟩ => rfl
      | ⟨1, _⟩ => rfl
    rw [hsi]
    rfl
  | ⟨1, _⟩ =>
    show gather_S16x64_S1024x1_S1024x64_1_0_n_n_0_1_164.start (ix2 b d) idx 1 + gather_S16x64_S1024x1_S1024x64_1_0_n_n_0_1_164.batchCoord (ix2 b d) 1 + gather_S16x64_S1024x1_S1024x64_1_0_n_n_0_1_164.offCoord (ix2 b d) 1 = d.val
    have hst : gather_S16x64_S1024x1_S1024x64_1_0_n_n_0_1_164.start (ix2 b d) idx 1 = 0 := by
      unfold GatherDims.start
      exact dif_neg (by decide)
    have hoff : gather_S16x64_S1024x1_S1024x64_1_0_n_n_0_1_164.offCoord (ix2 b d) 1 = d.val := by
      unfold GatherDims.offCoord
      rw [dif_pos (by decide)]
      rfl
    rw [GatherDims.batchCoord_eq_zero _ _ _ List.not_mem_nil, hst, hoff, Nat.add_zero, Nat.zero_add]

theorem gather_v65 (x : S16x64.Idx → α) (idx : IVec S1024x32x1 32) (b : Fin 1024) (j : Fin 32) (d : Fin 64) :
    Host.gather gather_S16x64_S1024x32x1_S1024x32x64_2_0_n_n_0_2_164 x idx (ix3 b j d)
      = x (ix2 (⟨min (idx (ix3 b j (0 : Fin 1))).toInt.toNat 15, by omega⟩ : Fin 16) d) := by
  unfold Host.gather
  congr 1
  funext a
  refine Fin.ext ?_
  match a with
  | ⟨0, _⟩ =>
    show gather_S16x64_S1024x32x1_S1024x32x64_2_0_n_n_0_2_164.start (ix3 b j d) idx 0 + gather_S16x64_S1024x32x1_S1024x32x64_2_0_n_n_0_2_164.batchCoord (ix3 b j d) 0 + gather_S16x64_S1024x32x1_S1024x32x64_2_0_n_n_0_2_164.offCoord (ix3 b j d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x64_S1024x32x1_S1024x32x64_2_0_n_n_0_2_164.startIndexMap from List.mem_singleton.mpr rfl)]
    have hsi : gather_S16x64_S1024x32x1_S1024x32x64_2_0_n_n_0_2_164.siIdx (ix3 b j d)
        ⟨List.idxOf (0 : Fin 2) gather_S16x64_S1024x32x1_S1024x32x64_2_0_n_n_0_2_164.startIndexMap, List.idxOf_lt_length_iff.2 (List.mem_singleton.mpr rfl)⟩
        = ix3 b j (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S16x64_S1024x32x1_S1024x32x64_2_0_n_n_0_2_164.start (ix3 b j d) idx 1 + gather_S16x64_S1024x32x1_S1024x32x64_2_0_n_n_0_2_164.batchCoord (ix3 b j d) 1 + gather_S16x64_S1024x32x1_S1024x32x64_2_0_n_n_0_2_164.offCoord (ix3 b j d) 1 = d.val
    have hst : gather_S16x64_S1024x32x1_S1024x32x64_2_0_n_n_0_2_164.start (ix3 b j d) idx 1 = 0 := by
      unfold GatherDims.start
      exact dif_neg (by decide)
    have hoff : gather_S16x64_S1024x32x1_S1024x32x64_2_0_n_n_0_2_164.offCoord (ix3 b j d) 1 = d.val := by
      unfold GatherDims.offCoord
      rw [dif_pos (by decide)]
      rfl
    rw [GatherDims.batchCoord_eq_zero _ _ _ List.not_mem_nil, hst, hoff, Nat.add_zero, Nat.zero_add]

theorem gather_v79 (x : S16x64.Idx → α) (idx : IVec S1024x1024x1 32) (b : Fin 1024) (q : Fin 1024) (d : Fin 64) :
    Host.gather gather_S16x64_S1024x1024x1_S1024x1024x64_2_0_n_n_0_2_164 x idx (ix3 b q d)
      = x (ix2 (⟨min (idx (ix3 b q (0 : Fin 1))).toInt.toNat 15, by omega⟩ : Fin 16) d) := by
  unfold Host.gather
  congr 1
  funext a
  refine Fin.ext ?_
  match a with
  | ⟨0, _⟩ =>
    show gather_S16x64_S1024x1024x1_S1024x1024x64_2_0_n_n_0_2_164.start (ix3 b q d) idx 0 + gather_S16x64_S1024x1024x1_S1024x1024x64_2_0_n_n_0_2_164.batchCoord (ix3 b q d) 0 + gather_S16x64_S1024x1024x1_S1024x1024x64_2_0_n_n_0_2_164.offCoord (ix3 b q d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x64_S1024x1024x1_S1024x1024x64_2_0_n_n_0_2_164.startIndexMap from List.mem_singleton.mpr rfl)]
    have hsi : gather_S16x64_S1024x1024x1_S1024x1024x64_2_0_n_n_0_2_164.siIdx (ix3 b q d)
        ⟨List.idxOf (0 : Fin 2) gather_S16x64_S1024x1024x1_S1024x1024x64_2_0_n_n_0_2_164.startIndexMap, List.idxOf_lt_length_iff.2 (List.mem_singleton.mpr rfl)⟩
        = ix3 b q (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S16x64_S1024x1024x1_S1024x1024x64_2_0_n_n_0_2_164.start (ix3 b q d) idx 1 + gather_S16x64_S1024x1024x1_S1024x1024x64_2_0_n_n_0_2_164.batchCoord (ix3 b q d) 1 + gather_S16x64_S1024x1024x1_S1024x1024x64_2_0_n_n_0_2_164.offCoord (ix3 b q d) 1 = d.val
    have hst : gather_S16x64_S1024x1024x1_S1024x1024x64_2_0_n_n_0_2_164.start (ix3 b q d) idx 1 = 0 := by
      unfold GatherDims.start
      exact dif_neg (by decide)
    have hoff : gather_S16x64_S1024x1024x1_S1024x1024x64_2_0_n_n_0_2_164.offCoord (ix3 b q d) 1 = d.val := by
      unfold GatherDims.offCoord
      rw [dif_pos (by decide)]
      rfl
    rw [GatherDims.batchCoord_eq_zero _ _ _ List.not_mem_nil, hst, hoff, Nat.add_zero, Nat.zero_add]

theorem gather_v37 (x : S200000x64.Idx → α) (idx : IVec S1024x2x1 32) (b : Fin 1024) (p : Fin 2) (d : Fin 64) :
    Host.gather gather_S200000x64_S1024x2x1_S1024x2x64_2_0_n_n_0_2_164 x idx (ix3 b p d)
      = x (ix2 (⟨min (idx (ix3 b p (0 : Fin 1))).toInt.toNat 199999, by omega⟩ : Fin 200000) d) := by
  unfold Host.gather
  congr 1
  funext a
  refine Fin.ext ?_
  match a with
  | ⟨0, _⟩ =>
    show gather_S200000x64_S1024x2x1_S1024x2x64_2_0_n_n_0_2_164.start (ix3 b p d) idx 0 + gather_S200000x64_S1024x2x1_S1024x2x64_2_0_n_n_0_2_164.batchCoord (ix3 b p d) 0 + gather_S200000x64_S1024x2x1_S1024x2x64_2_0_n_n_0_2_164.offCoord (ix3 b p d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S200000x64_S1024x2x1_S1024x2x64_2_0_n_n_0_2_164.startIndexMap from List.mem_singleton.mpr rfl)]
    have hsi : gather_S200000x64_S1024x2x1_S1024x2x64_2_0_n_n_0_2_164.siIdx (ix3 b p d)
        ⟨List.idxOf (0 : Fin 2) gather_S200000x64_S1024x2x1_S1024x2x64_2_0_n_n_0_2_164.startIndexMap, List.idxOf_lt_length_iff.2 (List.mem_singleton.mpr rfl)⟩
        = ix3 b p (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S200000x64_S1024x2x1_S1024x2x64_2_0_n_n_0_2_164.start (ix3 b p d) idx 1 + gather_S200000x64_S1024x2x1_S1024x2x64_2_0_n_n_0_2_164.batchCoord (ix3 b p d) 1 + gather_S200000x64_S1024x2x1_S1024x2x64_2_0_n_n_0_2_164.offCoord (ix3 b p d) 1 = d.val
    have hst : gather_S200000x64_S1024x2x1_S1024x2x64_2_0_n_n_0_2_164.start (ix3 b p d) idx 1 = 0 := by
      unfold GatherDims.start
      exact dif_neg (by decide)
    have hoff : gather_S200000x64_S1024x2x1_S1024x2x64_2_0_n_n_0_2_164.offCoord (ix3 b p d) 1 = d.val := by
      unfold GatherDims.offCoord
      rw [dif_pos (by decide)]
      rfl
    rw [GatherDims.batchCoord_eq_zero _ _ _ List.not_mem_nil, hst, hoff, Nat.add_zero, Nat.zero_add]

theorem gather_v44 (x : S200000x64.Idx → α) (idx : IVec S1024x32x2x1 32) (b : Fin 1024) (j : Fin 32) (p : Fin 2) (d : Fin 64) :
    Host.gather gather_S200000x64_S1024x32x2x1_S1024x32x2x64_3_0_n_n_0_3_164 x idx (ix4 b j p d)
      = x (ix2 (⟨min (idx (ix4 b j p (0 : Fin 1))).toInt.toNat 199999, by omega⟩ : Fin 200000) d) := by
  unfold Host.gather
  congr 1
  funext a
  refine Fin.ext ?_
  match a with
  | ⟨0, _⟩ =>
    show gather_S200000x64_S1024x32x2x1_S1024x32x2x64_3_0_n_n_0_3_164.start (ix4 b j p d) idx 0 + gather_S200000x64_S1024x32x2x1_S1024x32x2x64_3_0_n_n_0_3_164.batchCoord (ix4 b j p d) 0 + gather_S200000x64_S1024x32x2x1_S1024x32x2x64_3_0_n_n_0_3_164.offCoord (ix4 b j p d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S200000x64_S1024x32x2x1_S1024x32x2x64_3_0_n_n_0_3_164.startIndexMap from List.mem_singleton.mpr rfl)]
    have hsi : gather_S200000x64_S1024x32x2x1_S1024x32x2x64_3_0_n_n_0_3_164.siIdx (ix4 b j p d)
        ⟨List.idxOf (0 : Fin 2) gather_S200000x64_S1024x32x2x1_S1024x32x2x64_3_0_n_n_0_3_164.startIndexMap, List.idxOf_lt_length_iff.2 (List.mem_singleton.mpr rfl)⟩
        = ix4 b j p (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S200000x64_S1024x32x2x1_S1024x32x2x64_3_0_n_n_0_3_164.start (ix4 b j p d) idx 1 + gather_S200000x64_S1024x32x2x1_S1024x32x2x64_3_0_n_n_0_3_164.batchCoord (ix4 b j p d) 1 + gather_S200000x64_S1024x32x2x1_S1024x32x2x64_3_0_n_n_0_3_164.offCoord (ix4 b j p d) 1 = d.val
    have hst : gather_S200000x64_S1024x32x2x1_S1024x32x2x64_3_0_n_n_0_3_164.start (ix4 b j p d) idx 1 = 0 := by
      unfold GatherDims.start
      exact dif_neg (by decide)
    have hoff : gather_S200000x64_S1024x32x2x1_S1024x32x2x64_3_0_n_n_0_3_164.offCoord (ix4 b j p d) 1 = d.val := by
      unfold GatherDims.offCoord
      rw [dif_pos (by decide)]
      rfl
    rw [GatherDims.batchCoord_eq_zero _ _ _ List.not_mem_nil, hst, hoff, Nat.add_zero, Nat.zero_add]

end Rows

/-- A relation id below 16, wrapped (sixteen added when it reads negative) and then clamped into [0, 15], is itself. -/
theorem wrap_clamp_id (w v : BitVec 32) (hw : w = Scalar.select (IntOp.cmpi .slt v 0#32) (IntOp.addi v 16#32) v)
    (h : v.toNat < 16) (hlt : min w.toInt.toNat 15 < 16) : (⟨min w.toInt.toNat 15, hlt⟩ : Fin 16) = idOf v := by
  have hc : IntOp.cmpi .slt v 0#32 = 0#1 := by
    refine eq_zero_of_ne_one fun h1 => ?_
    have h2 := (StableHlo.Predicate.slt_iff_toNat (a := v) (b := 0#32) (by omega) (by decide)).mp h1
    exact absurd h2 (Nat.not_lt_zero _)
  have hwv : w = v := by rw [hw, hc, select_zero]
  subst hwv
  refine Fin.ext ?_
  show min w.toInt.toNat 15 = w.toNat % 16
  rw [StableHlo.Predicate.toInt_eq_toNat_of_lt (by omega), Int.toNat_natCast, Nat.mod_eq_of_lt h]
  omega

variable (x0 : IVec S1024 32) (x1 : IVec S1024x2 32) (x2 : IVec S1024 32) (x3 : IVec S200000x16 32) (x4 : IVec S2000000x2 32) (x5 : IVec S2000000 32) (x6 : FVec Ideal S16x64 .f32) (x7 : FVec Ideal S200000x64 .f32)

/-- The gathered first-hop relation ids are entries of the edge-to-relation table. -/
theorem rel1_lt (h5 : ∀ i, (x5 i).toNat < 16) (i : S1024x32.Idx) : (val_main_v58 (F := Ideal) x1 x3 x5 i).toNat < 16 := by
  unfold val_main_v58
  exact h5 _

/-- The gathered second-hop relation ids are entries of the edge-to-relation table. -/
theorem rel2_lt (h5 : ∀ i, (x5 i).toNat < 16) (i : S1024x1024.Idx) : (val_main_v72 (F := Ideal) x1 x3 x4 x5 i).toNat < 16 := by
  unfold val_main_v72
  exact h5 _

/-- The row's own relation vector. -/
theorem v51_apply (h0 : ∀ i, (x0 i).toNat < 16) (b : Fin 1024) (d : Fin 64) :
    val_main_v51 (F := Ideal) x0 x6 (ix2 b d) = x6 (ix2 (idOf (x0 (ix1 b))) d) := by
  unfold val_main_v51
  refine (gather_v51 x6 (val_main_v50 (F := Ideal) x0) b d).trans ?_
  have hs : val_main_v50 (F := Ideal) x0 (ix2 b (0 : Fin 1))
      = Scalar.select (IntOp.cmpi .slt (x0 (ix1 b)) 0#32) (IntOp.addi (x0 (ix1 b)) 16#32) (x0 (ix1 b)) := by
    rw [val_main_v50_apply, val_main_v49_apply, val_main_v46_apply, val_main_v48_apply, val_main_v45_apply, val_main_v47_apply]
    have hi : idx_main_v50 (ix2 b (0 : Fin 1)) = ix1 b := by
      funext a; match a with | ⟨0, _⟩ => rfl
    rw [hi]; rfl
  exact congrArg (fun r => x6 (ix2 r d)) (wrap_clamp_id _ _ hs (h0 _) _)

/-- The first-hop edge vectors. -/
theorem v65_apply (h5 : ∀ i, (x5 i).toNat < 16) (b : Fin 1024) (j : Fin 32) (d : Fin 64) :
    val_main_v65 (F := Ideal) x1 x3 x5 x6 (ix3 b j d) = x6 (ix2 (idOf (val_main_v58 (F := Ideal) x1 x3 x5 (ix2 b j))) d) := by
  unfold val_main_v65
  refine (gather_v65 x6 (val_main_v64 (F := Ideal) x1 x3 x5) b j d).trans ?_
  have hs : val_main_v64 (F := Ideal) x1 x3 x5 (ix3 b j (0 : Fin 1))
      = Scalar.select (IntOp.cmpi .slt (val_main_v58 (F := Ideal) x1 x3 x5 (ix2 b j)) 0#32)
          (IntOp.addi (val_main_v58 (F := Ideal) x1 x3 x5 (ix2 b j)) 16#32) (val_main_v58 (F := Ideal) x1 x3 x5 (ix2 b j)) := by
    rw [val_main_v64_apply, val_main_v63_apply, val_main_v60_apply, val_main_v62_apply, val_main_v59_apply, val_main_v61_apply]
    have hi : idx_main_v64 (ix3 b j (0 : Fin 1)) = ix2 b j := by
      funext a; match a with | ⟨0, _⟩ => rfl | ⟨1, _⟩ => rfl
    rw [hi]; rfl
  exact congrArg (fun r => x6 (ix2 r d)) (wrap_clamp_id _ _ hs (rel1_lt x1 x3 x5 h5 _) _)

/-- The second-hop edge vectors. -/
theorem v79_apply (h5 : ∀ i, (x5 i).toNat < 16) (b : Fin 1024) (q : Fin 1024) (d : Fin 64) :
    val_main_v79 (F := Ideal) x1 x3 x4 x5 x6 (ix3 b q d) = x6 (ix2 (idOf (val_main_v72 (F := Ideal) x1 x3 x4 x5 (ix2 b q))) d) := by
  unfold val_main_v79
  refine (gather_v79 x6 (val_main_v78 (F := Ideal) x1 x3 x4 x5) b q d).trans ?_
  have hs : val_main_v78 (F := Ideal) x1 x3 x4 x5 (ix3 b q (0 : Fin 1))
      = Scalar.select (IntOp.cmpi .slt (val_main_v72 (F := Ideal) x1 x3 x4 x5 (ix2 b q)) 0#32)
          (IntOp.addi (val_main_v72 (F := Ideal) x1 x3 x4 x5 (ix2 b q)) 16#32) (val_main_v72 (F := Ideal) x1 x3 x4 x5 (ix2 b q)) := by
    rw [val_main_v78_apply, val_main_v77_apply, val_main_v74_apply, val_main_v76_apply, val_main_v73_apply, val_main_v75_apply]
    have hi : idx_main_v78 (ix3 b q (0 : Fin 1)) = ix2 b q := by
      funext a; match a with | ⟨0, _⟩ => rfl | ⟨1, _⟩ => rfl
    rw [hi]; rfl
  exact congrArg (fun r => x6 (ix2 r d)) (wrap_clamp_id _ _ hs (rel2_lt x1 x3 x4 x5 h5 _) _)

end Cert.RGather

end
-- ==== Proof.RHop.lean ====
/-
  One aggregation step of the reference read at an index: the row's relation vector after its first step, and a
  first-hop edge vector after its step over the second-hop edges, each as the step function of the row's data.
-/
import proofs.«409295_j17566416241101_3_alg».proof.Proof.RefRead
import proofs.«409295_j17566416241101_3_alg».proof.Proof.Spec
import proofs.«409295_j17566416241101_3_alg».proof.Proof.RGather
import Idealize.ShloMosaic.Lib.Pipeline.Value
import Idealize.ShloMosaic.Lib.ValueIdx
import Idealize.ShloMosaic.PureOps.Ideal.Laws

noncomputable section

open scoped BigOperators

namespace Cert.RHop

open Idealize.ShloMosaic Idealize.ShloMosaic.ValueIdx Cert.ReferenceIdeal Cert.ReferenceIdeal.Gen Cert.ReferenceIdeal.ReadP Cert.Spec

variable (x0 : IVec S1024 32) (x1 : IVec S1024x2 32) (x2 : IVec S1024 32) (x3 : IVec S200000x16 32) (x4 : IVec S2000000x2 32) (x5 : IVec S2000000 32) (x6 : FVec Ideal S16x64 .f32) (x7 : FVec Ideal S200000x64 .f32) (x8 : FVec Ideal S64x1 .f32) (x9 : FVec Ideal S1 .f32)

/-! ## Index bookkeeping of the row's first step -/

theorem idx80 (b : Fin 1024) (d : Fin 64) : idx_main_v80 (ix3 b (0 : Fin 1) d) = ix2 b d := by
  funext a; apply Fin.ext
  have hb := b.isLt; have hd := d.isLt
  match a with
  | ⟨0, _⟩ => show ((b.val * 1 + 0) * 64 + d.val) / 64 = b.val; omega
  | ⟨1, _⟩ => show ((b.val * 1 + 0) * 64 + d.val) % 64 = d.val; omega

theorem idx81 (b : Fin 1024) (p : Fin 2) (d : Fin 64) : idx_main_v81 (ix4 b (0 : Fin 1) p d) = ix3 b p d := by
  funext a; apply Fin.ext
  have hb := b.isLt; have hp := p.isLt; have hd := d.isLt
  match a with
  | ⟨0, _⟩ => show (((b.val * 1 + 0) * 2 + p.val) * 64 + d.val) / 128 = b.val; omega
  | ⟨1, _⟩ => show (((b.val * 1 + 0) * 2 + p.val) * 64 + d.val) / 64 % 2 = p.val; omega
  | ⟨2, _⟩ => show (((b.val * 1 + 0) * 2 + p.val) * 64 + d.val) % 64 = d.val; omega

theorem idx82 (b : Fin 1024) (p : Fin 2) (s : Fin 16) (d : Fin 64) :
    idx_main_v82 (ix5 b (0 : Fin 1) p s d) = ix3 b (j16 p s) d := by
  funext a; apply Fin.ext
  have hb := b.isLt; have hp := p.isLt; have hs := s.isLt; have hd := d.isLt
  match a with
  | ⟨0, _⟩ => show ((((b.val * 1 + 0) * 2 + p.val) * 16 + s.val) * 64 + d.val) / 2048 = b.val; omega
  | ⟨1, _⟩ => show ((((b.val * 1 + 0) * 2 + p.val) * 16 + s.val) * 64 + d.val) / 64 % 32 = p.val * 16 + s.val; omega
  | ⟨2, _⟩ => show ((((b.val * 1 + 0) * 2 + p.val) * 16 + s.val) * 64 + d.val) % 64 = d.val; omega

theorem idx83 (b : Fin 1024) (p : Fin 2) (s : Fin 16) :
    idx_main_v83 (ix5 b (0 : Fin 1) p s (0 : Fin 1)) = ix2 b (j16 p s) := by
  funext a; apply Fin.ext
  have hb := b.isLt; have hp := p.isLt; have hs := s.isLt
  match a with
  | ⟨0, _⟩ => show ((((b.val * 1 + 0) * 2 + p.val) * 16 + s.val) * 1 + 0) / 32 = b.val; omega
  | ⟨1, _⟩ => show ((((b.val * 1 + 0) * 2 + p.val) * 16 + s.val) * 1 + 0) % 32 = p.val * 16 + s.val; omega

theorem idx84 (b : Fin 1024) (p : Fin 2) (k : Fin 16) :
    idx_main_v84 (ix4 b (0 : Fin 1) p (0 : Fin 1)) k = ix5 b (0 : Fin 1) p k (0 : Fin 1) := by
  funext a; apply Fin.ext
  match a with
  | ⟨0, _⟩ => rfl
  | ⟨1, _⟩ => rfl
  | ⟨2, _⟩ => rfl
  | ⟨3, _⟩ => rfl
  | ⟨4, _⟩ => rfl

theorem idx89 (b : Fin 1024) (p : Fin 2) (s : Fin 16) (d : Fin 64) :
    idx_main_v89 (ix5 b (0 : Fin 1) p s d) = ix5 b (0 : Fin 1) p s (0 : Fin 1) := by
  funext a; apply Fin.ext
  match a with
  | ⟨0, _⟩ => rfl
  | ⟨1, _⟩ => rfl
  | ⟨2, _⟩ => rfl
  | ⟨3, _⟩ => rfl
  | ⟨4, _⟩ => rfl

theorem idx91 (b : Fin 1024) (p : Fin 2) (d : Fin 64) (k : Fin 16) :
    idx_main_v91 (ix4 b (0 : Fin 1) p d) k = ix5 b (0 : Fin 1) p k d := by
  funext a; apply Fin.ext
  match a with
  | ⟨0, _⟩ => rfl
  | ⟨1, _⟩ => rfl
  | ⟨2, _⟩ => rfl
  | ⟨3, _⟩ => rfl
  | ⟨4, _⟩ => rfl

theorem idx92 (b : Fin 1024) (p : Fin 2) (d : Fin 64) :
    idx_main_v92 (ix4 b (0 : Fin 1) p d) = ix4 b (0 : Fin 1) p (0 : Fin 1) := by
  funext a; apply Fin.ext
  match a with
  | ⟨0, _⟩ => rfl
  | ⟨1, _⟩ => rfl
  | ⟨2, _⟩ => rfl
  | ⟨3, _⟩ => rfl

theorem idx97 (b : Fin 1024) (d : Fin 64) (k : Fin 2) :
    idx_main_v97 (ix3 b (0 : Fin 1) d) k = ix4 b (0 : Fin 1) k d := by
  funext a; apply Fin.ext
  match a with
  | ⟨0, _⟩ => rfl
  | ⟨1, _⟩ => rfl
  | ⟨2, _⟩ => rfl
  | ⟨3, _⟩ => rfl

/-! ## The row's first step, stage by stage -/

/-- The first-hop mask regrouped by endpoint and sample. -/
theorem v83_at (b : Fin 1024) (p : Fin 2) (s : Fin 16) :
    val_main_v83 (F := Ideal) x1 x2 x3 (ix5 b (0 : Fin 1) p s (0 : Fin 1))
      = val_main_v11 (F := Ideal) x1 x2 x3 (ix2 b (j16 p s)) := by
  rw [val_main_v83_apply, idx83]

/-- The number of unmasked first-hop samples of an endpoint. -/
theorem v84_at (b : Fin 1024) (p : Fin 2) :
    val_main_v84 (F := Ideal) x1 x2 x3 (ix4 b (0 : Fin 1) p (0 : Fin 1))
      = ∑ s : Fin 16, val_main_v11 (F := Ideal) x1 x2 x3 (ix2 b (j16 p s)) := by
  rw [val_main_v84_apply]
  refine (congrArg (· + _) ((val_main_cst_apply (F := Ideal) _).trans Ideal.ofBits_zero_f32)).trans ?_
  rw [zero_add]
  refine Finset.sum_congr rfl fun k _ => ?_
  rw [idx84]
  exact v83_at x1 x2 x3 b p k

/-- The count, an empty one replaced by one. -/
theorem v88_at (b : Fin 1024) (p : Fin 2) :
    val_main_v88 (F := Ideal) x1 x2 x3 (ix4 b (0 : Fin 1) p (0 : Fin 1))
      = nz (∑ s : Fin 16, val_main_v11 (F := Ideal) x1 x2 x3 (ix2 b (j16 p s))) := by
  rw [val_main_v88_apply, val_main_v86_apply, v84_at, val_main_v85_apply, val_main_v87_apply]
  rfl

/-- The first-hop edge vectors regrouped by endpoint and sample. -/
theorem v82_at (h5 : ∀ i, (x5 i).toNat < 16) (b : Fin 1024) (p : Fin 2) (s : Fin 16) (d : Fin 64) :
    val_main_v82 (F := Ideal) x1 x3 x5 x6 (ix5 b (0 : Fin 1) p s d)
      = x6 (ix2 (idOf (val_main_v58 (F := Ideal) x1 x3 x5 (ix2 b (j16 p s)))) d) := by
  rw [val_main_v82_apply, idx82]
  exact RGather.v65_apply x1 x3 x5 x6 h5 b (j16 p s) d

/-- The mask spread over the hidden coordinates. -/
theorem v89_at (b : Fin 1024) (p : Fin 2) (s : Fin 16) (d : Fin 64) :
    val_main_v89 (F := Ideal) x1 x2 x3 (ix5 b (0 : Fin 1) p s d)
      = val_main_v11 (F := Ideal) x1 x2 x3 (ix2 b (j16 p s)) := by
  rw [val_main_v89_apply, idx89]
  exact v83_at x1 x2 x3 b p s

/-- The masked sum of an endpoint's sampled edge vectors. -/
theorem v91_at (h5 : ∀ i, (x5 i).toNat < 16) (b : Fin 1024) (p : Fin 2) (d : Fin 64) :
    val_main_v91 (F := Ideal) x1 x2 x3 x5 x6 (ix4 b (0 : Fin 1) p d)
      = ∑ s : Fin 16, x6 (ix2 (idOf (val_main_v58 (F := Ideal) x1 x3 x5 (ix2 b (j16 p s)))) d)
          * val_main_v11 (F := Ideal) x1 x2 x3 (ix2 b (j16 p s)) := by
  rw [val_main_v91_apply]
  refine (congrArg (· + _) ((val_main_cst_21_apply (F := Ideal) _).trans Ideal.ofBits_zero_f32)).trans ?_
  rw [zero_add]
  refine Finset.sum_congr rfl fun k _ => ?_
  rw [idx91, val_main_v90_apply, v82_at x1 x3 x5 x6 h5, v89_at]
  rfl

/-- The masked mean of an endpoint's sampled edge vectors. -/
theorem v93_at (h5 : ∀ i, (x5 i).toNat < 16) (b : Fin 1024) (p : Fin 2) (d : Fin 64) :
    val_main_v93 (F := Ideal) x1 x2 x3 x5 x6 (ix4 b (0 : Fin 1) p d)
      = mmean (fun s => x6 (ix2 (idOf (val_main_v58 (F := Ideal) x1 x3 x5 (ix2 b (j16 p s)))) d))
          (fun s => val_main_v11 (F := Ideal) x1 x2 x3 (ix2 b (j16 p s))) := by
  rw [val_main_v93_apply, v91_at x1 x2 x3 x5 x6 h5, val_main_v92_apply, idx92, v88_at]
  rfl

/-- An endpoint's embedding plus the masked mean of its samples. -/
theorem v96_at (h5 : ∀ i, (x5 i).toNat < 16) (b : Fin 1024) (p : Fin 2) (d : Fin 64) :
    val_main_v96 (F := Ideal) x1 x2 x3 x5 x6 x7 (ix4 b (0 : Fin 1) p d)
      = val_main_v37 (F := Ideal) x1 x7 (ix3 b p d)
        + oneF * mmean (fun s => x6 (ix2 (idOf (val_main_v58 (F := Ideal) x1 x3 x5 (ix2 b (j16 p s)))) d))
            (fun s => val_main_v11 (F := Ideal) x1 x2 x3 (ix2 b (j16 p s))) := by
  rw [val_main_v96_apply, val_main_v81_apply, idx81, val_main_v95_apply, v93_at x1 x2 x3 x5 x6 h5, val_main_v94_apply]
  rfl

/-- The row's relation vector after its first step. -/
theorem ref_self1 (h0 : ∀ i, (x0 i).toNat < 16) (h5 : ∀ i, (x5 i).toNat < 16) (b : Fin 1024) (d : Fin 64) :
    val_main_v102 (F := Ideal) x0 x1 x2 x3 x5 x6 x7 (ix3 b (0 : Fin 1) d)
      = self1 (idOf (x0 (ix1 b))) (fun j => idOf (val_main_v58 (F := Ideal) x1 x3 x5 (ix2 b j)))
          (fun j => val_main_v11 (F := Ideal) x1 x2 x3 (ix2 b j))
          (fun p d => val_main_v37 (F := Ideal) x1 x7 (ix3 b p d)) (fun k d => x6 (ix2 k d)) d := by
  have h97 : val_main_v97 (F := Ideal) x1 x2 x3 x5 x6 x7 (ix3 b (0 : Fin 1) d)
      = ∑ p : Fin 2, (val_main_v37 (F := Ideal) x1 x7 (ix3 b p d)
        + oneF * mmean (fun s => x6 (ix2 (idOf (val_main_v58 (F := Ideal) x1 x3 x5 (ix2 b (j16 p s)))) d))
            (fun s => val_main_v11 (F := Ideal) x1 x2 x3 (ix2 b (j16 p s)))) := by
    rw [val_main_v97_apply]
    refine (congrArg (· + _) ((val_main_cst_23_apply (F := Ideal) _).trans Ideal.ofBits_zero_f32)).trans ?_
    rw [zero_add]
    refine Finset.sum_congr rfl fun k _ => ?_
    rw [idx97]
    exact v96_at x1 x2 x3 x5 x6 x7 h5 b k d
  rw [val_main_v102_apply, val_main_v80_apply, idx80, RGather.v51_apply x0 x6 h0, val_main_v101_apply,
    val_main_v99_apply, h97, val_main_v100_apply, val_main_v98_apply]
  rfl

/-! ## Index bookkeeping of the first-hop edges' step -/

theorem idx103 (b : Fin 1024) (j : Fin 32) (p : Fin 2) (s : Fin 16) (d : Fin 64) :
    idx_main_v103 (ix5 b j p s d) = ix3 b (q16 j p s) d := by
  funext a; apply Fin.ext
  have hb := b.isLt; have hj := j.isLt; have hp := p.isLt; have hs := s.isLt; have hd := d.isLt
  match a with
  | ⟨0, _⟩ => show ((((b.val * 32 + j.val) * 2 + p.val) * 16 + s.val) * 64 + d.val) / 65536 = b.val; omega
  | ⟨1, _⟩ => show ((((b.val * 32 + j.val) * 2 + p.val) * 16 + s.val) * 64 + d.val) / 64 % 1024 = (j.val * 2 + p.val) * 16 + s.val; omega
  | ⟨2, _⟩ => show ((((b.val * 32 + j.val) * 2 + p.val) * 16 + s.val) * 64 + d.val) % 64 = d.val; omega

theorem idx104 (b : Fin 1024) (j : Fin 32) (p : Fin 2) (s : Fin 16) :
    idx_main_v104 (ix5 b j p s (0 : Fin 1)) = ix2 b (q16 j p s) := by
  funext a; apply Fin.ext
  have hb := b.isLt; have hj := j.isLt; have hp := p.isLt; have hs := s.isLt
  match a with
  | ⟨0, _⟩ => show ((((b.val * 32 + j.val) * 2 + p.val) * 16 + s.val) * 1 + 0) / 1024 = b.val; omega
  | ⟨1, _⟩ => show ((((b.val * 32 + j.val) * 2 + p.val) * 16 + s.val) * 1 + 0) % 1024 = (j.val * 2 + p.val) * 16 + s.val; omega

theorem idx105 (b : Fin 1024) (j : Fin 32) (p : Fin 2) (k : Fin 16) :
    idx_main_v105 (ix4 b j p (0 : Fin 1)) k = ix5 b j p k (0 : Fin 1) := by
  funext a; apply Fin.ext
  match a with
  | ⟨0, _⟩ => rfl
  | ⟨1, _⟩ => rfl
  | ⟨2, _⟩ => rfl
  | ⟨3, _⟩ => rfl
  | ⟨4, _⟩ => rfl

theorem idx110 (b : Fin 1024) (j : Fin 32) (p : Fin 2) (s : Fin 16) (d : Fin 64) :
    idx_main_v110 (ix5 b j p s d) = ix5 b j p s (0 : Fin 1) := by
  funext a; apply Fin.ext
  match a with
  | ⟨0, _⟩ => rfl
  | ⟨1, _⟩ => rfl
  | ⟨2, _⟩ => rfl
  | ⟨3, _⟩ => rfl
  | ⟨4, _⟩ => rfl

theorem idx112 (b : Fin 1024) (j : Fin 32) (p : Fin 2) (d : Fin 64) (k : Fin 16) :
    idx_main_v112 (ix4 b j p d) k = ix5 b j p k d := by
  funext a; apply Fin.ext
  match a with
  | ⟨0, _⟩ => rfl
  | ⟨1, _⟩ => rfl
  | ⟨2, _⟩ => rfl
  | ⟨3, _⟩ => rfl
  | ⟨4, _⟩ => rfl

theorem idx113 (b : Fin 1024) (j : Fin 32) (p : Fin 2) (d : Fin 64) :
    idx_main_v113 (ix4 b j p d) = ix4 b j p (0 : Fin 1) := by
  funext a; apply Fin.ext
  match a with
  | ⟨0, _⟩ => rfl
  | ⟨1, _⟩ => rfl
  | ⟨2, _⟩ => rfl
  | ⟨3, _⟩ => rfl

theorem idx118 (b : Fin 1024) (j : Fin 32) (d : Fin 64) (k : Fin 2) :
    idx_main_v118 (ix3 b j d) k = ix4 b j k d := by
  funext a; apply Fin.ext
  match a with
  | ⟨0, _⟩ => rfl
  | ⟨1, _⟩ => rfl
  | ⟨2, _⟩ => rfl
  | ⟨3, _⟩ => rfl

/-! ## The first-hop edges' step, stage by stage -/

/-- The second-hop mask regrouped by first-hop edge, endpoint and sample. -/
theorem v104_at (b : Fin 1024) (j : Fin 32) (p : Fin 2) (s : Fin 16) :
    val_main_v104 (F := Ideal) x1 x2 x3 x4 (ix5 b j p s (0 : Fin 1))
      = val_main_v30 (F := Ideal) x1 x2 x3 x4 (ix2 b (q16 j p s)) := by
  rw [val_main_v104_apply, idx104]

/-- The number of unmasked second-hop samples of an endpoint of a first-hop edge. -/
theorem v105_at (b : Fin 1024) (j : Fin 32) (p : Fin 2) :
    val_main_v105 (F := Ideal) x1 x2 x3 x4 (ix4 b j p (0 : Fin 1))
      = ∑ s : Fin 16, val_main_v30 (F := Ideal) x1 x2 x3 x4 (ix2 b (q16 j p s)) := by
  rw [val_main_v105_apply]
  refine (congrArg (· + _) ((val_main_cst_26_apply (F := Ideal) _).trans Ideal.ofBits_zero_f32)).trans ?_
  rw [zero_add]
  refine Finset.sum_congr rfl fun k _ => ?_
  rw [idx105]
  exact v104_at x1 x2 x3 x4 b j p k

/-- The count, an empty one replaced by one. -/
theorem v109_at (b : Fin 1024) (j : Fin 32) (p : Fin 2) :
    val_main_v109 (F := Ideal) x1 x2 x3 x4 (ix4 b j p (0 : Fin 1))
      = nz (∑ s : Fin 16, val_main_v30 (F := Ideal) x1 x2 x3 x4 (ix2 b (q16 j p s))) := by
  rw [val_main_v109_apply, val_main_v107_apply, v105_at, val_main_v106_apply, val_main_v108_apply]
  rfl

/-- The second-hop edge vectors regrouped by first-hop edge, endpoint and sample. -/
theorem v103_at (h5 : ∀ i, (x5 i).toNat < 16) (b : Fin 1024) (j : Fin 32) (p : Fin 2) (s : Fin 16) (d : Fin 64) :
    val_main_v103 (F := Ideal) x1 x3 x4 x5 x6 (ix5 b j p s d)
      = x6 (ix2 (idOf (val_main_v72 (F := Ideal) x1 x3 x4 x5 (ix2 b (q16 j p s)))) d) := by
  rw [val_main_v103_apply, idx103]
  exact RGather.v79_apply x1 x3 x4 x5 x6 h5 b (q16 j p s) d

/-- The mask spread over the hidden coordinates. -/
theorem v110_at (b : Fin 1024) (j : Fin 32) (p : Fin 2) (s : Fin 16) (d : Fin 64) :
    val_main_v110 (F := Ideal) x1 x2 x3 x4 (ix5 b j p s d)
      = val_main_v30 (F := Ideal) x1 x2 x3 x4 (ix2 b (q16 j p s)) := by
  rw [val_main_v110_apply, idx110]
  exact v104_at x1 x2 x3 x4 b j p s

/-- The masked sum of an endpoint's sampled second-hop edge vectors. -/
theorem v112_at (h5 : ∀ i, (x5 i).toNat < 16) (b : Fin 1024) (j : Fin 32) (p : Fin 2) (d : Fin 64) :
    val_main_v112 (F := Ideal) x1 x2 x3 x4 x5 x6 (ix4 b j p d)
      = ∑ s : Fin 16, x6 (ix2 (idOf (val_main_v72 (F := Ideal) x1 x3 x4 x5 (ix2 b (q16 j p s)))) d)
          * val_main_v30 (F := Ideal) x1 x2 x3 x4 (ix2 b (q16 j p s)) := by
  rw [val_main_v112_apply]
  refine (congrArg (· + _) ((val_main_cst_29_apply (F := Ideal) _).trans Ideal.ofBits_zero_f32)).trans ?_
  rw [zero_add]
  refine Finset.sum_congr rfl fun k _ => ?_
  rw [idx112, val_main_v111_apply, v103_at x1 x3 x4 x5 x6 h5, v110_at]
  rfl

/-- The masked mean of an endpoint's sampled second-hop edge vectors. -/
theorem v114_at (h5 : ∀ i, (x5 i).toNat < 16) (b : Fin 1024) (j : Fin 32) (p : Fin 2) (d : Fin 64) :
    val_main_v114 (F := Ideal) x1 x2 x3 x4 x5 x6 (ix4 b j p d)
      = mmean (fun s => x6 (ix2 (idOf (val_main_v72 (F := Ideal) x1 x3 x4 x5 (ix2 b (q16 j p s)))) d))
          (fun s => val_main_v30 (F := Ideal) x1 x2 x3 x4 (ix2 b (q16 j p s))) := by
  rw [val_main_v114_apply, v112_at x1 x2 x3 x4 x5 x6 h5, val_main_v113_apply, idx113, v109_at]
  rfl

/-- An endpoint's embedding plus the masked mean of its samples. -/
theorem v117_at (h5 : ∀ i, (x5 i).toNat < 16) (b : Fin 1024) (j : Fin 32) (p : Fin 2) (d : Fin 64) :
    val_main_v117 (F := Ideal) x1 x2 x3 x4 x5 x6 x7 (ix4 b j p d)
      = val_main_v44 (F := Ideal) x1 x3 x4 x7 (ix4 b j p d)
        + oneF * mmean (fun s => x6 (ix2 (idOf (val_main_v72 (F := Ideal) x1 x3 x4 x5 (ix2 b (q16 j p s)))) d))
            (fun s => val_main_v30 (F := Ideal) x1 x2 x3 x4 (ix2 b (q16 j p s))) := by
  rw [val_main_v117_apply, val_main_v116_apply, v114_at x1 x2 x3 x4 x5 x6 h5, val_main_v115_apply]
  rfl

/-- A first-hop edge vector after its step. -/
theorem ref_edge1 (h5 : ∀ i, (x5 i).toNat < 16) (b : Fin 1024) (j : Fin 32) (d : Fin 64) :
    val_main_v123 (F := Ideal) x1 x2 x3 x4 x5 x6 x7 (ix3 b j d)
      = edge1 (fun j => idOf (val_main_v58 (F := Ideal) x1 x3 x5 (ix2 b j)))
          (fun q => idOf (val_main_v72 (F := Ideal) x1 x3 x4 x5 (ix2 b q)))
          (fun q => val_main_v30 (F := Ideal) x1 x2 x3 x4 (ix2 b q))
          (fun j p d => val_main_v44 (F := Ideal) x1 x3 x4 x7 (ix4 b j p d)) (fun k d => x6 (ix2 k d)) j d := by
  have h118 : val_main_v118 (F := Ideal) x1 x2 x3 x4 x5 x6 x7 (ix3 b j d)
      = ∑ p : Fin 2, (val_main_v44 (F := Ideal) x1 x3 x4 x7 (ix4 b j p d)
        + oneF * mmean (fun s => x6 (ix2 (idOf (val_main_v72 (F := Ideal) x1 x3 x4 x5 (ix2 b (q16 j p s)))) d))
            (fun s => val_main_v30 (F := Ideal) x1 x2 x3 x4 (ix2 b (q16 j p s)))) := by
    rw [val_main_v118_apply]
    refine (congrArg (· + _) ((val_main_cst_31_apply (F := Ideal) _).trans Ideal.ofBits_zero_f32)).trans ?_
    rw [zero_add]
    refine Finset.sum_congr rfl fun k _ => ?_
    rw [idx118]
    exact v117_at x1 x2 x3 x4 x5 x6 x7 h5 b j k d
  rw [val_main_v123_apply, RGather.v65_apply x1 x3 x5 x6 h5, val_main_v122_apply, val_main_v120_apply, h118,
    val_main_v121_apply, val_main_v119_apply]
  rfl

end Cert.RHop

end
-- ==== Proof.RRow.lean ====
/-
  The reference's result read at a row. Reading the reference's operations from the result back to the gathered
  arrays — the relation ids of the two hops, the two masks, the endpoint embeddings — row b's score is the per-row
  score of that row's data, plus the bias.
-/
import proofs.«409295_j17566416241101_3_alg».proof.Proof.RefRead
import proofs.«409295_j17566416241101_3_alg».proof.Proof.Spec
import proofs.«409295_j17566416241101_3_alg».proof.Proof.RGather
import proofs.«409295_j17566416241101_3_alg».proof.Proof.RHop
import Idealize.ShloMosaic.Lib.Pipeline.Value
import Idealize.ShloMosaic.Lib.ValueIdx
import Idealize.ShloMosaic.PureOps.Ideal.Laws

noncomputable section

open scoped BigOperators

namespace Cert.RRow

open Idealize.ShloMosaic Idealize.ShloMosaic.ValueIdx Cert.ReferenceIdeal Cert.ReferenceIdeal.Gen Cert.ReferenceIdeal.ReadP Cert.Spec Cert.RHop

variable (x0 : IVec S1024 32) (x1 : IVec S1024x2 32) (x2 : IVec S1024 32) (x3 : IVec S200000x16 32) (x4 : IVec S2000000x2 32) (x5 : IVec S2000000 32) (x6 : FVec Ideal S16x64 .f32) (x7 : FVec Ideal S200000x64 .f32) (x8 : FVec Ideal S64x1 .f32) (x9 : FVec Ideal S1 .f32)

/-! ## The indices of the layout operations, at coordinates -/

theorem idx151 (b : Fin 1024) : idx_main_v151 (ix1 b) = ix2 b (0 : Fin 1) := by
  funext a; apply Fin.ext
  match a with
  | ⟨0, _⟩ => show b.val / 1 = b.val; omega
  | ⟨1, _⟩ => rfl

theorem idx149 (i : S1024x1.Idx) : idx_main_v149 i = ix2 (0 : Fin 1) (0 : Fin 1) := by
  funext a; apply Fin.ext
  match a with
  | ⟨0, _⟩ => rfl
  | ⟨1, _⟩ => rfl

theorem idx148 (i : S1x1.Idx) : idx_main_v148 i = ix1 (0 : Fin 1) := by
  funext a; apply Fin.ext
  match a with
  | ⟨0, _⟩ => rfl

theorem lidx147 (b : Fin 1024) (k : Fin 64) : lidx_main_v147 (ix2 b (0 : Fin 1)) k = ix2 b k := by
  funext a; apply Fin.ext
  match a with
  | ⟨0, _⟩ => rfl
  | ⟨1, _⟩ => rfl

theorem ridx147 (b : Fin 1024) (k : Fin 64) : ridx_main_v147 (ix2 b (0 : Fin 1)) k = ix2 k (0 : Fin 1) := by
  funext a; apply Fin.ext
  match a with
  | ⟨0, _⟩ => rfl
  | ⟨1, _⟩ => rfl

theorem idx146 (b : Fin 1024) (d : Fin 64) : idx_main_v146 (ix2 b d) = ix3 b (0 : Fin 1) d := by
  have hd := d.isLt
  funext a; apply Fin.ext
  match a with
  | ⟨0, _⟩ => show (b.val * 64 + d.val) / 64 = b.val; omega
  | ⟨1, _⟩ => rfl
  | ⟨2, _⟩ => show (b.val * 64 + d.val) % 64 = d.val; omega

theorem idx140 (b : Fin 1024) (d : Fin 64) (p : Fin 2) :
    idx_main_v140 (ix3 b (0 : Fin 1) d) p = ix4 b (0 : Fin 1) p d := by
  funext a; apply Fin.ext
  match a with
  | ⟨0, _⟩ => rfl
  | ⟨1, _⟩ => rfl
  | ⟨2, _⟩ => rfl
  | ⟨3, _⟩ => rfl

theorem idx124 (b : Fin 1024) (p : Fin 2) (d : Fin 64) :
    idx_main_v124 (ix4 b (0 : Fin 1) p d) = ix3 b p d := by
  have hp := p.isLt; have hd := d.isLt
  funext a; apply Fin.ext
  match a with
  | ⟨0, _⟩ => show (((b.val * 1 + 0) * 2 + p.val) * 64 + d.val) / 128 = b.val; omega
  | ⟨1, _⟩ => show (((b.val * 1 + 0) * 2 + p.val) * 64 + d.val) / 64 % 2 = p.val; omega
  | ⟨2, _⟩ => show (((b.val * 1 + 0) * 2 + p.val) * 64 + d.val) % 64 = d.val; omega

theorem idx135 (b : Fin 1024) (p : Fin 2) (d : Fin 64) :
    idx_main_v135 (ix4 b (0 : Fin 1) p d) = ix4 b (0 : Fin 1) p (0 : Fin 1) := by
  funext a; apply Fin.ext
  match a with
  | ⟨0, _⟩ => rfl
  | ⟨1, _⟩ => rfl
  | ⟨2, _⟩ => rfl
  | ⟨3, _⟩ => rfl

theorem idx134 (b : Fin 1024) (p : Fin 2) (d : Fin 64) (s : Fin 16) :
    idx_main_v134 (ix4 b (0 : Fin 1) p d) s = ix5 b (0 : Fin 1) p s d := by
  funext a; apply Fin.ext
  match a with
  | ⟨0, _⟩ => rfl
  | ⟨1, _⟩ => rfl
  | ⟨2, _⟩ => rfl
  | ⟨3, _⟩ => rfl
  | ⟨4, _⟩ => rfl

theorem idx127 (b : Fin 1024) (p : Fin 2) (s : Fin 16) :
    idx_main_v127 (ix4 b (0 : Fin 1) p (0 : Fin 1)) s = ix5 b (0 : Fin 1) p s (0 : Fin 1) := by
  funext a; apply Fin.ext
  match a with
  | ⟨0, _⟩ => rfl
  | ⟨1, _⟩ => rfl
  | ⟨2, _⟩ => rfl
  | ⟨3, _⟩ => rfl
  | ⟨4, _⟩ => rfl

theorem idx125 (b : Fin 1024) (p : Fin 2) (s : Fin 16) (d : Fin 64) :
    idx_main_v125 (ix5 b (0 : Fin 1) p s d) = ix3 b (j16 p s) d := by
  have hp := p.isLt; have hs := s.isLt; have hd := d.isLt
  funext a; apply Fin.ext
  match a with
  | ⟨0, _⟩ => show ((((b.val * 1 + 0) * 2 + p.val) * 16 + s.val) * 64 + d.val) / 2048 = b.val; omega
  | ⟨1, _⟩ => show ((((b.val * 1 + 0) * 2 + p.val) * 16 + s.val) * 64 + d.val) / 64 % 32 = p.val * 16 + s.val; omega
  | ⟨2, _⟩ => show ((((b.val * 1 + 0) * 2 + p.val) * 16 + s.val) * 64 + d.val) % 64 = d.val; omega

theorem idx132 (b : Fin 1024) (p : Fin 2) (s : Fin 16) (d : Fin 64) :
    idx_main_v132 (ix5 b (0 : Fin 1) p s d) = ix5 b (0 : Fin 1) p s (0 : Fin 1) := by
  funext a; apply Fin.ext
  match a with
  | ⟨0, _⟩ => rfl
  | ⟨1, _⟩ => rfl
  | ⟨2, _⟩ => rfl
  | ⟨3, _⟩ => rfl
  | ⟨4, _⟩ => rfl

theorem idx126 (b : Fin 1024) (p : Fin 2) (s : Fin 16) :
    idx_main_v126 (ix5 b (0 : Fin 1) p s (0 : Fin 1)) = ix2 b (j16 p s) := by
  have hp := p.isLt; have hs := s.isLt
  funext a; apply Fin.ext
  match a with
  | ⟨0, _⟩ => show ((((b.val * 1 + 0) * 2 + p.val) * 16 + s.val) * 1 + 0) / 32 = b.val; omega
  | ⟨1, _⟩ => show ((((b.val * 1 + 0) * 2 + p.val) * 16 + s.val) * 1 + 0) % 32 = p.val * 16 + s.val; omega

/-! ## The second step's stages, at coordinates -/

/-- The number of unmasked first-hop samples of endpoint p of row b. -/
theorem count_apply (b : Fin 1024) (p : Fin 2) :
    val_main_v127 (F := Ideal) x1 x2 x3 (ix4 b (0 : Fin 1) p (0 : Fin 1))
      = ∑ s : Fin 16, val_main_v11 (F := Ideal) x1 x2 x3 (ix2 b (j16 p s)) := by
  rw [val_main_v127_apply]
  show Ideal.ofBits .f32 0x00000000#32 + _ = _
  rw [Ideal.ofBits_zero_f32, zero_add]
  refine Finset.sum_congr rfl fun s _ => ?_
  rw [idx127, val_main_v126_apply, idx126]

/-- The divisor of the masked mean: that number, or one when it is zero. -/
theorem denom_apply (b : Fin 1024) (p : Fin 2) (d : Fin 64) :
    val_main_v135 (F := Ideal) x1 x2 x3 (ix4 b (0 : Fin 1) p d)
      = nz (∑ s : Fin 16, val_main_v11 (F := Ideal) x1 x2 x3 (ix2 b (j16 p s))) := by
  rw [val_main_v135_apply, idx135, val_main_v131_apply, val_main_v129_apply, count_apply]
  rfl

/-- The masked sum of the updated first-hop vectors of endpoint p. -/
theorem msum_apply (b : Fin 1024) (p : Fin 2) (d : Fin 64) :
    val_main_v134 (F := Ideal) x1 x2 x3 x4 x5 x6 x7 (ix4 b (0 : Fin 1) p d)
      = ∑ s : Fin 16, val_main_v123 (F := Ideal) x1 x2 x3 x4 x5 x6 x7 (ix3 b (j16 p s) d)
          * val_main_v11 (F := Ideal) x1 x2 x3 (ix2 b (j16 p s)) := by
  rw [val_main_v134_apply]
  show Ideal.ofBits .f32 0x00000000#32 + _ = _
  rw [Ideal.ofBits_zero_f32, zero_add]
  refine Finset.sum_congr rfl fun s _ => ?_
  rw [idx134, val_main_v133_apply, val_main_v125_apply, idx125, val_main_v132_apply, idx132,
    val_main_v126_apply, idx126]
  rfl

/-- Endpoint p's term of the second step: its embedding plus the masked mean of its samples' vectors. -/
theorem term_apply (b : Fin 1024) (p : Fin 2) (d : Fin 64) :
    val_main_v139 (F := Ideal) x1 x2 x3 x4 x5 x6 x7 (ix4 b (0 : Fin 1) p d)
      = val_main_v37 (F := Ideal) x1 x7 (ix3 b p d)
        + oneF * mmean (fun s => val_main_v123 (F := Ideal) x1 x2 x3 x4 x5 x6 x7 (ix3 b (j16 p s) d))
            (fun s => val_main_v11 (F := Ideal) x1 x2 x3 (ix2 b (j16 p s))) := by
  rw [val_main_v139_apply, val_main_v138_apply, val_main_v136_apply, val_main_v124_apply, idx124,
    msum_apply, denom_apply]
  rfl

/-- The row's vector after the second step, over the reference's own first-step values. -/
theorem step_apply (b : Fin 1024) (d : Fin 64) :
    val_main_v145 (F := Ideal) x0 x1 x2 x3 x4 x5 x6 x7 (ix3 b (0 : Fin 1) d)
      = val_main_v102 (F := Ideal) x0 x1 x2 x3 x5 x6 x7 (ix3 b (0 : Fin 1) d)
        + oneF * Ideal.div (∑ p : Fin 2, (val_main_v37 (F := Ideal) x1 x7 (ix3 b p d)
            + oneF * mmean (fun s => val_main_v123 (F := Ideal) x1 x2 x3 x4 x5 x6 x7 (ix3 b (j16 p s) d))
                (fun s => val_main_v11 (F := Ideal) x1 x2 x3 (ix2 b (j16 p s))))) twoF := by
  rw [val_main_v145_apply, val_main_v144_apply, val_main_v142_apply, val_main_v140_apply]
  show _ + oneF * Ideal.div (Ideal.ofBits .f32 0x00000000#32 + _) twoF = _
  rw [Ideal.ofBits_zero_f32, zero_add]
  refine congrArg (fun t => _ + oneF * Ideal.div t twoF) (Finset.sum_congr rfl fun p _ => ?_)
  rw [idx140, term_apply]

/-- The reference's result at row b. -/
theorem ref_row (h0 : ∀ i, (x0 i).toNat < 16) (h5 : ∀ i, (x5 i).toNat < 16) (b : Fin 1024) :
    val_main_v151 (F := Ideal) x0 x1 x2 x3 x4 x5 x6 x7 x8 x9 (ix1 b)
      = rowScore (idOf (x0 (ix1 b))) (fun j => idOf (val_main_v58 (F := Ideal) x1 x3 x5 (ix2 b j)))
          (fun q => idOf (val_main_v72 (F := Ideal) x1 x3 x4 x5 (ix2 b q)))
          (fun j => val_main_v11 (F := Ideal) x1 x2 x3 (ix2 b j))
          (fun q => val_main_v30 (F := Ideal) x1 x2 x3 x4 (ix2 b q))
          (fun p d => val_main_v37 (F := Ideal) x1 x7 (ix3 b p d))
          (fun j p d => val_main_v44 (F := Ideal) x1 x3 x4 x7 (ix4 b j p d))
          (fun k d => x6 (ix2 k d)) (fun d => x8 (ix2 d (0 : Fin 1)))
        + x9 (ix1 (0 : Fin 1)) := by
  rw [val_main_v151_apply, idx151, val_main_v150_apply, val_main_v149_apply, val_main_v148_apply, idx148,
    val_main_v147_apply]
  refine congrArg (· + x9 (ix1 (0 : Fin 1))) ?_
  unfold rowScore
  refine Finset.sum_congr rfl fun k _ => ?_
  rw [lidx147, ridx147, val_main_v146_apply, idx146, step_apply, ref_self1 x0 x1 x2 x3 x5 x6 x7 h0 h5]
  refine congrArg (· * x8 (ix2 k (0 : Fin 1))) ?_
  unfold self2 hop
  refine congrArg (fun t => _ + oneF * Ideal.div t twoF) (Finset.sum_congr rfl fun p _ => ?_)
  refine congrArg (fun t => _ + oneF * mmean t _) ?_
  funext s
  exact ref_edge1 x1 x2 x3 x4 x5 x6 x7 h5 b (j16 p s) k

end Cert.RRow

end
-- ==== Proof.KMask.lean ====
/-
  The kernel body's mask values at an index. The first-hop mask block [32, 32] is spread over the 64 hidden
  coordinates and regrouped as [32, 1, 2, 16, 64]: entry (a, 0, p, s, d) is the mask of row a at position p·16 + s.
  Summing over the 16 samples counts a row's unmasked first-hop samples of endpoint p (the same count at every
  hidden coordinate d), and an empty count is replaced by one.
-/
import proofs.«409295_j17566416241101_3_alg».proof.Proof.Gen.KernelIdeal.Skeleton
import proofs.«409295_j17566416241101_3_alg».proof.Proof.Spec
import Idealize.ShloMosaic.Lib.Pipeline.Value
import Idealize.ShloMosaic.Lib.ValueIdx
import Idealize.ShloMosaic.PureOps.Ideal.Laws

noncomputable section

open scoped BigOperators

namespace Cert.KMask

open Idealize.ShloMosaic Idealize.ShloMosaic.ValueIdx Cert.KernelIdeal Cert.KernelIdeal.Gen Cert.Spec

/-- Inserting sample coordinate `k` on axis 3 of a [32, 1, 2, 64] index. -/
theorem lift_s (h : S32x1x2x16x64.Reduces [3] S32x1x2x64) (a : Fin 32) (p : Fin 2) (d : Fin 64)
    (k : Fin (S32x1x2x16x64.size 3)) :
    h.lift (ix4 a (0 : Fin 1) p d) k = ix5 a (0 : Fin 1) p k d := by
  funext c
  apply Fin.ext
  show h.liftVal (ix4 a (0 : Fin 1) p d) k.val c = (ix5 a (0 : Fin 1) p k d c).val
  unfold Shape.Reduces.liftVal
  match c with
  | ⟨0, _⟩ => rfl
  | ⟨1, _⟩ => rfl
  | ⟨2, _⟩ => rfl
  | ⟨3, _⟩ => rfl
  | ⟨4, _⟩ => rfl

/-- Regrouping [32, 32, 64] as [32, 1, 2, 16, 64]: entry (a, 0, p, s, d) is entry (a, p·16 + s, d). -/
theorem regroup_apply {α : Type} (v : S32x32x64.Idx → α) (a : Fin 32) (p : Fin 2) (s : Fin 16) (d : Fin 64) :
    shapeCast S32x1x2x16x64 v shapeCasts_S32x32x64_S32x1x2x16x64 (ix5 a (0 : Fin 1) p s d) = v (ix3 a (j16 p s) d) := by
  refine shapeCast_apply v _ _ _ ?_
  rw [Shape.rowMajor_val_three, Shape.rowMajor_val_five]
  show ((a.val * 32 + (p.val * 16 + s.val)) * 64 + d.val) = ((((a.val * 1 + 0) * 2 + p.val) * 16 + s.val) * 64 + d.val)
  omega

theorem pay7_apply (m0 : FVec Ideal S32x32 .f32) (a : Fin 32) (p : Fin 2) (s : Fin 16) (d : Fin 64) :
    k0_pay7 (F := Ideal) m0 (ix5 a (0 : Fin 1) p s d) = m0 (ix2 a (j16 p s)) := by
  unfold k0_pay7
  rw [regroup_apply]
  rw [broadcastTo_apply _ broadcasts_S32x32x1_S32x32x64 _ (ix3 a (j16 p s) (0 : Fin 1)) (fun c => by
    match c with
    | ⟨0, _⟩ => rfl
    | ⟨1, _⟩ => rfl
    | ⟨2, _⟩ => rfl)]
  rw [shapeCast_self, shapeCast_self]
  rw [shapeCast_apply _ shapeCasts_S32x32_S32x32x1 _ (ix2 a (j16 p s)) (by
    rw [Shape.rowMajor_val_two, Shape.rowMajor_val_three]
    show a.val * 32 + (j16 p s).val = (a.val * 32 + (j16 p s).val) * 1 + 0
    omega)]

theorem pay9_apply (m0 : FVec Ideal S32x32 .f32) (a : Fin 32) (p : Fin 2) (d : Fin 64) :
    k0_pay9 (F := Ideal) m0 (ix4 a (0 : Fin 1) p d) = ∑ s : Fin 16, m0 (ix2 a (j16 p s)) := by
  unfold k0_pay9
  refine (Ideal.multiReduction_add_single (k0_pay7 (F := Ideal) m0) 0x00000000#32 reduces_S32x1x2x16x64_S32x1x2x64 _ _
    (ix4 a (0 : Fin 1) p d)).trans ?_
  refine Finset.sum_congr rfl fun k _ => ?_
  rw [lift_s]
  exact pay7_apply m0 a p k d

theorem pay11_apply (m0 : FVec Ideal S32x32 .f32) (a : Fin 32) (p : Fin 2) (d : Fin 64) :
    k0_pay11 (F := Ideal) (k0_pay9 (F := Ideal) m0) (k0_pay10 (F := Ideal) m0) (ix4 a (0 : Fin 1) p d)
      = nz (∑ s : Fin 16, m0 (ix2 a (j16 p s))) := by
  unfold k0_pay11 k0_pay10
  simp only [select_apply, cmpf_apply, broadcast_apply, pay9_apply]
  rfl

end Cert.KMask

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KLookup.lean ====
/-
  The kernel body's table lookups at an index. A relation id below 16 is compared with the lane numbers 0..15; the
  comparison's bit, widened and converted, is the indicator of "lane = id"; its product with the relation table is
  the table's row of that id.
-/
import proofs.«409295_j17566416241101_3_alg».proof.Proof.Gen.KernelIdeal.Skeleton
import proofs.«409295_j17566416241101_3_alg».proof.Proof.Spec
import proofs.«409295_j17566416241101_3_alg».proof.Proof.LibPlainDot
import Idealize.ShloMosaic.Lib.Pipeline.Value
import Idealize.ShloMosaic.Lib.ValueIdx
import Idealize.ShloMosaic.PureOps.Ideal.Laws

noncomputable section

open scoped BigOperators

namespace Cert.KLookup

open Idealize.ShloMosaic Idealize.ShloMosaic.ValueIdx Cert.KernelIdeal Cert.KernelIdeal.Gen Cert.Spec

/-- The lane numbers: entry (0, 0, k) of the lane iota is the word k. -/
theorem iota_apply (k : Fin 16) :
    iota .tc S1x1x16 32 [2] iota_S1x1x16_d2_w32 (ix3 (0 : Fin 1) (0 : Fin 1) k) = BitVec.ofNat 32 k.val := by
  exact iota_single_apply .tc S1x1x16 32 2 iota_S1x1x16_d2_w32 (ix3 (0 : Fin 1) (0 : Fin 1) k)

/-- The indicator the body computes from an id below 16 and a lane number. -/
theorem indicator_apply (id : BitVec 32) (hid : id.toNat < 16) (k : Fin 16) :
    FloatOps.sitofp (F := Ideal) .f32 ((IntOp.cmpi .eq id (BitVec.ofNat 32 k.val)).setWidth 32)
      = if k = idOf id then (1 : EReal) else 0 := by
  show (((((IntOp.cmpi .eq id (BitVec.ofNat 32 k.val)).setWidth 32).toInt : ℤ) : ℝ) : EReal) = _
  by_cases hk : k = idOf id
  · rw [if_pos hk]
    have e : id = BitVec.ofNat 32 k.val := by
      apply BitVec.eq_of_toNat_eq
      rw [hk]
      show id.toNat = (id.toNat % 16) % 2 ^ 32
      omega
    rw [← e]
    have : IntOp.cmpi .eq id id = 1#1 := by
      unfold IntOp.cmpi
      simp
    rw [this]
    norm_num
  · rw [if_neg hk]
    have ne : id ≠ BitVec.ofNat 32 k.val := by
      intro e
      apply hk
      apply Fin.ext
      show k.val = id.toNat % 16
      rw [e]
      show k.val = (k.val % 2 ^ 32) % 16
      have := k.isLt
      omega
    have : IntOp.cmpi .eq id (BitVec.ofNat 32 k.val) = 0#1 := by
      unfold IntOp.cmpi
      show BitVec.ofBool (id == BitVec.ofNat 32 k.val) = 0#1
      rw [beq_eq_false_iff_ne.mpr ne]
      rfl
    rw [this]
    norm_num

/-- An integer comparison at an index compares the elements. -/
theorem cmpi_apply {s : Shape} {w : Nat} (p : CmpIPredicate) (x y : IVec s w) (i : s.Idx) :
    cmpi p x y i = IntOp.cmpi p (x i) (y i) := rfl

/-- A row of indicators of "lane = id" times the table is the table's row of that id. -/
theorem lookup_sum (R : FVec Ideal S16x64 .f32) (id : BitVec 32) (hid : id.toNat < 16) (d : Fin 64) (A : Fin 16 → EReal)
    (hA : ∀ k, A k = FloatOps.sitofp (F := Ideal) .f32 ((IntOp.cmpi .eq id (BitVec.ofNat 32 k.val)).setWidth 32)) :
    ∑ k : Fin 16, A k * R (ix2 k d) = R (ix2 (idOf id) d) := by
  rw [← sum_indicator_mul (idOf id) (fun k => R (ix2 k d))]
  refine Finset.sum_congr rfl fun k _ => ?_
  rw [hA k, indicator_apply id hid k]

/-- The row's own relation vector: the table's row of the row's relation id. -/
theorem pay3_apply (R : FVec Ideal S16x64 .f32) (r0 : IVec S32x1 32) (h : ∀ i, (r0 i).toNat < 16) (a : Fin 32) (d : Fin 64) :
    k0_pay3 (F := Ideal) R r0 (ix3 a (0 : Fin 1) d) = R (ix2 (idOf (r0 (ix2 a (0 : Fin 1)))) d) := by
  unfold k0_pay3 k0_pay2
  rw [shapeCast_apply _ shapeCasts_S32x64_S32x1x64 _ (ix2 a d) (by
    rw [Shape.rowMajor_val_two, Shape.rowMajor_val_three]
    show a.val * 64 + d.val = (a.val * 1 + 0) * 64 + d.val
    omega)]
  refine (Cert.LibPlainDot.matmul_plain_apply 32 16 64 none _ _ a d).trans ?_
  refine lookup_sum R (r0 (ix2 a (0 : Fin 1))) (h _) d _ fun k => ?_
  rw [shapeCast_apply _ shapeCasts_S32x1x16_S32x16 _ (ix3 a (0 : Fin 1) k) (by
    rw [Shape.rowMajor_val_three, Shape.rowMajor_val_two]
    show (a.val * 1 + 0) * 16 + k.val = a.val * 16 + k.val
    omega)]
  rw [truncf_apply, sitofp_apply, extui_apply, cmpi_apply]
  rw [broadcastTo_apply _ broadcasts_S32x1x1_S32x1x16 _ (ix3 a (0 : Fin 1) (0 : Fin 1)) (fun c => by
    match c with
    | ⟨0, _⟩ => rfl
    | ⟨1, _⟩ => rfl
    | ⟨2, _⟩ => rfl)]
  rw [broadcastTo_apply _ broadcasts_S1x1x16_S32x1x16 _ (ix3 (0 : Fin 1) (0 : Fin 1) k) (fun c => by
    match c with
    | ⟨0, _⟩ => rfl
    | ⟨1, _⟩ => rfl
    | ⟨2, _⟩ => rfl)]
  rw [iota_apply, shapeCast_self]
  rw [shapeCast_apply _ shapeCasts_S32x1_S32x1x1 _ (ix2 a (0 : Fin 1)) (by
    rw [Shape.rowMajor_val_two, Shape.rowMajor_val_three]
    show a.val * 1 + 0 = (a.val * 1 + 0) * 1 + 0
    omega)]

/-- The first-hop edge vectors: the table's row of each first-hop relation id. -/
theorem pay4_apply (R : FVec Ideal S16x64 .f32) (r1 : IVec S32x32 32) (h : ∀ i, (r1 i).toNat < 16) (a : Fin 32) (j : Fin 32) (d : Fin 64) :
    k0_pay4 (F := Ideal) R r1 (ix3 a j d) = R (ix2 (idOf (r1 (ix2 a j))) d) := by
  unfold k0_pay4 k0_pay2
  have hr : a.val * 32 + j.val < 1024 := by omega
  rw [shapeCast_apply _ shapeCasts_S1024x64_S32x32x64 _ (ix2 (⟨a.val * 32 + j.val, hr⟩ : Fin 1024) d) (by
    rw [Shape.rowMajor_val_two, Shape.rowMajor_val_three]
    show (a.val * 32 + j.val) * 64 + d.val = (a.val * 32 + j.val) * 64 + d.val
    rfl)]
  refine (Cert.LibPlainDot.matmul_plain_apply 1024 16 64 none _ _ (⟨a.val * 32 + j.val, hr⟩ : Fin 1024) d).trans ?_
  refine lookup_sum R (r1 (ix2 a j)) (h _) d _ fun k => ?_
  rw [shapeCast_apply _ shapeCasts_S32x32x16_S1024x16 _ (ix3 a j k) (by
    rw [Shape.rowMajor_val_three, Shape.rowMajor_val_two]
    show (a.val * 32 + j.val) * 16 + k.val = (a.val * 32 + j.val) * 16 + k.val
    rfl)]
  rw [truncf_apply, sitofp_apply, extui_apply, cmpi_apply]
  rw [broadcastTo_apply _ broadcasts_S32x32x1_S32x32x16 _ (ix3 a j (0 : Fin 1)) (fun c => by
    match c with
    | ⟨0, _⟩ => rfl
    | ⟨1, _⟩ => rfl
    | ⟨2, _⟩ => rfl)]
  rw [broadcastTo_apply _ broadcasts_S1x1x16_S32x32x16 _ (ix3 (0 : Fin 1) (0 : Fin 1) k) (fun c => by
    match c with
    | ⟨0, _⟩ => rfl
    | ⟨1, _⟩ => rfl
    | ⟨2, _⟩ => rfl)]
  rw [iota_apply, shapeCast_self]
  rw [shapeCast_apply _ shapeCasts_S32x32_S32x32x1 _ (ix2 a j) (by
    rw [Shape.rowMajor_val_two, Shape.rowMajor_val_three]
    show a.val * 32 + j.val = (a.val * 32 + j.val) * 1 + 0
    omega)]

/-- The same vectors regrouped by endpoint and sample. -/
theorem pay8_apply (R : FVec Ideal S16x64 .f32) (r1 : IVec S32x32 32) (h : ∀ i, (r1 i).toNat < 16) (a : Fin 32) (p : Fin 2) (s : Fin 16) (d : Fin 64) :
    k0_pay8 (F := Ideal) R r1 (ix5 a (0 : Fin 1) p s d) = R (ix2 (idOf (r1 (ix2 a (j16 p s)))) d) := by
  unfold k0_pay8
  rw [shapeCast_apply _ shapeCasts_S32x32x64_S32x1x2x16x64 _ (ix3 a (j16 p s) d) (by
    rw [Shape.rowMajor_val_three, Shape.rowMajor_val_five]
    show ((a.val * 32 + (p.val * 16 + s.val)) * 64 + d.val) = ((((a.val * 1 + 0) * 2 + p.val) * 16 + s.val) * 64 + d.val)
    omega)]
  exact pay4_apply R r1 h a (j16 p s) d

end Cert.KLookup

end
-- ==== Proof.KHist.lean ====
/-
  The kernel body's second-hop aggregation at an index. For each first-hop edge and endpoint the body counts, per
  relation, the unmasked samples carrying that relation, and multiplies the 16 counts with the relation table; since
  a table lookup is linear in the indicator row, this is the masked sum of the samples' table rows. The counts add
  up to the number of unmasked samples.
-/
import proofs.«409295_j17566416241101_3_alg».proof.Proof.Gen.KernelIdeal.Skeleton
import proofs.«409295_j17566416241101_3_alg».proof.Proof.Spec
import proofs.«409295_j17566416241101_3_alg».proof.Proof.KLookup
import Idealize.ShloMosaic.Lib.Pipeline.Value
import Idealize.ShloMosaic.Lib.ValueIdx
import Idealize.ShloMosaic.PureOps.Ideal.Laws

noncomputable section

open scoped BigOperators

namespace Cert.KHist

open Idealize.ShloMosaic Idealize.ShloMosaic.ValueIdx Cert.KernelIdeal Cert.KernelIdeal.Gen Cert.Spec

/-- Inserting sample coordinate `s` on axis 3 of a [32, 32, 2, 16] index. -/
theorem lift_s (h : S32x32x2x16x16.Reduces [3] S32x32x2x16) (a : Fin 32) (j : Fin 32) (p : Fin 2) (k : Fin 16)
    (s : Fin (S32x32x2x16x16.size 3)) :
    h.lift (ix4 a j p k) s = ix5 a j p s k := by
  funext c
  apply Fin.ext
  show h.liftVal (ix4 a j p k) s.val c = (ix5 a j p s k c).val
  unfold Shape.Reduces.liftVal
  match c with
  | ⟨0, _⟩ => rfl
  | ⟨1, _⟩ => rfl
  | ⟨2, _⟩ => rfl
  | ⟨3, _⟩ => rfl
  | ⟨4, _⟩ => rfl

/-- Inserting lane coordinate `k` on axis 3 of a [32, 32, 2] index. -/
theorem lift_k (h : S32x32x2x16.Reduces [3] S32x32x2) (a : Fin 32) (j : Fin 32) (p : Fin 2)
    (k : Fin (S32x32x2x16.size 3)) :
    h.lift (ix3 a j p) k = ix4 a j p k := by
  funext c
  apply Fin.ext
  show h.liftVal (ix3 a j p) k.val c = (ix4 a j p k c).val
  unfold Shape.Reduces.liftVal
  match c with
  | ⟨0, _⟩ => rfl
  | ⟨1, _⟩ => rfl
  | ⟨2, _⟩ => rfl
  | ⟨3, _⟩ => rfl

/-- Regrouping [32, 1024, 16] as [32, 32, 2, 16, 16]: entry (a, j, p, s, k) is entry (a, (j·2 + p)·16 + s, k). -/
theorem regroup_apply {α : Type} (v : S32x1024x16.Idx → α) (a : Fin 32) (j : Fin 32) (p : Fin 2) (s : Fin 16) (k : Fin 16) :
    shapeCast S32x32x2x16x16 v shapeCasts_S32x1024x16_S32x32x2x16x16 (ix5 a j p s k) = v (ix3 a (q16 j p s) k) := by
  refine shapeCast_apply v _ _ _ ?_
  rw [Shape.rowMajor_val_three, Shape.rowMajor_val_five]
  show ((a.val * 1024 + ((j.val * 2 + p.val) * 16 + s.val)) * 16 + k.val)
    = ((((a.val * 32 + j.val) * 2 + p.val) * 16 + s.val) * 16 + k.val)
  omega

/-- The row of (a, j, p) when [32, 32, 2] is flattened to 2048 rows: (a·32 + j)·2 + p. -/
def row (a : Fin 32) (j : Fin 32) (p : Fin 2) : Fin 2048 := ⟨(a.val * 32 + j.val) * 2 + p.val, by omega⟩

/-- Row (a·32 + j)·2 + p, lane k of the flattened block is entry (a, j, p, k). -/
theorem flatten_apply {α : Type} (v : S32x32x2x16.Idx → α) (a : Fin 32) (j : Fin 32) (p : Fin 2) (k : Fin 16) :
    shapeCast S2048x16 v shapeCasts_S32x32x2x16_S2048x16 (ix2 (row a j p) k) = v (ix4 a j p k) := by
  refine shapeCast_apply v _ _ _ ?_
  rw [Shape.rowMajor_val_four, Shape.rowMajor_val_two]
  show (((a.val * 32 + j.val) * 2 + p.val) * 16 + k.val) = ((a.val * 32 + j.val) * 2 + p.val) * 16 + k.val
  rfl

/-- Regrouping [2048, 64] as [32, 32, 2, 64]: entry (a, j, p, d) is row (a·32 + j)·2 + p, column d. -/
theorem unflatten_apply {α : Type} (v : S2048x64.Idx → α) (a : Fin 32) (j : Fin 32) (p : Fin 2) (d : Fin 64) :
    shapeCast S32x32x2x64 v shapeCasts_S2048x64_S32x32x2x64 (ix4 a j p d) = v (ix2 (row a j p) d) := by
  refine shapeCast_apply v _ _ _ ?_
  rw [Shape.rowMajor_val_two, Shape.rowMajor_val_four]
  show ((a.val * 32 + j.val) * 2 + p.val) * 64 + d.val = (((a.val * 32 + j.val) * 2 + p.val) * 64 + d.val)
  rfl

/-- An integer comparison at an index compares the elements. -/
theorem cmpi_apply {s : Shape} {w : Nat} (p : CmpIPredicate) (x y : IVec s w) (i : s.Idx) :
    cmpi p x y i = IntOp.cmpi p (x i) (y i) := rfl

/-- Appending a unit axis to a [32, 1024] block. -/
theorem unit_apply {α : Type} (v : S32x1024.Idx → α) (a : Fin 32) (q : Fin 1024) :
    shapeCast S32x1024x1 v shapeCasts_S32x1024_S32x1024x1 (ix3 a q (0 : Fin 1)) = v (ix2 a q) := by
  refine shapeCast_apply v _ _ _ ?_
  rw [Shape.rowMajor_val_two, Shape.rowMajor_val_three]
  show a.val * 1024 + q.val = (a.val * 1024 + q.val) * 1 + 0
  omega

/-- Spreading a [32, 1024, 1] block over the 16 lanes. -/
theorem spread_apply {α : Type} (v : S32x1024x1.Idx → α) (a : Fin 32) (q : Fin 1024) (k : Fin 16) :
    broadcastTo S32x1024x16 v broadcasts_S32x1024x1_S32x1024x16 (ix3 a q k) = v (ix3 a q (0 : Fin 1)) :=
  broadcastTo_apply v _ _ _ (fun c => by
    match c with
    | ⟨0, _⟩ => rfl
    | ⟨1, _⟩ => rfl
    | ⟨2, _⟩ => rfl)

/-- Spreading the lane numbers over a [32, 1024, 16] block. -/
theorem lanes_apply {α : Type} (v : S1x1x16.Idx → α) (a : Fin 32) (q : Fin 1024) (k : Fin 16) :
    broadcastTo S32x1024x16 v broadcasts_S1x1x16_S32x1024x16 (ix3 a q k) = v (ix3 (0 : Fin 1) (0 : Fin 1) k) :=
  broadcastTo_apply v _ _ _ (fun c => by
    match c with
    | ⟨0, _⟩ => rfl
    | ⟨1, _⟩ => rfl
    | ⟨2, _⟩ => rfl)

/-- The per-relation counts: entry (a, j, p, k) sums, over the 16 samples of endpoint p of edge j, the indicator of
    "the sample's relation is k" times the sample's mask. -/
theorem pay13_apply (r2 : IVec S32x1024 32) (m1 : FVec Ideal S32x1024 .f32) (hr : ∀ i, (r2 i).toNat < 16)
    (a : Fin 32) (j : Fin 32) (p : Fin 2) (k : Fin 16) :
    k0_pay13 (F := Ideal) (iota .tc S1x1x16 32 [2] iota_S1x1x16_d2_w32) r2 m1 (ix4 a j p k)
      = ∑ s : Fin 16, (if k = idOf (r2 (ix2 a (q16 j p s))) then (1 : EReal) else 0) * m1 (ix2 a (q16 j p s)) := by
  unfold k0_pay13
  refine (Ideal.multiReduction_add_single _ 0x00000000#32 reduces_S32x32x2x16x16_S32x32x2x16 _ _ (ix4 a j p k)).trans ?_
  refine Finset.sum_congr rfl ?_
  intro (s : Fin 16) _
  refine (congrArg _ (lift_s _ a j p k s)).trans ?_
  show extf _ _ _ (ix5 a j p s k) = _
  rw [extf_apply, regroup_apply, mulf_apply, truncf_apply, sitofp_apply, extui_apply, cmpi_apply]
  rw [spread_apply, spread_apply, lanes_apply, unit_apply, shapeCast_self, shapeCast_self, truncf_apply, unit_apply, shapeCast_self]
  rw [KLookup.iota_apply, KLookup.indicator_apply _ (hr _)]

/-- The masked sum of the second-hop samples' table rows. -/
theorem pay14_apply (R : FVec Ideal S16x64 .f32) (r2 : IVec S32x1024 32) (m1 : FVec Ideal S32x1024 .f32)
    (hr : ∀ i, (r2 i).toNat < 16) (hm : ∀ i, m1 i = 0 ∨ m1 i = 1) (a : Fin 32) (j : Fin 32) (p : Fin 2) (d : Fin 64) :
    k0_pay14 (F := Ideal) (iota .tc S1x1x16 32 [2] iota_S1x1x16_d2_w32) (k0_pay2 (F := Ideal) R) r2 m1 (ix4 a j p d)
      = ∑ s : Fin 16, R (ix2 (idOf (r2 (ix2 a (q16 j p s)))) d) * m1 (ix2 a (q16 j p s)) := by
  unfold k0_pay14 k0_pay2
  rw [unflatten_apply]
  refine (LibPlainDot.matmul_plain_apply 2048 16 64 none _ _ (row a j p) d).trans ?_
  refine Eq.trans (Finset.sum_congr rfl fun k _ => ?_)
    (hist_mul (fun s => idOf (r2 (ix2 a (q16 j p s)))) (fun s => m1 (ix2 a (q16 j p s))) (fun s => hm _)
      (fun k => R (ix2 k d)))
  rw [flatten_apply, truncf_apply, truncf_apply, pay13_apply _ _ hr]

/-- Appending a unit axis to a [32, 32, 2] block. -/
theorem unit4_apply {α : Type} (v : S32x32x2.Idx → α) (a : Fin 32) (j : Fin 32) (p : Fin 2) :
    shapeCast S32x32x2x1 v shapeCasts_S32x32x2_S32x32x2x1 (ix4 a j p (0 : Fin 1)) = v (ix3 a j p) := by
  refine shapeCast_apply v _ _ _ ?_
  rw [Shape.rowMajor_val_three, Shape.rowMajor_val_four]
  show (a.val * 32 + j.val) * 2 + p.val = ((a.val * 32 + j.val) * 2 + p.val) * 1 + 0
  omega

/-- Spreading a [32, 32, 2, 1] block over the 64 hidden coordinates. -/
theorem spread64_apply {α : Type} (v : S32x32x2x1.Idx → α) (a : Fin 32) (j : Fin 32) (p : Fin 2) (d : Fin 64) :
    broadcastTo S32x32x2x64 v broadcasts_S32x32x2x1_S32x32x2x64 (ix4 a j p d) = v (ix4 a j p (0 : Fin 1)) :=
  broadcastTo_apply v _ _ _ (fun c => by
    match c with
    | ⟨0, _⟩ => rfl
    | ⟨1, _⟩ => rfl
    | ⟨2, _⟩ => rfl
    | ⟨3, _⟩ => rfl)

/-- The 16 relation counts of an edge endpoint add up to its number of unmasked samples. -/
theorem count_apply (r2 : IVec S32x1024 32) (m1 : FVec Ideal S32x1024 .f32) (hr : ∀ i, (r2 i).toNat < 16)
    (a : Fin 32) (j : Fin 32) (p : Fin 2) :
    multiReduction .add [3] S32x32x2 (k0_pay13 (F := Ideal) (iota .tc S1x1x16 32 [2] iota_S1x1x16_d2_w32) r2 m1)
        0x00000000#32 reduces_S32x32x2x16_S32x32x2 (.inl rfl) rfl (ix3 a j p)
      = ∑ s : Fin 16, m1 (ix2 a (q16 j p s)) := by
  refine (Ideal.multiReduction_add_single (k0_pay13 (F := Ideal) (iota .tc S1x1x16 32 [2] iota_S1x1x16_d2_w32) r2 m1)
    0x00000000#32 reduces_S32x32x2x16_S32x32x2 _ _ (ix3 a j p)).trans ?_
  refine Eq.trans (Finset.sum_congr rfl ?_)
    (hist_count (fun s => idOf (r2 (ix2 a (q16 j p s)))) (fun s => m1 (ix2 a (q16 j p s))))
  intro (k : Fin 16) _
  refine (congrArg _ (lift_k _ a j p k)).trans ?_
  exact pay13_apply r2 m1 hr a j p k

/-- The number of unmasked second-hop samples, an empty count replaced by one. -/
theorem pay15_apply (r2 : IVec S32x1024 32) (m1 : FVec Ideal S32x1024 .f32)
    (hr : ∀ i, (r2 i).toNat < 16) (a : Fin 32) (j : Fin 32) (p : Fin 2) (d : Fin 64) :
    k0_pay15 (F := Ideal) (iota .tc S1x1x16 32 [2] iota_S1x1x16_d2_w32) r2 m1 (ix4 a j p d)
      = nz (∑ s : Fin 16, m1 (ix2 a (q16 j p s))) := by
  unfold k0_pay15
  rw [spread64_apply]
  simp only [select_apply, cmpf_apply, broadcast_apply]
  rw [unit4_apply]
  refine Eq.trans ?_ (congrArg nz (count_apply r2 m1 hr a j p))
  rfl

end Cert.KHist

end
-- ==== Proof.KStep.lean ====
/-
  The kernel body's endpoint blocks and aggregation steps at an index. The endpoint embeddings arrive as flat row
  blocks and are regrouped by row, edge and endpoint. A step adds to an edge vector one times half the sum over the
  two endpoints of (endpoint embedding + one times the masked mean of the neighbouring edge vectors).
-/
import proofs.«409295_j17566416241101_3_alg».proof.Proof.Gen.KernelIdeal.Skeleton
import proofs.«409295_j17566416241101_3_alg».proof.Proof.Spec
import proofs.«409295_j17566416241101_3_alg».proof.Proof.KMask
import Idealize.ShloMosaic.Lib.Pipeline.Value
import Idealize.ShloMosaic.Lib.ValueIdx
import Idealize.ShloMosaic.PureOps.Ideal.Laws

noncomputable section

open scoped BigOperators

namespace Cert.KStep

open Idealize.ShloMosaic Idealize.ShloMosaic.ValueIdx Cert.KernelIdeal Cert.KernelIdeal.Gen Cert.Spec

/-- Row a's endpoint p is flat row a·2 + p of the [64, 64] block. -/
theorem pay5_apply (e0 : FVec Ideal S64x64 .f32) (a : Fin 32) (p : Fin 2) (d : Fin 64) :
    k0_pay5 (F := Ideal) e0 (ix4 a (0 : Fin 1) p d) = e0 (ix2 (⟨a.val * 2 + p.val, by omega⟩ : Fin 64) d) := by
  unfold k0_pay5
  rw [shapeCast_self]
  refine shapeCast_apply e0 _ _ _ ?_
  rw [Shape.rowMajor_val_two, Shape.rowMajor_val_four]
  show (a.val * 2 + p.val) * 64 + d.val = (((a.val * 1 + 0) * 2 + p.val) * 64 + d.val)
  omega

/-- Row a's first-hop edge j's endpoint p is flat row (a·32 + j)·2 + p of the [2048, 64] block. -/
theorem pay6_apply (e1 : FVec Ideal S2048x64 .f32) (a : Fin 32) (j : Fin 32) (p : Fin 2) (d : Fin 64) :
    k0_pay6 (F := Ideal) e1 (ix4 a j p d) = e1 (ix2 (⟨(a.val * 32 + j.val) * 2 + p.val, by omega⟩ : Fin 2048) d) := by
  unfold k0_pay6
  rw [shapeCast_self]
  refine shapeCast_apply e1 _ _ _ ?_
  rw [Shape.rowMajor_val_two, Shape.rowMajor_val_four]
  show ((a.val * 32 + j.val) * 2 + p.val) * 64 + d.val = (((a.val * 32 + j.val) * 2 + p.val) * 64 + d.val)
  rfl

/-- Inserting endpoint coordinate `k` on axis 2 of a [32, 1, 64] index. -/
theorem lift_p (h : S32x1x2x64.Reduces [2] S32x1x64) (a : Fin 32) (d : Fin 64) (k : Fin 2) :
    h.lift (ix3 a (0 : Fin 1) d) k = ix4 a (0 : Fin 1) k d := by
  funext c
  apply Fin.ext
  show h.liftVal (ix3 a (0 : Fin 1) d) k.val c = (ix4 a (0 : Fin 1) k d c).val
  unfold Shape.Reduces.liftVal
  match c with
  | ⟨0, _⟩ => rfl
  | ⟨1, _⟩ => rfl
  | ⟨2, _⟩ => rfl
  | ⟨3, _⟩ => rfl

/-- Inserting endpoint coordinate `k` on axis 2 of a [32, 32, 64] index. -/
theorem lift_q (h : S32x32x2x64.Reduces [2] S32x32x64) (a j : Fin 32) (d : Fin 64) (k : Fin 2) :
    h.lift (ix3 a j d) k = ix4 a j k d := by
  funext c
  apply Fin.ext
  show h.liftVal (ix3 a j d) k.val c = (ix4 a j k d c).val
  unfold Shape.Reduces.liftVal
  match c with
  | ⟨0, _⟩ => rfl
  | ⟨1, _⟩ => rfl
  | ⟨2, _⟩ => rfl
  | ⟨3, _⟩ => rfl

/-- Inserting hidden coordinate `k` on axis 1 of a [32] index. -/
theorem lift_d (h : S32x64.Reduces [1] S32) (a : Fin 32) (k : Fin 64) :
    h.lift (ix1 a) k = ix2 a k := by
  funext c
  apply Fin.ext
  show h.liftVal (ix1 a) k.val c = (ix2 a k c).val
  unfold Shape.Reduces.liftVal
  match c with
  | ⟨0, _⟩ => rfl
  | ⟨1, _⟩ => rfl

/-- One aggregation step over a row's own vector, over its arguments: the vector plus one times half the sum over the two
    endpoints of (endpoint embedding + one times (the sum over the 16 samples of neighbour times mask, divided by the
    count)). -/
theorem step_apply (v14 : FVec Ideal S32x1x64 .f32) (v29 : FVec Ideal S32x1x2x64 .f32) (v38 v39 : FVec Ideal S32x1x2x16x64 .f32)
    (v44 : FVec Ideal S32x1x2x64 .f32) (a : Fin 32) (d : Fin 64) :
    addf v14 (mulf (broadcast S32x1x64 (Scalar.ofBits .f32 0x3F800000#32))
      (divf (multiReduction .add [2] S32x1x64
          (addf v29 (mulf (broadcast S32x1x2x64 (Scalar.ofBits .f32 0x3F800000#32))
            (divf (multiReduction .add [3] S32x1x2x64 (mulf v39 v38) 0x00000000#32 reduces_S32x1x2x16x64_S32x1x2x64 (.inl rfl) rfl) v44)))
          0x00000000#32 reduces_S32x1x2x64_S32x1x64 (.inl rfl) rfl)
        (broadcast S32x1x64 (Scalar.ofBits .f32 0x40000000#32)))) (ix3 a (0 : Fin 1) d)
      = v14 (ix3 a (0 : Fin 1) d) + oneF * Ideal.div (∑ p : Fin 2, (v29 (ix4 a (0 : Fin 1) p d)
          + oneF * Ideal.div (∑ s : Fin 16, v39 (ix5 a (0 : Fin 1) p s d) * v38 (ix5 a (0 : Fin 1) p s d))
              (v44 (ix4 a (0 : Fin 1) p d)))) twoF := by
  simp only [addf_apply, mulf_apply, divf_apply, broadcast_apply]
  refine congrArg (fun x => v14 (ix3 a (0 : Fin 1) d) + oneF * Ideal.div x twoF) ?_
  refine (Ideal.multiReduction_add_single _ 0x00000000#32 reduces_S32x1x2x64_S32x1x64 _ _ (ix3 a (0 : Fin 1) d)).trans ?_
  refine Finset.sum_congr rfl fun (p : Fin 2) _ => ?_
  rw [lift_p _ a d p]
  simp only [addf_apply, mulf_apply, divf_apply, broadcast_apply]
  refine congrArg (fun x => v29 (ix4 a (0 : Fin 1) p d) + oneF * Ideal.div x (v44 (ix4 a (0 : Fin 1) p d))) ?_
  refine (Ideal.multiReduction_add_single _ 0x00000000#32 reduces_S32x1x2x16x64_S32x1x2x64 _ _ (ix4 a (0 : Fin 1) p d)).trans ?_
  refine Finset.sum_congr rfl fun (s : Fin 16) _ => ?_
  rw [KMask.lift_s _ a p d s]
  rfl

/-- The first step of the row's own vector, over its arguments. -/
theorem pay12_apply (v14 : FVec Ideal S32x1x64 .f32) (v29 : FVec Ideal S32x1x2x64 .f32) (v38 v39 : FVec Ideal S32x1x2x16x64 .f32)
    (v40 : FVec Ideal S32x1x2x64 .f32) (v42 : IVec S32x1x2x64 1) (a : Fin 32) (d : Fin 64) :
    k0_pay12 (F := Ideal) v14 v29 v38 v39 v40 v42 (ix3 a (0 : Fin 1) d)
      = v14 (ix3 a (0 : Fin 1) d) + oneF * Ideal.div (∑ p : Fin 2, (v29 (ix4 a (0 : Fin 1) p d)
          + oneF * Ideal.div (∑ s : Fin 16, v39 (ix5 a (0 : Fin 1) p s d) * v38 (ix5 a (0 : Fin 1) p s d))
              (k0_pay11 (F := Ideal) v40 v42 (ix4 a (0 : Fin 1) p d)))) twoF := by
  exact step_apply v14 v29 v38 v39 (k0_pay11 (F := Ideal) v40 v42) a d

/-- One aggregation step over the first-hop edge vectors, over its arguments: the edge vector plus one times half the sum
    over the two endpoints of (endpoint embedding + one times (neighbour sum divided by count)). -/
theorem edge_apply (v26 : FVec Ideal S32x32x64 .f32) (v32 v86 v87 : FVec Ideal S32x32x2x64 .f32) (a j : Fin 32) (d : Fin 64) :
    addf v26 (mulf (broadcast S32x32x64 (Scalar.ofBits .f32 0x3F800000#32))
      (divf (multiReduction .add [2] S32x32x64
          (addf v32 (mulf (broadcast S32x32x2x64 (Scalar.ofBits .f32 0x3F800000#32)) (divf v86 v87)))
          0x00000000#32 reduces_S32x32x2x64_S32x32x64 (.inl rfl) rfl)
        (broadcast S32x32x64 (Scalar.ofBits .f32 0x40000000#32)))) (ix3 a j d)
      = v26 (ix3 a j d) + oneF * Ideal.div (∑ p' : Fin 2, (v32 (ix4 a j p' d)
          + oneF * Ideal.div (v86 (ix4 a j p' d)) (v87 (ix4 a j p' d)))) twoF := by
  simp only [addf_apply, mulf_apply, divf_apply, broadcast_apply]
  refine congrArg (fun x => v26 (ix3 a j d) + oneF * Ideal.div x twoF) ?_
  refine (Ideal.multiReduction_add_single _ 0x00000000#32 reduces_S32x32x2x64_S32x32x64 _ _ (ix3 a j d)).trans ?_
  refine Finset.sum_congr rfl fun (p : Fin 2) _ => ?_
  rw [lift_q _ a j d p]
  rfl

/-- The stored score of row a, over the payload's arguments: the first-hop edges' step, the row's second step, and the
    inner product with the scorer weights. -/
theorem pay1_apply (v26 : FVec Ideal S32x32x64 .f32) (v29 : FVec Ideal S32x1x2x64 .f32) (v32 : FVec Ideal S32x32x2x64 .f32)
    (v38 : FVec Ideal S32x1x2x16x64 .f32) (v44 : FVec Ideal S32x1x2x64 .f32) (v56 : FVec Ideal S32x1x64 .f32)
    (v86 v87 : FVec Ideal S32x32x2x64 .f32) (v112 : FVec Ideal S1x64 .f32) (a : Fin 32) :
    k0_pay1 (F := Ideal) v26 v29 v32 v38 v44 v56 v86 v87 v112 (ix2 a (0 : Fin 1))
      = ∑ d : Fin 64, (v56 (ix3 a (0 : Fin 1) d) + oneF * Ideal.div (∑ p : Fin 2, (v29 (ix4 a (0 : Fin 1) p d)
          + oneF * Ideal.div (∑ s : Fin 16,
              (v26 (ix3 a (j16 p s) d) + oneF * Ideal.div (∑ p' : Fin 2, (v32 (ix4 a (j16 p s) p' d)
                  + oneF * Ideal.div (v86 (ix4 a (j16 p s) p' d)) (v87 (ix4 a (j16 p s) p' d)))) twoF)
                * v38 (ix5 a (0 : Fin 1) p s d))
              (v44 (ix4 a (0 : Fin 1) p d)))) twoF) * v112 (ix2 (0 : Fin 1) d) := by
  unfold k0_pay1
  refine (shapeCast_apply _ shapeCasts_S32_S32x1 _ (ix1 a) ?_).trans ?_
  · rw [Shape.rowMajor_val_one, Shape.rowMajor_val_two]
    show a.val = a.val * 1 + 0
    omega
  refine (Ideal.multiReduction_add_single _ 0x00000000#32 reduces_S32x64_S32 _ _ (ix1 a)).trans ?_
  refine Finset.sum_congr rfl fun (d : Fin 64) _ => ?_
  rw [lift_d _ a d]
  refine (mulf_apply _ _ _).trans ?_
  refine congrArg₂ (· * ·) ?_ ?_
  · refine (shapeCast_apply _ shapeCasts_S32x1x64_S32x64 _ (ix3 a (0 : Fin 1) d) ?_).trans ?_
    · rw [Shape.rowMajor_val_three, Shape.rowMajor_val_two]
      show (a.val * 1 + 0) * 64 + d.val = a.val * 64 + d.val
      omega
    refine (step_apply v56 v29 v38 _ v44 a d).trans ?_
    refine congrArg (fun x => v56 (ix3 a (0 : Fin 1) d) + oneF * Ideal.div x twoF) ?_
    refine Finset.sum_congr rfl fun (p : Fin 2) _ => ?_
    refine congrArg (fun x => v29 (ix4 a (0 : Fin 1) p d) + oneF * Ideal.div x (v44 (ix4 a (0 : Fin 1) p d))) ?_
    refine Finset.sum_congr rfl fun (s : Fin 16) _ => ?_
    refine congrArg (fun x => x * v38 (ix5 a (0 : Fin 1) p s d)) ?_
    refine (KMask.regroup_apply _ a p s d).trans ?_
    exact edge_apply v26 v32 v86 v87 a (j16 p s) d
  · rw [shapeCast_self]
    exact broadcastTo_apply v112 broadcasts_S1x64_S32x64 _ (ix2 (0 : Fin 1) d) (fun c => by
      match c with
      | ⟨0, _⟩ => rfl
      | ⟨1, _⟩ => rfl)

end Cert.KStep

end
-- ==== Proof.KBody.lean ====
/-
  What the kernel body stores for a row. The stored value at row a of a block is the per-row score of that row's
  data read off the block's inputs: the relation ids (each below 16, so each lookup is the table's row), the masks
  (0 or 1, so the per-relation counts times the table are the masked sum of rows), the endpoint blocks regrouped by
  row, edge and endpoint, the relation table and the weights row.
-/
import proofs.«409295_j17566416241101_3_alg».proof.Proof.Gen.KernelIdeal.Skeleton
import proofs.«409295_j17566416241101_3_alg».proof.Proof.Spec
import proofs.«409295_j17566416241101_3_alg».proof.Proof.KMask
import proofs.«409295_j17566416241101_3_alg».proof.Proof.KLookup
import proofs.«409295_j17566416241101_3_alg».proof.Proof.KHist
import proofs.«409295_j17566416241101_3_alg».proof.Proof.KStep
import Idealize.ShloMosaic.Lib.Pipeline.Value
import Idealize.ShloMosaic.Lib.ValueIdx
import Idealize.ShloMosaic.PureOps.Ideal.Laws

noncomputable section

open scoped BigOperators

namespace Cert.KBody

open Idealize.ShloMosaic Idealize.ShloMosaic.ValueIdx Cert.KernelIdeal Cert.KernelIdeal.Gen Cert.Spec

/-- The body's stored block as a function of its nine input blocks. -/
def body (r0 : IVec S32x1 32) (r1 : IVec S32x32 32) (r2 : IVec S32x1024 32) (m0 : FVec Ideal S32x32 .f32)
    (m1 : FVec Ideal S32x1024 .f32) (e0 : FVec Ideal S64x64 .f32) (e1 : FVec Ideal S2048x64 .f32)
    (R : FVec Ideal S16x64 .f32) (wT : FVec Ideal S1x64 .f32) : FVec Ideal S32x1 .f32 :=
  k0_pay1 (F := Ideal) (k0_pay4 (F := Ideal) R r1) (k0_pay5 (F := Ideal) e0) (k0_pay6 (F := Ideal) e1) (k0_pay7 (F := Ideal) m0)
    (k0_pay11 (F := Ideal) (k0_pay9 (F := Ideal) m0) (k0_pay10 (F := Ideal) m0))
    (k0_pay12 (F := Ideal) (k0_pay3 (F := Ideal) R r0) (k0_pay5 (F := Ideal) e0) (k0_pay7 (F := Ideal) m0) (k0_pay8 (F := Ideal) R r1)
      (k0_pay9 (F := Ideal) m0) (k0_pay10 (F := Ideal) m0))
    (k0_pay14 (F := Ideal) (iota .tc S1x1x16 32 [2] iota_S1x1x16_d2_w32) (k0_pay2 (F := Ideal) R) r2 m1)
    (k0_pay15 (F := Ideal) (iota .tc S1x1x16 32 [2] iota_S1x1x16_d2_w32) r2 m1) wT

/-- Row a of the stored block is the per-row score of row a's data. -/
theorem body_row (r0 : IVec S32x1 32) (r1 : IVec S32x32 32) (r2 : IVec S32x1024 32) (m0 : FVec Ideal S32x32 .f32)
    (m1 : FVec Ideal S32x1024 .f32) (e0 : FVec Ideal S64x64 .f32) (e1 : FVec Ideal S2048x64 .f32)
    (R : FVec Ideal S16x64 .f32) (wT : FVec Ideal S1x64 .f32)
    (h0 : ∀ i, (r0 i).toNat < 16) (h1 : ∀ i, (r1 i).toNat < 16) (h2 : ∀ i, (r2 i).toNat < 16)
    (hm1 : ∀ i, m1 i = 0 ∨ m1 i = 1) (a : Fin 32) :
    body r0 r1 r2 m0 m1 e0 e1 R wT (ix2 a (0 : Fin 1))
      = rowScore (idOf (r0 (ix2 a (0 : Fin 1)))) (fun j => idOf (r1 (ix2 a j))) (fun q => idOf (r2 (ix2 a q)))
          (fun j => m0 (ix2 a j)) (fun q => m1 (ix2 a q))
          (fun p d => e0 (ix2 (⟨a.val * 2 + p.val, by omega⟩ : Fin 64) d))
          (fun j p d => e1 (ix2 (⟨(a.val * 32 + j.val) * 2 + p.val, by omega⟩ : Fin 2048) d))
          (fun k d => R (ix2 k d)) (fun d => wT (ix2 (0 : Fin 1) d)) := by
  unfold body
  rw [KStep.pay1_apply]
  simp only [KStep.pay12_apply, KLookup.pay3_apply R r0 h0, KLookup.pay4_apply R r1 h1, KLookup.pay8_apply R r1 h1,
    KStep.pay5_apply, KStep.pay6_apply, KMask.pay7_apply, KMask.pay11_apply, KHist.pay14_apply R r2 m1 h2 hm1,
    KHist.pay15_apply r2 m1 h2]
  rfl

end Cert.KBody

end
-- ==== Proof.KBlocks.lean ====
/-
  From blocks to the array. The call runs over 32 grid points; point t stages rows 32·t … 32·t + 31 of every
  row-indexed array (for the flat endpoint arrays the matching 64 and 2048 rows) and the whole relation table and
  weights row, and writes back rows 32·t … 32·t + 31 of the [1024, 1] result. Row a of what point t writes back is
  the per-row score of row 32·t + a of the launched arrays; the 32 blocks cover the result, which therefore holds, at
  every row b, the per-row score of row b.
-/
import proofs.«409295_j17566416241101_3_alg».proof.Proof.Gen.KernelIdeal.Frame
import proofs.«409295_j17566416241101_3_alg».proof.Proof.KBody
import Idealize.ShloMosaic.Lib.Pipeline.Value
import Idealize.ShloMosaic.Lib.ValueIdx

set_option maxRecDepth 16384

noncomputable section

open scoped BigOperators

namespace Cert.KBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (m : (ℓ : Loc nD τ sig) → Buf (Elt Ideal) ℓ)

/-- The launched arrays, by their literal types. -/
abbrev A0 (c : Dev nD) : IVec S1024x1 32 := V m c main_v31
abbrev A1 (c : Dev nD) : IVec S1024x32 32 := V m c main_v38
abbrev A2 (c : Dev nD) : IVec S1024x1024 32 := V m c main_v45
abbrev A3 (c : Dev nD) : FVec Ideal S1024x32 .f32 := V m c main_v11
abbrev A4 (c : Dev nD) : FVec Ideal S1024x1024 .f32 := V m c main_v30
abbrev A5 (c : Dev nD) : FVec Ideal S2048x64 .f32 := V m c main_v53
abbrev A6 (c : Dev nD) : FVec Ideal S65536x64 .f32 := V m c main_v61
abbrev A7 (c : Dev nD) : FVec Ideal S16x64 .f32 := V m c main_arg6
abbrev A8 (c : Dev nD) : FVec Ideal S1x64 .f32 := V m c main_v62

/-- Row a of point t's blocks is row 32·t + a of the arrays. -/
def grow (t : Fin cfg0.N) (a : Fin 32) : Fin 1024 := ⟨t.val * 32 + a.val, by have ht : t.val < 32 := t.isLt; omega⟩

/-- The printed index maps, decided over the grid: the row-indexed windows are at block (t, 0), the table and the weights
    row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem iblk0_apply (c : Dev nD) (t : Fin cfg0.N) (a : Fin 32) :
    (iblk m c 0 t : S32x1.Idx → BitVec 32) (ix2 a (0 : Fin 1)) = A0 m c (ix2 (grow t a) (0 : Fin 1)) := by
  unfold iblk
  show V m c main_v31 (((cfg0.win 0).blk t).view.emb (ix2 a (0 : Fin 1))) = V m c main_v31 (ix2 (grow t a) (0 : Fin 1))
  refine congrArg (V m c main_v31) (funext fun ax => Fin.ext ?_)
  obtain ⟨e0, e1, -⟩ := idx_facts t
  match ax with
  | ⟨0, _⟩ => show win0_0.index t (0 : Fin 2) * 32 + 1 * a.val = t.val * 32 + a.val; omega
  | ⟨1, _⟩ => show win0_0.index t (1 : Fin 2) * 1 + 1 * 0 = 0; omega

theorem iblk1_apply (c : Dev nD) (t : Fin cfg0.N) (a : Fin 32) (j : Fin 32) :
    (iblk m c 1 t : S32x32.Idx → BitVec 32) (ix2 a j) = A1 m c (ix2 (grow t a) j) := by
  unfold iblk
  show V m c main_v38 (((cfg0.win 1).blk t).view.emb (ix2 a j)) = V m c main_v38 (ix2 (grow t a) j)
  refine congrArg (V m c main_v38) (funext fun ax => Fin.ext ?_)
  obtain ⟨-, -, e0, e1, -⟩ := idx_facts t
  match ax with
  | ⟨0, _⟩ => show win0_1.index t (0 : Fin 2) * 32 + 1 * a.val = t.val * 32 + a.val; omega
  | ⟨1, _⟩ => show win0_1.index t (1 : Fin 2) * 32 + 1 * j.val = j.val; omega

theorem iblk2_apply (c : Dev nD) (t : Fin cfg0.N) (a : Fin 32) (q : Fin 1024) :
    (iblk m c 2 t : S32x1024.Idx → BitVec 32) (ix2 a q) = A2 m c (ix2 (grow t a) q) := by
  unfold iblk
  show V m c main_v45 (((cfg0.win 2).blk t).view.emb (ix2 a q)) = V m c main_v45 (ix2 (grow t a) q)
  refine congrArg (V m c main_v45) (funext fun ax => Fin.ext ?_)
  obtain ⟨-, -, -, -, e0, e1, -⟩ := idx_facts t
  have ht : t.val < 32 := t.isLt
  match ax with
  | ⟨0, _⟩ => show win0_2.index t (0 : Fin 2) * 32 + 1 * a.val = t.val * 32 + a.val; omega
  | ⟨1, _⟩ => show win0_2.index t (1 : Fin 2) * 1024 + 1 * q.val = q.val; omega

theorem iblk3_apply (c : Dev nD) (t : Fin cfg0.N) (a : Fin 32) (j : Fin 32) :
    (iblk m c 3 t : S32x32.Idx → EReal) (ix2 a j) = A3 m c (ix2 (grow t a) j) := by
  unfold iblk
  show V m c main_v11 (((cfg0.win 3).blk t).view.emb (ix2 a j)) = V m c main_v11 (ix2 (grow t a) j)
  refine congrArg (V m c main_v11) (funext fun ax => Fin.ext ?_)
  obtain ⟨-, -, -, -, -, -, e0, e1, -⟩ := idx_facts t
  have ht : t.val < 32 := t.isLt
  match ax with
  | ⟨0, _⟩ => show win0_3.index t (0 : Fin 2) * 32 + 1 * a.val = t.val * 32 + a.val; omega
  | ⟨1, _⟩ => show win0_3.index t (1 : Fin 2) * 32 + 1 * j.val = j.val; omega

theorem iblk4_apply (c : Dev nD) (t : Fin cfg0.N) (a : Fin 32) (q : Fin 1024) :
    (iblk m c 4 t : S32x1024.Idx → EReal) (ix2 a q) = A4 m c (ix2 (grow t a) q) := by
  unfold iblk
  show V m c main_v30 (((cfg0.win 4).blk t).view.emb (ix2 a q)) = V m c main_v30 (ix2 (grow t a) q)
  refine congrArg (V m c main_v30) (funext fun ax => Fin.ext ?_)
  obtain ⟨-, -, -, -, -, -, -, -, e0, e1, -⟩ := idx_facts t
  have ht : t.val < 32 := t.isLt
  match ax with
  | ⟨0, _⟩ => show win0_4.index t (0 : Fin 2) * 32 + 1 * a.val = t.val * 32 + a.val; omega
  | ⟨1, _⟩ => show win0_4.index t (1 : Fin 2) * 1024 + 1 * q.val = q.val; omega

theorem iblk5_apply (c : Dev nD) (t : Fin cfg0.N) (a : Fin 32) (p : Fin 2) (d : Fin 64) :
    (iblk m c 5 t : S64x64.Idx → EReal) (ix2 (⟨a.val * 2 + p.val, by omega⟩ : Fin 64) d) = A5 m c (ix2 (⟨(grow t a).val * 2 + p.val, by have := (grow t a).isLt; omega⟩ : Fin 2048) d) := by
  unfold iblk
  show V m c main_v53 (((cfg0.win 5).blk t).view.emb (ix2 (⟨a.val * 2 + p.val, by omega⟩ : Fin 64) d)) = V m c main_v53 (ix2 (⟨(grow t a).val * 2 + p.val, by have := (grow t a).isLt; omega⟩ : Fin 2048) d)
  refine congrArg (V m c main_v53) (funext fun ax => Fin.ext ?_)
  obtain ⟨-, -, -, -, -, -, -, -, -, -, e0, e1, -⟩ := idx_facts t
  have ht : t.val < 32 := t.isLt
  match ax with
  | ⟨0, _⟩ => show win0_5.index t (0 : Fin 2) * 64 + 1 * (a.val * 2 + p.val) = (t.val * 32 + a.val) * 2 + p.val; omega
  | ⟨1, _⟩ => show win0_5.index t (1 : Fin 2) * 64 + 1 * d.val = d.val; omega

theorem iblk6_apply (c : Dev nD) (t : Fin cfg0.N) (a : Fin 32) (j : Fin 32) (p : Fin 2) (d : Fin 64) :
    (iblk m c 6 t : S2048x64.Idx → EReal) (ix2 (⟨(a.val * 32 + j.val) * 2 + p.val, by omega⟩ : Fin 2048) d) = A6 m c (ix2 (⟨((grow t a).val * 32 + j.val) * 2 + p.val, by have := (grow t a).isLt; omega⟩ : Fin 65536) d) := by
  unfold iblk
  show V m c main_v61 (((cfg0.win 6).blk t).view.emb (ix2 (⟨(a.val * 32 + j.val) * 2 + p.val, by omega⟩ : Fin 2048) d)) = V m c main_v61 (ix2 (⟨((grow t a).val * 32 + j.val) * 2 + p.val, by have := (grow t a).isLt; omega⟩ : Fin 65536) d)
  refine congrArg (V m c main_v61) (funext fun ax => Fin.ext ?_)
  obtain ⟨-, -, -, -, -, -, -, -, -, -, -, -, e0, e1, -⟩ := idx_facts t
  have ht : t.val < 32 := t.isLt
  match ax with
  | ⟨0, _⟩ => show win0_6.index t (0 : Fin 2) * 2048 + 1 * ((a.val * 32 + j.val) * 2 + p.val) = ((t.val * 32 + a.val) * 32 + j.val) * 2 + p.val; omega
  | ⟨1, _⟩ => show win0_6.index t (1 : Fin 2) * 64 + 1 * d.val = d.val; omega

theorem iblk7_apply (c : Dev nD) (t : Fin cfg0.N) (k : Fin 16) (d : Fin 64) :
    (iblk m c 7 t : S16x64.Idx → EReal) (ix2 k d) = A7 m c (ix2 k d) := by
  unfold iblk
  show V m c main_arg6 (((cfg0.win 7).blk t).view.emb (ix2 k d)) = V m c main_arg6 (ix2 k d)
  refine congrArg (V m c main_arg6) (funext fun ax => Fin.ext ?_)
  obtain ⟨-, -, -, -, -, -, -, -, -, -, -, -, -, -, e0, e1, -⟩ := idx_facts t
  have ht : t.val < 32 := t.isLt
  match ax with
  | ⟨0, _⟩ => show win0_7.index t (0 : Fin 2) * 16 + 1 * k.val = k.val; omega
  | ⟨1, _⟩ => show win0_7.index t (1 : Fin 2) * 64 + 1 * d.val = d.val; omega

theorem iblk8_apply (c : Dev nD) (t : Fin cfg0.N) (d : Fin 64) :
    (iblk m c 8 t : S1x64.Idx → EReal) (ix2 (0 : Fin 1) d) = A8 m c (ix2 (0 : Fin 1) d) := by
  unfold iblk
  show V m c main_v62 (((cfg0.win 8).blk t).view.emb (ix2 (0 : Fin 1) d)) = V m c main_v62 (ix2 (0 : Fin 1) d)
  refine congrArg (V m c main_v62) (funext fun ax => Fin.ext ?_)
  obtain ⟨-, -, -, -, -, -, -, -, -, -, -, -, -, -, -, -, e0, e1, -⟩ := idx_facts t
  have ht : t.val < 32 := t.isLt
  match ax with
  | ⟨0, _⟩ => show win0_8.index t (0 : Fin 2) * 1 + 1 * 0 = 0; omega
  | ⟨1, _⟩ => show win0_8.index t (1 : Fin 2) * 64 + 1 * d.val = d.val; omega

/-! ## What a point writes back -/

/-- The per-row score of row b of the launched arrays. -/
def rowG (c : Dev nD) (b : Fin 1024) : EReal :=
  rowScore (idOf (A0 m c (ix2 b (0 : Fin 1)))) (fun j => idOf (A1 m c (ix2 b j))) (fun q => idOf (A2 m c (ix2 b q)))
    (fun j => A3 m c (ix2 b j)) (fun q => A4 m c (ix2 b q))
    (fun p d => A5 m c (ix2 (⟨b.val * 2 + p.val, by omega⟩ : Fin 2048) d))
    (fun j p d => A6 m c (ix2 (⟨(b.val * 32 + j.val) * 2 + p.val, by omega⟩ : Fin 65536) d))
    (fun k d => A7 m c (ix2 k d)) (fun d => A8 m c (ix2 (0 : Fin 1) d))

/-- The result array's contents: at (b, 0) the per-row score of row b. -/
def G (c : Dev nD) : S1024x1.Idx → EReal := fun i => rowG m c ⟨(i 0).val, idx2_lt0 i⟩

/-- A stored block at any of its indices, over variables of the literal block types. -/
theorem block_row (x0 : IVec S32x1 32) (x1 : IVec S32x32 32) (x2 : IVec S32x1024 32) (x3 : FVec Ideal S32x32 .f32)
    (x4 : FVec Ideal S32x1024 .f32) (x5 : FVec Ideal S64x64 .f32) (x6 : FVec Ideal S2048x64 .f32)
    (x7 : FVec Ideal S16x64 .f32) (x8 : FVec Ideal S1x64 .f32)
    (h0 : ∀ i, (x0 i).toNat < 16) (h1 : ∀ i, (x1 i).toNat < 16) (h2 : ∀ i, (x2 i).toNat < 16)
    (hm1 : ∀ i, x4 i = 0 ∨ x4 i = 1) (y : S32x1.Idx) (a : Fin 32) (ha : a.val = (y 0).val) :
    Cert.KBody.body x0 x1 x2 x3 x4 x5 x6 x7 x8 y
      = rowScore (idOf (x0 (ix2 a (0 : Fin 1)))) (fun j => idOf (x1 (ix2 a j))) (fun q => idOf (x2 (ix2 a q)))
          (fun j => x3 (ix2 a j)) (fun q => x4 (ix2 a q))
          (fun p d => x5 (ix2 (⟨a.val * 2 + p.val, by omega⟩ : Fin 64) d))
          (fun j p d => x6 (ix2 (⟨(a.val * 32 + j.val) * 2 + p.val, by omega⟩ : Fin 2048) d))
          (fun k d => x7 (ix2 k d)) (fun d => x8 (ix2 (0 : Fin 1) d)) := by
  have hy : y = ix2 a (0 : Fin 1) := by
    funext ax
    match ax with
    | ⟨0, _⟩ => exact Fin.ext ha.symm
    | ⟨1, _⟩ => exact Fin.ext (by have h1' : (y 1).val < 1 := idx2_lt1 y; show (y 1).val = 0; omega)
  exact (congrArg (Cert.KBody.body x0 x1 x2 x3 x4 x5 x6 x7 x8) hy).trans
    (Cert.KBody.body_row x0 x1 x2 x3 x4 x5 x6 x7 x8 h0 h1 h2 hm1 a)

theorem hz : (![0, 0] : Fin 2 → Nat) = fun _ => 0 := funext fun a => by fin_cases a <;> rfl

/-- A block's entries are entries of its array: bounds and the 0/1 property pass to the blocks. -/
theorem iblk0_lt (c : Dev nD) (t : Fin cfg0.N) (h0 : ∀ i, (A0 m c i).toNat < 16) (i : S32x1.Idx) :
    ((iblk m c 0 t : S32x1.Idx → BitVec 32) i).toNat < 16 := by
  unfold iblk
  show (V m c main_v31 (((cfg0.win 0).blk t).view.emb i)).toNat < 16
  exact h0 (((cfg0.win 0).blk t).view.emb i)
theorem iblk1_lt (c : Dev nD) (t : Fin cfg0.N) (h1 : ∀ i, (A1 m c i).toNat < 16) (i : S32x32.Idx) :
    ((iblk m c 1 t : S32x32.Idx → BitVec 32) i).toNat < 16 := by
  unfold iblk
  show (V m c main_v38 (((cfg0.win 1).blk t).view.emb i)).toNat < 16
  exact h1 (((cfg0.win 1).blk t).view.emb i)
theorem iblk2_lt (c : Dev nD) (t : Fin cfg0.N) (h2 : ∀ i, (A2 m c i).toNat < 16) (i : S32x1024.Idx) :
    ((iblk m c 2 t : S32x1024.Idx → BitVec 32) i).toNat < 16 := by
  unfold iblk
  show (V m c main_v45 (((cfg0.win 2).blk t).view.emb i)).toNat < 16
  exact h2 (((cfg0.win 2).blk t).view.emb i)
theorem iblk4_01 (c : Dev nD) (t : Fin cfg0.N) (hm1 : ∀ i, A4 m c i = 0 ∨ A4 m c i = 1) (i : S32x1024.Idx) :
    (iblk m c 4 t : S32x1024.Idx → EReal) i = (0 : EReal) ∨ (iblk m c 4 t : S32x1024.Idx → EReal) i = (1 : EReal) := by
  unfold iblk
  show (V m c main_v30 : S1024x1024.Idx → EReal) (((cfg0.win 4).blk t).view.emb i) = (0 : EReal)
    ∨ (V m c main_v30 : S1024x1024.Idx → EReal) (((cfg0.win 4).blk t).view.emb i) = (1 : EReal)
  exact hm1 (((cfg0.win 4).blk t).view.emb i)

set_option maxHeartbeats 2000000 in
/-- WHAT POINT t WRITES BACK is block t of the per-row scores, given that the launched relation ids are below 16
    and the launched second-hop mask is 0 or 1. -/
theorem flushed9_eq (c : Dev nD) (h0 : ∀ i, (A0 m c i).toNat < 16) (h1 : ∀ i, (A1 m c i).toNat < 16)
    (h2 : ∀ i, (A2 m c i).toNat < 16) (hm1 : ∀ i, A4 m c i = 0 ∨ A4 m c i = 1) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz]
  simp only [View.ld_unit_zero (S := S16x64) hz, View.ld_unit_zero (S := S32x1) hz, View.ld_unit_zero (S := S32x32) hz,
    View.ld_unit_zero (S := S64x64) hz, View.ld_unit_zero (S := S2048x64) hz, View.ld_unit_zero (S := S32x1024) hz,
    View.ld_unit_zero (S := S1x64) hz]
  funext y
  obtain ⟨-, -, -, -, -, -, -, -, -, -, -, -, -, -, -, -, -, -, e90, e91⟩ := idx_facts t
  have ht : t.val < 32 := t.isLt
  have hy0 : (y 0).val < 32 := (y 0).isLt
  let a : Fin 32 := ⟨(y 0).val, hy0⟩
  have hrow : (⟨((((cfg0.win 9).blk t).view.emb y) 0).val, idx2_lt0 _⟩ : Fin 1024) = grow t a := by
    apply Fin.ext
    show win0_9.index t (0 : Fin 2) * 32 + 1 * (y 0).val = t.val * 32 + (y 0).val
    omega
  show Cert.KBody.body (iblk m c 0 t) (iblk m c 1 t) (iblk m c 2 t) (iblk m c 3 t) (iblk m c 4 t) (iblk m c 5 t)
      (iblk m c 6 t) (iblk m c 7 t) (iblk m c 8 t) y = rowG m c ⟨((((cfg0.win 9).blk t).view.emb y) 0).val, idx2_lt0 _⟩
  rw [hrow]
  refine (block_row (iblk m c 0 t) (iblk m c 1 t) (iblk m c 2 t) (iblk m c 3 t) (iblk m c 4 t) (iblk m c 5 t)
      (iblk m c 6 t) (iblk m c 7 t) (iblk m c 8 t)
      (iblk0_lt m c t h0) (iblk1_lt m c t h1) (iblk2_lt m c t h2) (iblk4_01 m c t hm1) y a rfl).trans ?_
  unfold rowG
  have e0 := iblk0_apply m c t a
  have e1 : (fun j : Fin 32 => idOf ((iblk m c 1 t : S32x32.Idx → BitVec 32) (ix2 a j))) = fun j => idOf (A1 m c (ix2 (grow t a) j)) :=
    funext fun j => congrArg idOf (iblk1_apply m c t a j)
  have e2 : (fun q : Fin 1024 => idOf ((iblk m c 2 t : S32x1024.Idx → BitVec 32) (ix2 a q))) = fun q => idOf (A2 m c (ix2 (grow t a) q)) :=
    funext fun q => congrArg idOf (iblk2_apply m c t a q)
  have e3 : (fun j : Fin 32 => (iblk m c 3 t : S32x32.Idx → EReal) (ix2 a j)) = fun j => A3 m c (ix2 (grow t a) j) :=
    funext fun j => iblk3_apply m c t a j
  have e4 : (fun q : Fin 1024 => (iblk m c 4 t : S32x1024.Idx → EReal) (ix2 a q)) = fun q => A4 m c (ix2 (grow t a) q) :=
    funext fun q => iblk4_apply m c t a q
  have e5 : (fun (p : Fin 2) (d : Fin 64) => (iblk m c 5 t : S64x64.Idx → EReal) (ix2 (⟨a.val * 2 + p.val, by omega⟩ : Fin 64) d))
      = fun p d => A5 m c (ix2 (⟨(grow t a).val * 2 + p.val, by have := (grow t a).isLt; omega⟩ : Fin 2048) d) :=
    funext fun p => funext fun d => iblk5_apply m c t a p d
  have e6 : (fun (j : Fin 32) (p : Fin 2) (d : Fin 64) => (iblk m c 6 t : S2048x64.Idx → EReal) (ix2 (⟨(a.val * 32 + j.val) * 2 + p.val, by omega⟩ : Fin 2048) d))
      = fun j p d => A6 m c (ix2 (⟨((grow t a).val * 32 + j.val) * 2 + p.val, by have := (grow t a).isLt; omega⟩ : Fin 65536) d) :=
    funext fun j => funext fun p => funext fun d => iblk6_apply m c t a j p d
  have e7 : (fun (k : Fin 16) (d : Fin 64) => (iblk m c 7 t : S16x64.Idx → EReal) (ix2 k d)) = fun k d => A7 m c (ix2 k d) :=
    funext fun k => funext fun d => iblk7_apply m c t k d
  have e8 : (fun d : Fin 64 => (iblk m c 8 t : S1x64.Idx → EReal) (ix2 (0 : Fin 1) d)) = fun d => A8 m c (ix2 (0 : Fin 1) d) :=
    funext fun d => iblk8_apply m c t d
  exact (congrArg (fun z => rowScore (idOf z) _ _ _ _ _ _ _ _) e0).trans
    (by rw [e1, e2, e3, e4, e5, e6, e7, e8])

/-- An index of the result is in point t's block iff its row is among the block's 32 rows. -/
theorem mem_blk9 (t : Fin cfg0.N) (i : S1024x1.Idx) :
    i ∈ ((cfg0.win 9).blk t).view.set ↔ ∀ a : Fin 2, win0_9.index t a * S32x1.size a ≤ (i a).val ∧ (i a).val < win0_9.index t a * S32x1.size a + S32x1.size a := by
  show i ∈ ((View.whole main_v63).slice (win0_9.rect t)).set ↔ _
  rw [View.set_slice_whole, Rect.mem_set_unit]
  exact Iff.rfl

/-- THE RESULT ARRAY after the call: at every row the per-row score of that row of the launched arrays. -/
theorem final9 (c : Dev nD) (h0 : ∀ i, (A0 m c i).toNat < 16) (h1 : ∀ i, (A1 m c i).toNat < 16)
    (h2 : ∀ i, (A2 m c i).toNat < 16) (hm1 : ∀ i, A4 m c i = 0 ∨ A4 m c i = 1) :
    (dats m 0 c).arrAt 9 cfg0.N = G m c :=
  (dats m 0 c).arrAt_eq_of_cover 9 (G m c) (fun t _ => flushed9_eq m c h0 h1 h2 hm1 t) fun i => by
    have hi0 : (i 0).val < 1024 := idx2_lt0 i
    have hi1 : (i 1).val < 1 := idx2_lt1 i
    let t : Fin cfg0.N := ⟨(i 0).val / 32, by show (i 0).val / 32 < 32; omega⟩
    refine ⟨t, flush0_9 t, ?_⟩
    rw [mem_blk9]
    obtain ⟨-, -, -, -, -, -, -, -, -, -, -, -, -, -, -, -, -, -, e90, e91⟩ := idx_facts t
    have htv : t.val = (i 0).val / 32 := rfl
    intro a
    match a with
    | ⟨0, _⟩ => show win0_9.index t (0 : Fin 2) * 32 ≤ (i 0).val ∧ (i 0).val < win0_9.index t (0 : Fin 2) * 32 + 32; omega
    | ⟨1, _⟩ => show win0_9.index t (1 : Fin 2) * 1 ≤ (i 1).val ∧ (i 1).val < win0_9.index t (1 : Fin 2) * 1 + 1; omega

end Cert.KBlocks

end
-- ==== Proof.KHost.lean ====
/-
  The arrays the kernel's call is launched on, as functions of the program's arguments. The index chains (neighbour
  edges, their endpoints, second-hop edges), the two masks and the gathered relation ids are produced by the same
  host operations, in the same order, as the reference's: each of these launched arrays IS the reference's stage of
  the same arguments. The relation ids and the scorer weights are launched reshaped ([1024] as [1024, 1], [64, 1] as
  [1, 64]). A mask entry is the conversion of one bit, so it is 0 or 1.
-/
import proofs.«409295_j17566416241101_3_alg».proof.Proof.Gen.KernelIdeal.Frame
import proofs.«409295_j17566416241101_3_alg».proof.Proof.RefRead
import Idealize.ShloMosaic.Lib.StableHlo.Run
import Idealize.ShloMosaic.Lib.Pipeline.Value
import Idealize.ShloMosaic.Lib.ValueIdx

set_option maxRecDepth 16384

noncomputable section

namespace Cert.KHost

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]
variable (m : (ℓ : Loc nD τ sig) → Buf (Elt F) ℓ)

set_option maxHeartbeats 4000000 in
/-- The first-hop relation ids. -/
theorem V_rel1 (c : Dev nD) :
    (V m c main_v38 : S1024x32.Idx → BitVec 32)
      = Cert.ReferenceIdeal.ReadP.val_main_v58 (F := F) (m ((c.tc : Thread nD τ).loc main_arg1)) (m ((c.tc : Thread nD τ).loc main_arg3)) (m ((c.tc : Thread nD τ).loc main_arg5)) := by
  show StableHlo.after hostOps0 (fun b => m (c, b)) (Proc.devRef .tc main_v38) = _
  after_results_simp
  rfl

set_option maxHeartbeats 4000000 in
/-- The second-hop relation ids. -/
theorem V_rel2 (c : Dev nD) :
    (V m c main_v45 : S1024x1024.Idx → BitVec 32)
      = Cert.ReferenceIdeal.ReadP.val_main_v72 (F := F) (m ((c.tc : Thread nD τ).loc main_arg1)) (m ((c.tc : Thread nD τ).loc main_arg3)) (m ((c.tc : Thread nD τ).loc main_arg4)) (m ((c.tc : Thread nD τ).loc main_arg5)) := by
  show StableHlo.after hostOps0 (fun b => m (c, b)) (Proc.devRef .tc main_v45) = _
  after_results_simp
  rfl

set_option maxHeartbeats 4000000 in
/-- The first-hop mask. -/
theorem V_mask0 (c : Dev nD) :
    (V m c main_v11 : S1024x32.Idx → F .f32)
      = Cert.ReferenceIdeal.ReadP.val_main_v11 (F := F) (m ((c.tc : Thread nD τ).loc main_arg1)) (m ((c.tc : Thread nD τ).loc main_arg2)) (m ((c.tc : Thread nD τ).loc main_arg3)) := by
  show StableHlo.after hostOps0 (fun b => m (c, b)) (Proc.devRef .tc main_v11) = _
  after_results_simp
  rfl

set_option maxHeartbeats 4000000 in
/-- The second-hop mask. -/
theorem V_mask1 (c : Dev nD) :
    (V m c main_v30 : S1024x1024.Idx → F .f32)
      = Cert.ReferenceIdeal.ReadP.val_main_v30 (F := F) (m ((c.tc : Thread nD τ).loc main_arg1)) (m ((c.tc : Thread nD τ).loc main_arg2)) (m ((c.tc : Thread nD τ).loc main_arg3)) (m ((c.tc : Thread nD τ).loc main_arg4)) := by
  show StableHlo.after hostOps0 (fun b => m (c, b)) (Proc.devRef .tc main_v30) = _
  after_results_simp
  rfl

set_option maxHeartbeats 4000000 in
/-- The relation ids, launched as a column: entry (b, 0) is id b. -/
theorem V_rel0 (c : Dev nD) (b : Fin 1024) :
    (V m c main_v31 : S1024x1.Idx → BitVec 32) (ix2 b (0 : Fin 1)) = (m ((c.tc : Thread nD τ).loc main_arg0)) (ix1 b) := by
  have e : (V m c main_v31 : S1024x1.Idx → BitVec 32) = shapeCast S1024x1 (m ((c.tc : Thread nD τ).loc main_arg0)) shapeCasts_S1024_S1024x1 := by
    show StableHlo.after hostOps0 (fun b => m (c, b)) (Proc.devRef .tc main_v31) = _
    after_results_simp
    rfl
  rw [e]
  refine shapeCast_apply (s := S1024) (t := S1024x1) _ _ _ _ ?_
  show (S1024.rowMajor (ix1 b)).val = (S1024x1.rowMajor (ix2 b (0 : Fin 1))).val
  rw [Shape.rowMajor_val_one, Shape.rowMajor_val_two]
  show b.val = b.val * 1 + 0
  omega

set_option maxHeartbeats 4000000 in
/-- The scorer weights, launched as a row: entry (0, d) is weight (d, 0). -/
theorem V_w (c : Dev nD) (d : Fin 64) :
    (V m c main_v62 : S1x64.Idx → F .f32) (ix2 (0 : Fin 1) d) = (m ((c.tc : Thread nD τ).loc main_arg8)) (ix2 d (0 : Fin 1)) := by
  have e : (V m c main_v62 : S1x64.Idx → F .f32) = shapeCast S1x64 (m ((c.tc : Thread nD τ).loc main_arg8)) shapeCasts_S64x1_S1x64 := by
    show StableHlo.after hostOps0 (fun b => m (c, b)) (Proc.devRef .tc main_v62) = _
    after_results_simp
    rfl
  rw [e]
  refine shapeCast_apply (s := S64x1) (t := S1x64) _ _ _ _ ?_
  show (S64x1.rowMajor (ix2 d (0 : Fin 1))).val = (S1x64.rowMajor (ix2 (0 : Fin 1) d)).val
  rw [Shape.rowMajor_val_two, Shape.rowMajor_val_two]
  show d.val * 1 + 0 = 0 * 64 + d.val
  omega

end Cert.KHost

namespace Cert.KHost

open Idealize.ShloMosaic Idealize.ShloMosaic.ValueIdx Cert.ReferenceIdeal Cert.ReferenceIdeal.ReadP

/-- A first-hop mask entry is 0 or 1. -/
theorem mask0_01 (x1 : IVec S1024x2 32) (x2 : IVec S1024 32) (x3 : IVec S200000x16 32) (i : S1024x32.Idx) :
    val_main_v11 (F := Ideal) x1 x2 x3 i = 0 ∨ val_main_v11 (F := Ideal) x1 x2 x3 i = 1 := by
  rw [val_main_v11_apply]
  rcases BitVec.eq_zero_or_eq_one (val_main_v10 (F := Ideal) x1 x2 x3 i) with h | h
  · left; rw [h]; show (((0#1 : BitVec 1).toNat : ℝ) : EReal) = 0; simp
  · right; rw [h]; show (((1#1 : BitVec 1).toNat : ℝ) : EReal) = 1; simp

/-- A second-hop mask entry is 0 or 1. -/
theorem mask1_01 (x1 : IVec S1024x2 32) (x2 : IVec S1024 32) (x3 : IVec S200000x16 32) (x4 : IVec S2000000x2 32) (i : S1024x1024.Idx) :
    val_main_v30 (F := Ideal) x1 x2 x3 x4 i = 0 ∨ val_main_v30 (F := Ideal) x1 x2 x3 x4 i = 1 := by
  rw [val_main_v30_apply]
  rcases BitVec.eq_zero_or_eq_one (val_main_v29 (F := Ideal) x1 x2 x3 x4 i) with h | h
  · left; rw [h]; show (((0#1 : BitVec 1).toNat : ℝ) : EReal) = 0; simp
  · right; rw [h]; show (((1#1 : BitVec 1).toNat : ℝ) : EReal) = 1; simp

end Cert.KHost

end
-- ==== Proof.KHostEnt.lean ====
/-
  The endpoint embeddings the kernel's call is launched on. The kernel gathers the rows of the entity table at the
  flattened endpoint ids (1024·2 rows, and 1024·32·2 rows for the first-hop edges' endpoints); the reference gathers
  them at the same ids kept in their [1024, 2] and [1024, 32, 2] arrangement. Row b·2 + p of the kernel's first array
  is the reference's entry (b, p), and row (b·32 + j)·2 + p of the second its entry (b, j, p): both are the entity
  table's row "the endpoint id, wrapped when negative, clamped into the table".
-/
import proofs.«409295_j17566416241101_3_alg».proof.Proof.Gen.KernelIdeal.Frame
import proofs.«409295_j17566416241101_3_alg».proof.Proof.RefRead
import Idealize.ShloMosaic.Lib.StableHlo.Run
import Idealize.ShloMosaic.Lib.Pipeline.Value
import Idealize.ShloMosaic.Lib.ValueIdx

set_option maxRecDepth 16384

noncomputable section

namespace Cert.KHostEnt

open Idealize.ShloMosaic Idealize.ShloMosaic.TcCoe Idealize.SL.Sem Idealize.ShloMosaic.StableHlo Idealize.ShloMosaic.ValueIdx
open Cert.KernelIdeal Cert.KernelIdeal.Gen

section Rows
variable {α : Type}

/-- A gather of whole rows at 2048 start indices: row r, column d is the table's row "start index r read signed and
    clamped into [0, 199999]" at column d. -/
theorem kgather_2048 (x : S200000x64.Idx → α) (idx : IVec S2048x1 32) (r : Fin 2048) (d : Fin 64) :
    Host.gather gather_S200000x64_S2048x1_S2048x64_1_0_n_n_0_1_164 x idx (ix2 r d)
      = x (ix2 (⟨min (idx (ix2 r (0 : Fin 1))).toInt.toNat 199999, by omega⟩ : Fin 200000) d) := by
  unfold Host.gather
  congr 1
  funext a
  refine Fin.ext ?_
  match a with
  | ⟨0, _⟩ =>
    show gather_S200000x64_S2048x1_S2048x64_1_0_n_n_0_1_164.start (ix2 r d) idx 0 + gather_S200000x64_S2048x1_S2048x64_1_0_n_n_0_1_164.batchCoord (ix2 r d) 0 + gather_S200000x64_S2048x1_S2048x64_1_0_n_n_0_1_164.offCoord (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S200000x64_S2048x1_S2048x64_1_0_n_n_0_1_164.startIndexMap from List.mem_singleton.mpr rfl)]
    have hsi : gather_S200000x64_S2048x1_S2048x64_1_0_n_n_0_1_164.siIdx (ix2 r d)
        ⟨List.idxOf (0 : Fin 2) gather_S200000x64_S2048x1_S2048x64_1_0_n_n_0_1_164.startIndexMap, List.idxOf_lt_length_iff.2 (List.mem_singleton.mpr rfl)⟩
          = ix2 r (0 : Fin 1) := by
      funext b'; refine Fin.ext ?_
      match b' with
      | ⟨0, _⟩ => rfl
      | ⟨1, _⟩ => rfl
    rw [hsi]
    rfl
  | ⟨1, _⟩ =>
    show gather_S200000x64_S2048x1_S2048x64_1_0_n_n_0_1_164.start (ix2 r d) idx 1 + gather_S200000x64_S2048x1_S2048x64_1_0_n_n_0_1_164.batchCoord (ix2 r d) 1 + gather_S200000x64_S2048x1_S2048x64_1_0_n_n_0_1_164.offCoord (ix2 r d) 1 = d.val
    have hn : (1 : Fin 2) ∉ gather_S200000x64_S2048x1_S2048x64_1_0_n_n_0_1_164.startIndexMap := fun h => absurd (List.mem_singleton.mp h) (by decide)
    have hk : (1 : Fin 2) ∈ gather_S200000x64_S2048x1_S2048x64_1_0_n_n_0_1_164.sKept :=
      (GatherDims.mem_sKept _ _).mpr ⟨fun h => absurd (List.mem_singleton.mp h) (by decide), List.not_mem_nil⟩
    rw [GatherDims.batchCoord_eq_zero _ _ _ List.not_mem_nil]
    unfold GatherDims.start GatherDims.offCoord
    rw [dif_neg hn, dif_pos hk]
    simp only [Nat.add_zero, Nat.zero_add]
    rfl

/-- The same at 65536 start indices. -/
theorem kgather_65536 (x : S200000x64.Idx → α) (idx : IVec S65536x1 32) (r : Fin 65536) (d : Fin 64) :
    Host.gather gather_S200000x64_S65536x1_S65536x64_1_0_n_n_0_1_164 x idx (ix2 r d)
      = x (ix2 (⟨min (idx (ix2 r (0 : Fin 1))).toInt.toNat 199999, by omega⟩ : Fin 200000) d) := by
  unfold Host.gather
  congr 1
  funext a
  refine Fin.ext ?_
  match a with
  | ⟨0, _⟩ =>
    show gather_S200000x64_S65536x1_S65536x64_1_0_n_n_0_1_164.start (ix2 r d) idx 0 + gather_S200000x64_S65536x1_S65536x64_1_0_n_n_0_1_164.batchCoord (ix2 r d) 0 + gather_S200000x64_S65536x1_S65536x64_1_0_n_n_0_1_164.offCoord (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S200000x64_S65536x1_S65536x64_1_0_n_n_0_1_164.startIndexMap from List.mem_singleton.mpr rfl)]
    have hsi : gather_S200000x64_S65536x1_S65536x64_1_0_n_n_0_1_164.siIdx (ix2 r d)
        ⟨List.idxOf (0 : Fin 2) gather_S200000x64_S65536x1_S65536x64_1_0_n_n_0_1_164.startIndexMap, List.idxOf_lt_length_iff.2 (List.mem_singleton.mpr rfl)⟩
          = ix2 r (0 : Fin 1) := by
      funext b'; refine Fin.ext ?_
      match b' with
      | ⟨0, _⟩ => rfl
      | ⟨1, _⟩ => rfl
    rw [hsi]
    rfl
  | ⟨1, _⟩ =>
    show gather_S200000x64_S65536x1_S65536x64_1_0_n_n_0_1_164.start (ix2 r d) idx 1 + gather_S200000x64_S65536x1_S65536x64_1_0_n_n_0_1_164.batchCoord (ix2 r d) 1 + gather_S200000x64_S65536x1_S65536x64_1_0_n_n_0_1_164.offCoord (ix2 r d) 1 = d.val
    have hn : (1 : Fin 2) ∉ gather_S200000x64_S65536x1_S65536x64_1_0_n_n_0_1_164.startIndexMap := fun h => absurd (List.mem_singleton.mp h) (by decide)
    have hk : (1 : Fin 2) ∈ gather_S200000x64_S65536x1_S65536x64_1_0_n_n_0_1_164.sKept :=
      (GatherDims.mem_sKept _ _).mpr ⟨fun h => absurd (List.mem_singleton.mp h) (by decide), List.not_mem_nil⟩
    rw [GatherDims.batchCoord_eq_zero _ _ _ List.not_mem_nil]
    unfold GatherDims.start GatherDims.offCoord
    rw [dif_neg hn, dif_pos hk]
    simp only [Nat.add_zero, Nat.zero_add]
    rfl

/-- The reference's gather of whole rows at start indices kept as [1024, 2, 1]. -/
theorem rgather_1024x2 (x : S200000x64.Idx → α) (idx : IVec Cert.ReferenceIdeal.S1024x2x1 32) (b : Fin 1024) (p : Fin 2) (d : Fin 64) :
    Host.gather Cert.ReferenceIdeal.gather_S200000x64_S1024x2x1_S1024x2x64_2_0_n_n_0_2_164 x idx (ix3 b p d)
      = x (ix2 (⟨min (idx (ix3 b p (0 : Fin 1))).toInt.toNat 199999, by omega⟩ : Fin 200000) d) := by
  unfold Host.gather
  congr 1
  funext a
  refine Fin.ext ?_
  match a with
  | ⟨0, _⟩ =>
    show Cert.ReferenceIdeal.gather_S200000x64_S1024x2x1_S1024x2x64_2_0_n_n_0_2_164.start (ix3 b p d) idx 0 + Cert.ReferenceIdeal.gather_S200000x64_S1024x2x1_S1024x2x64_2_0_n_n_0_2_164.batchCoord (ix3 b p d) 0 + Cert.ReferenceIdeal.gather_S200000x64_S1024x2x1_S1024x2x64_2_0_n_n_0_2_164.offCoord (ix3 b p d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S200000x64_S1024x2x1_S1024x2x64_2_0_n_n_0_2_164.startIndexMap from List.mem_singleton.mpr rfl)]
    have hsi : Cert.ReferenceIdeal.gather_S200000x64_S1024x2x1_S1024x2x64_2_0_n_n_0_2_164.siIdx (ix3 b p d)
        ⟨List.idxOf (0 : Fin 2) Cert.ReferenceIdeal.gather_S200000x64_S1024x2x1_S1024x2x64_2_0_n_n_0_2_164.startIndexMap, List.idxOf_lt_length_iff.2 (List.mem_singleton.mpr rfl)⟩
          = ix3 b p (0 : Fin 1) := by
      funext b'; refine Fin.ext ?_
      match b' with
      | ⟨0, _⟩ => rfl
      | ⟨1, _⟩ => rfl
      | ⟨2, _⟩ => rfl
    rw [hsi]
    rfl
  | ⟨1, _⟩ =>
    show Cert.ReferenceIdeal.gather_S200000x64_S1024x2x1_S1024x2x64_2_0_n_n_0_2_164.start (ix3 b p d) idx 1 + Cert.ReferenceIdeal.gather_S200000x64_S1024x2x1_S1024x2x64_2_0_n_n_0_2_164.batchCoord (ix3 b p d) 1 + Cert.ReferenceIdeal.gather_S200000x64_S1024x2x1_S1024x2x64_2_0_n_n_0_2_164.offCoord (ix3 b p d) 1 = d.val
    have hn : (1 : Fin 2) ∉ Cert.ReferenceIdeal.gather_S200000x64_S1024x2x1_S1024x2x64_2_0_n_n_0_2_164.startIndexMap := fun h => absurd (List.mem_singleton.mp h) (by decide)
    have hk : (1 : Fin 2) ∈ Cert.ReferenceIdeal.gather_S200000x64_S1024x2x1_S1024x2x64_2_0_n_n_0_2_164.sKept :=
      (GatherDims.mem_sKept _ _).mpr ⟨fun h => absurd (List.mem_singleton.mp h) (by decide), List.not_mem_nil⟩
    rw [GatherDims.batchCoord_eq_zero _ _ _ List.not_mem_nil]
    unfold GatherDims.start GatherDims.offCoord
    rw [dif_neg hn, dif_pos hk]
    simp only [Nat.add_zero, Nat.zero_add]
    rfl

/-- The reference's gather of whole rows at start indices kept as [1024, 32, 2, 1]. -/
theorem rgather_1024x32x2 (x : S200000x64.Idx → α) (idx : IVec Cert.ReferenceIdeal.S1024x32x2x1 32) (b : Fin 1024) (j : Fin 32) (p : Fin 2) (d : Fin 64) :
    Host.gather Cert.ReferenceIdeal.gather_S200000x64_S1024x32x2x1_S1024x32x2x64_3_0_n_n_0_3_164 x idx (ix4 b j p d)
      = x (ix2 (⟨min (idx (ix4 b j p (0 : Fin 1))).toInt.toNat 199999, by omega⟩ : Fin 200000) d) := by
  unfold Host.gather
  congr 1
  funext a
  refine Fin.ext ?_
  match a with
  | ⟨0, _⟩ =>
    show Cert.ReferenceIdeal.gather_S200000x64_S1024x32x2x1_S1024x32x2x64_3_0_n_n_0_3_164.start (ix4 b j p d) idx 0 + Cert.ReferenceIdeal.gather_S200000x64_S1024x32x2x1_S1024x32x2x64_3_0_n_n_0_3_164.batchCoord (ix4 b j p d) 0 + Cert.ReferenceIdeal.gather_S200000x64_S1024x32x2x1_S1024x32x2x64_3_0_n_n_0_3_164.offCoord (ix4 b j p d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S200000x64_S1024x32x2x1_S1024x32x2x64_3_0_n_n_0_3_164.startIndexMap from List.mem_singleton.mpr rfl)]
    have hsi : Cert.ReferenceIdeal.gather_S200000x64_S1024x32x2x1_S1024x32x2x64_3_0_n_n_0_3_164.siIdx (ix4 b j p d)
        ⟨List.idxOf (0 : Fin 2) Cert.ReferenceIdeal.gather_S200000x64_S1024x32x2x1_S1024x32x2x64_3_0_n_n_0_3_164.startIndexMap, List.idxOf_lt_length_iff.2 (List.mem_singleton.mpr rfl)⟩
          = ix4 b j p (0 : Fin 1) := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show Cert.ReferenceIdeal.gather_S200000x64_S1024x32x2x1_S1024x32x2x64_3_0_n_n_0_3_164.start (ix4 b j p d) idx 1 + Cert.ReferenceIdeal.gather_S200000x64_S1024x32x2x1_S1024x32x2x64_3_0_n_n_0_3_164.batchCoord (ix4 b j p d) 1 + Cert.ReferenceIdeal.gather_S200000x64_S1024x32x2x1_S1024x32x2x64_3_0_n_n_0_3_164.offCoord (ix4 b j p d) 1 = d.val
    have hn : (1 : Fin 2) ∉ Cert.ReferenceIdeal.gather_S200000x64_S1024x32x2x1_S1024x32x2x64_3_0_n_n_0_3_164.startIndexMap := fun h => absurd (List.mem_singleton.mp h) (by decide)
    have hk : (1 : Fin 2) ∈ Cert.ReferenceIdeal.gather_S200000x64_S1024x32x2x1_S1024x32x2x64_3_0_n_n_0_3_164.sKept :=
      (GatherDims.mem_sKept _ _).mpr ⟨fun h => absurd (List.mem_singleton.mp h) (by decide), List.not_mem_nil⟩
    rw [GatherDims.batchCoord_eq_zero _ _ _ List.not_mem_nil]
    unfold GatherDims.start GatherDims.offCoord
    rw [dif_neg hn, dif_pos hk]
    simp only [Nat.add_zero, Nat.zero_add]
    rfl

/-- Equal start words read the same table row. -/
theorem row_congr (x : S200000x64.Idx → α) {u v : BitVec 32} (h : u = v) (d : Fin 64) :
    x (ix2 (⟨min u.toInt.toNat 199999, by omega⟩ : Fin 200000) d) = x (ix2 (⟨min v.toInt.toNat 199999, by omega⟩ : Fin 200000) d) := by
  subst h
  rfl

end Rows

variable {F : FTy → Type} [FloatOps F]

open Cert.ReferenceIdeal.ReadP in
/-- The kernel's gather at the flattened endpoint ids, row b·2 + p, is the reference's at (b, p): both read the table's
    row of the id wrapped when negative and clamped. -/
theorem ent0_pure (x1 : IVec S1024x2 32) (x7 : S200000x64.Idx → F .f32) (b : Fin 1024) (p : Fin 2) (d : Fin 64) :
    Host.gather gather_S200000x64_S2048x1_S2048x64_1_0_n_n_0_1_164 x7
        (broadcastInDim S2048x1 ![0] bcast_S2048_S2048x1_0
          (select
            (cmpi .slt (shapeCast S2048 x1 shapeCasts_S1024x2_S2048) (broadcastInDim S2048 ![] bcast_S_S2048 (constantI S_ 32 0#32)))
            (addi (shapeCast S2048 x1 shapeCasts_S1024x2_S2048) (broadcastInDim S2048 ![] bcast_S_S2048 (constantI S_ 32 200000#32)))
            (shapeCast S2048 x1 shapeCasts_S1024x2_S2048)))
        (ix2 (⟨b.val * 2 + p.val, by omega⟩ : Fin 2048) d)
      = val_main_v37 (F := F) x1 x7 (ix3 b p d) := by
  have hr : b.val * 2 + p.val < 2048 := by omega
  rw [kgather_2048]
  unfold val_main_v37
  rw [rgather_1024x2]
  refine row_congr x7 ?_ d
  have hL : broadcastInDim S2048x1 ![0] bcast_S2048_S2048x1_0
      (select
        (cmpi .slt (shapeCast S2048 x1 shapeCasts_S1024x2_S2048) (broadcastInDim S2048 ![] bcast_S_S2048 (constantI S_ 32 0#32)))
        (addi (shapeCast S2048 x1 shapeCasts_S1024x2_S2048) (broadcastInDim S2048 ![] bcast_S_S2048 (constantI S_ 32 200000#32)))
        (shapeCast S2048 x1 shapeCasts_S1024x2_S2048)) (ix2 (⟨b.val * 2 + p.val, hr⟩ : Fin 2048) (0 : Fin 1))
      = Scalar.select (IntOp.cmpi .slt (x1 (ix2 b p)) 0#32) (IntOp.addi (x1 (ix2 b p)) 200000#32) (x1 (ix2 b p)) := by
    rw [broadcastInDim_apply _ bcast_S2048_S2048x1_0 _ (ix2 (⟨b.val * 2 + p.val, hr⟩ : Fin 2048) (0 : Fin 1))
      (ix1 (⟨b.val * 2 + p.val, hr⟩ : Fin 2048)) (fun a => by match a with | ⟨0, _⟩ => rfl)]
    show Scalar.select
      (IntOp.cmpi .slt (shapeCast S2048 x1 shapeCasts_S1024x2_S2048 (ix1 (⟨b.val * 2 + p.val, hr⟩ : Fin 2048))) 0#32)
      (IntOp.addi (shapeCast S2048 x1 shapeCasts_S1024x2_S2048 (ix1 (⟨b.val * 2 + p.val, hr⟩ : Fin 2048))) 200000#32)
      (shapeCast S2048 x1 shapeCasts_S1024x2_S2048 (ix1 (⟨b.val * 2 + p.val, hr⟩ : Fin 2048))) = _
    rw [shapeCast_apply x1 shapeCasts_S1024x2_S2048 (ix1 (⟨b.val * 2 + p.val, hr⟩ : Fin 2048)) (ix2 b p) (by
      rw [Shape.rowMajor_val_two, Shape.rowMajor_val_one]
      show b.val * 2 + p.val = b.val * 2 + p.val
      rfl)]
  have hi : idx_main_v36 (ix3 b p (0 : Fin 1)) = ix2 b p := by
    funext a
    match a with
    | ⟨0, _⟩ => rfl
    | ⟨1, _⟩ => rfl
  have hR : val_main_v36 (F := F) x1 (ix3 b p (0 : Fin 1))
      = Scalar.select (IntOp.cmpi .slt (x1 (ix2 b p)) 0#32) (IntOp.addi (x1 (ix2 b p)) 200000#32) (x1 (ix2 b p)) := by
    rw [val_main_v36_apply, hi]
    rfl
  exact hL.trans hR.symm

open Cert.ReferenceIdeal.ReadP in
/-- The same for the first-hop edges' endpoints: row (b·32 + j)·2 + p against (b, j, p). -/
theorem ent1_pure (x1 : IVec S1024x2 32) (x3 : IVec S200000x16 32) (x4 : IVec S2000000x2 32) (x7 : S200000x64.Idx → F .f32)
    (b : Fin 1024) (j : Fin 32) (p : Fin 2) (d : Fin 64) :
    Host.gather gather_S200000x64_S65536x1_S65536x64_1_0_n_n_0_1_164 x7
        (broadcastInDim S65536x1 ![0] bcast_S65536_S65536x1_0
          (select
            (cmpi .slt (shapeCast S65536 (val_main_v18 (F := F) x1 x3 x4) shapeCasts_S1024x32x2_S65536) (broadcastInDim S65536 ![] bcast_S_S65536 (constantI S_ 32 0#32)))
            (addi (shapeCast S65536 (val_main_v18 (F := F) x1 x3 x4) shapeCasts_S1024x32x2_S65536) (broadcastInDim S65536 ![] bcast_S_S65536 (constantI S_ 32 200000#32)))
            (shapeCast S65536 (val_main_v18 (F := F) x1 x3 x4) shapeCasts_S1024x32x2_S65536)))
        (ix2 (⟨(b.val * 32 + j.val) * 2 + p.val, by omega⟩ : Fin 65536) d)
      = val_main_v44 (F := F) x1 x3 x4 x7 (ix4 b j p d) := by
  have hr : (b.val * 32 + j.val) * 2 + p.val < 65536 := by omega
  rw [kgather_65536]
  unfold val_main_v44
  rw [rgather_1024x32x2]
  refine row_congr x7 ?_ d
  have hi : idx_main_v43 (ix4 b j p (0 : Fin 1)) = ix3 b j p := by
    funext a
    match a with
    | ⟨0, _⟩ => rfl
    | ⟨1, _⟩ => rfl
    | ⟨2, _⟩ => rfl
  have hR : val_main_v43 (F := F) x1 x3 x4 (ix4 b j p (0 : Fin 1))
      = Scalar.select (IntOp.cmpi .slt (val_main_v18 (F := F) x1 x3 x4 (ix3 b j p)) 0#32)
          (IntOp.addi (val_main_v18 (F := F) x1 x3 x4 (ix3 b j p)) 200000#32) (val_main_v18 (F := F) x1 x3 x4 (ix3 b j p)) := by
    rw [val_main_v43_apply, hi]
    rfl
  rw [hR]
  generalize val_main_v18 (F := F) x1 x3 x4 = y
  have hL : broadcastInDim S65536x1 ![0] bcast_S65536_S65536x1_0
      (select
        (cmpi .slt (shapeCast S65536 y shapeCasts_S1024x32x2_S65536) (broadcastInDim S65536 ![] bcast_S_S65536 (constantI S_ 32 0#32)))
        (addi (shapeCast S65536 y shapeCasts_S1024x32x2_S65536) (broadcastInDim S65536 ![] bcast_S_S65536 (constantI S_ 32 200000#32)))
        (shapeCast S65536 y shapeCasts_S1024x32x2_S65536)) (ix2 (⟨(b.val * 32 + j.val) * 2 + p.val, hr⟩ : Fin 65536) (0 : Fin 1))
      = Scalar.select (IntOp.cmpi .slt (y (ix3 b j p)) 0#32) (IntOp.addi (y (ix3 b j p)) 200000#32) (y (ix3 b j p)) := by
    rw [broadcastInDim_apply _ bcast_S65536_S65536x1_0 _ (ix2 (⟨(b.val * 32 + j.val) * 2 + p.val, hr⟩ : Fin 65536) (0 : Fin 1))
      (ix1 (⟨(b.val * 32 + j.val) * 2 + p.val, hr⟩ : Fin 65536)) (fun a => by match a with | ⟨0, _⟩ => rfl)]
    show Scalar.select
      (IntOp.cmpi .slt (shapeCast S65536 y shapeCasts_S1024x32x2_S65536 (ix1 (⟨(b.val * 32 + j.val) * 2 + p.val, hr⟩ : Fin 65536))) 0#32)
      (IntOp.addi (shapeCast S65536 y shapeCasts_S1024x32x2_S65536 (ix1 (⟨(b.val * 32 + j.val) * 2 + p.val, hr⟩ : Fin 65536))) 200000#32)
      (shapeCast S65536 y shapeCasts_S1024x32x2_S65536 (ix1 (⟨(b.val * 32 + j.val) * 2 + p.val, hr⟩ : Fin 65536))) = _
    rw [shapeCast_apply y shapeCasts_S1024x32x2_S65536 (ix1 (⟨(b.val * 32 + j.val) * 2 + p.val, hr⟩ : Fin 65536)) (ix3 b j p) (by
      rw [Shape.rowMajor_val_three, Shape.rowMajor_val_one]
      show (b.val * 32 + j.val) * 2 + p.val = (b.val * 32 + j.val) * 2 + p.val
      rfl)]
  exact hL

variable (m : (ℓ : Loc nD τ sig) → Buf (Elt F) ℓ)

set_option maxHeartbeats 4000000 in
/-- The row's two endpoint embeddings. -/
theorem V_ent0 (c : Dev nD) (b : Fin 1024) (p : Fin 2) (d : Fin 64) :
    (V m c main_v53 : S2048x64.Idx → F .f32) (ix2 (⟨b.val * 2 + p.val, by omega⟩ : Fin 2048) d)
      = Cert.ReferenceIdeal.ReadP.val_main_v37 (F := F) (m ((c.tc : Thread nD τ).loc main_arg1)) (m ((c.tc : Thread nD τ).loc main_arg7)) (ix3 b p d) := by
  have e : (V m c main_v53 : S2048x64.Idx → F .f32)
      = Host.gather gather_S200000x64_S2048x1_S2048x64_1_0_n_n_0_1_164 (m ((c.tc : Thread nD τ).loc main_arg7))
        (broadcastInDim S2048x1 ![0] bcast_S2048_S2048x1_0
          (select
            (cmpi .slt (shapeCast S2048 (m ((c.tc : Thread nD τ).loc main_arg1)) shapeCasts_S1024x2_S2048) (broadcastInDim S2048 ![] bcast_S_S2048 (constantI S_ 32 0#32)))
            (addi (shapeCast S2048 (m ((c.tc : Thread nD τ).loc main_arg1)) shapeCasts_S1024x2_S2048) (broadcastInDim S2048 ![] bcast_S_S2048 (constantI S_ 32 200000#32)))
            (shapeCast S2048 (m ((c.tc : Thread nD τ).loc main_arg1)) shapeCasts_S1024x2_S2048))) := by
    show StableHlo.after hostOps0 (fun b => m (c, b)) (Proc.devRef .tc main_v53) = _
    after_results_simp
    rfl
  rw [e]
  exact ent0_pure (F := F) (m ((c.tc : Thread nD τ).loc main_arg1)) (m ((c.tc : Thread nD τ).loc main_arg7)) b p d

set_option maxHeartbeats 4000000 in
/-- The first-hop edges' endpoint embeddings. -/
theorem V_ent1 (c : Dev nD) (b : Fin 1024) (j : Fin 32) (p : Fin 2) (d : Fin 64) :
    (V m c main_v61 : S65536x64.Idx → F .f32) (ix2 (⟨(b.val * 32 + j.val) * 2 + p.val, by omega⟩ : Fin 65536) d)
      = Cert.ReferenceIdeal.ReadP.val_main_v44 (F := F) (m ((c.tc : Thread nD τ).loc main_arg1)) (m ((c.tc : Thread nD τ).loc main_arg3)) (m ((c.tc : Thread nD τ).loc main_arg4)) (m ((c.tc : Thread nD τ).loc main_arg7)) (ix4 b j p d) := by
  have e : (V m c main_v61 : S65536x64.Idx → F .f32)
      = Host.gather gather_S200000x64_S65536x1_S65536x64_1_0_n_n_0_1_164 (m ((c.tc : Thread nD τ).loc main_arg7))
        (broadcastInDim S65536x1 ![0] bcast_S65536_S65536x1_0
          (select
            (cmpi .slt (shapeCast S65536 (Cert.ReferenceIdeal.ReadP.val_main_v18 (F := F) (m ((c.tc : Thread nD τ).loc main_arg1)) (m ((c.tc : Thread nD τ).loc main_arg3)) (m ((c.tc : Thread nD τ).loc main_arg4))) shapeCasts_S1024x32x2_S65536) (broadcastInDim S65536 ![] bcast_S_S65536 (constantI S_ 32 0#32)))
            (addi (shapeCast S65536 (Cert.ReferenceIdeal.ReadP.val_main_v18 (F := F) (m ((c.tc : Thread nD τ).loc main_arg1)) (m ((c.tc : Thread nD τ).loc main_arg3)) (m ((c.tc : Thread nD τ).loc main_arg4))) shapeCasts_S1024x32x2_S65536) (broadcastInDim S65536 ![] bcast_S_S65536 (constantI S_ 32 200000#32)))
            (shapeCast S65536 (Cert.ReferenceIdeal.ReadP.val_main_v18 (F := F) (m ((c.tc : Thread nD τ).loc main_arg1)) (m ((c.tc : Thread nD τ).loc main_arg3)) (m ((c.tc : Thread nD τ).loc main_arg4))) shapeCasts_S1024x32x2_S65536))) := by
    show StableHlo.after hostOps0 (fun b => m (c, b)) (Proc.devRef .tc main_v61) = _
    after_results_simp
    rfl
  rw [e]
  exact ent1_pure (F := F) (m ((c.tc : Thread nD τ).loc main_arg1)) (m ((c.tc : Thread nD τ).loc main_arg3)) (m ((c.tc : Thread nD τ).loc main_arg4)) (m ((c.tc : Thread nD τ).loc main_arg7)) b j p d

end Cert.KHostEnt

end
-- ==== Proof.Bridge.lean ====
/-
  The kernel's launched arrays against the reference's stages. The relation ids of both hops and the two masks are
  the reference's stages of the same arguments; the flat endpoint rows are the reference's entries in their [row, edge,
  endpoint] arrangement; the relation ids and the weights are launched reshaped. So the per-row score of row b of the
  launched arrays is the per-row score of row b's data as the reference reads it. Under the precondition the
  relation ids (the argument itself, and the gathered entries of the edge-to-relation table) are below 16, and a mask
  entry is 0 or 1 by construction.
-/
import proofs.«409295_j17566416241101_3_alg».proof.Proof.KBlocks
import proofs.«409295_j17566416241101_3_alg».proof.Proof.KHost
import proofs.«409295_j17566416241101_3_alg».proof.Proof.KHostEnt
import proofs.«409295_j17566416241101_3_alg».proof.Proof.RGather
import proofs.«409295_j17566416241101_3_alg».proof.Proof.RRow

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.Spec Cert.KBlocks

variable (m : (ℓ : Loc nD τ sig) → Buf (Elt Ideal) ℓ)

/-- The launched relation ids are below 16 when the argument's are. -/
theorem A0_lt (c : Dev nD) (hx0 : ∀ i, (((m ((c.tc : Thread nD τ).loc main_arg0)) : S1024.Idx → BitVec 32) i).toNat < 16) (i : S1024x1.Idx) :
    (A0 m c i).toNat < 16 := by
  have hi : i = ix2 (⟨(i 0).val, idx2_lt0 i⟩ : Fin 1024) (0 : Fin 1) := by
    funext ax
    match ax with
    | ⟨0, _⟩ => rfl
    | ⟨1, _⟩ => exact Fin.ext (by have h1' : (i 1).val < 1 := idx2_lt1 i; show (i 1).val = 0; omega)
  rw [hi]
  show ((V m c main_v31 : S1024x1.Idx → BitVec 32) (ix2 (⟨(i 0).val, idx2_lt0 i⟩ : Fin 1024) (0 : Fin 1))).toNat < 16
  rw [Cert.KHost.V_rel0]
  exact hx0 _

/-- The launched first-hop relation ids are below 16 when the edge-to-relation table's entries are. -/
theorem A1_lt (c : Dev nD) (hx5 : ∀ i, (((m ((c.tc : Thread nD τ).loc main_arg5)) : S2000000.Idx → BitVec 32) i).toNat < 16) (i : S1024x32.Idx) :
    (A1 m c i).toNat < 16 := by
  show ((V m c main_v38 : S1024x32.Idx → BitVec 32) i).toNat < 16
  rw [Cert.KHost.V_rel1]
  exact Cert.RGather.rel1_lt (m ((c.tc : Thread nD τ).loc main_arg1)) (m ((c.tc : Thread nD τ).loc main_arg3)) (m ((c.tc : Thread nD τ).loc main_arg5)) hx5 i

/-- The launched second-hop relation ids are below 16 when the edge-to-relation table's entries are. -/
theorem A2_lt (c : Dev nD) (hx5 : ∀ i, (((m ((c.tc : Thread nD τ).loc main_arg5)) : S2000000.Idx → BitVec 32) i).toNat < 16) (i : S1024x1024.Idx) :
    (A2 m c i).toNat < 16 := by
  show ((V m c main_v45 : S1024x1024.Idx → BitVec 32) i).toNat < 16
  rw [Cert.KHost.V_rel2]
  exact Cert.RGather.rel2_lt (m ((c.tc : Thread nD τ).loc main_arg1)) (m ((c.tc : Thread nD τ).loc main_arg3)) (m ((c.tc : Thread nD τ).loc main_arg4)) (m ((c.tc : Thread nD τ).loc main_arg5)) hx5 i

/-- The launched second-hop mask is 0 or 1. -/
theorem A4_01 (c : Dev nD) (i : S1024x1024.Idx) : A4 m c i = 0 ∨ A4 m c i = 1 := by
  show (V m c main_v30 : S1024x1024.Idx → EReal) i = (0 : EReal) ∨ (V m c main_v30 : S1024x1024.Idx → EReal) i = (1 : EReal)
  rw [Cert.KHost.V_mask1]
  exact Cert.KHost.mask1_01 (m ((c.tc : Thread nD τ).loc main_arg1)) (m ((c.tc : Thread nD τ).loc main_arg2)) (m ((c.tc : Thread nD τ).loc main_arg3)) (m ((c.tc : Thread nD τ).loc main_arg4)) i

/-- The per-row score of the launched arrays is the per-row score of the row's data as the reference reads it. -/
theorem rowG_eq (c : Dev nD) (b : Fin 1024) :
    rowG m c b
      = rowScore (idOf (((m ((c.tc : Thread nD τ).loc main_arg0)) : S1024.Idx → BitVec 32) (ix1 b)))
          (fun j => idOf (Cert.ReferenceIdeal.ReadP.val_main_v58 (F := Ideal) (m ((c.tc : Thread nD τ).loc main_arg1)) (m ((c.tc : Thread nD τ).loc main_arg3)) (m ((c.tc : Thread nD τ).loc main_arg5)) (ix2 b j)))
          (fun q => idOf (Cert.ReferenceIdeal.ReadP.val_main_v72 (F := Ideal) (m ((c.tc : Thread nD τ).loc main_arg1)) (m ((c.tc : Thread nD τ).loc main_arg3)) (m ((c.tc : Thread nD τ).loc main_arg4)) (m ((c.tc : Thread nD τ).loc main_arg5)) (ix2 b q)))
          (fun j => Cert.ReferenceIdeal.ReadP.val_main_v11 (F := Ideal) (m ((c.tc : Thread nD τ).loc main_arg1)) (m ((c.tc : Thread nD τ).loc main_arg2)) (m ((c.tc : Thread nD τ).loc main_arg3)) (ix2 b j))
          (fun q => Cert.ReferenceIdeal.ReadP.val_main_v30 (F := Ideal) (m ((c.tc : Thread nD τ).loc main_arg1)) (m ((c.tc : Thread nD τ).loc main_arg2)) (m ((c.tc : Thread nD τ).loc main_arg3)) (m ((c.tc : Thread nD τ).loc main_arg4)) (ix2 b q))
          (fun p d => Cert.ReferenceIdeal.ReadP.val_main_v37 (F := Ideal) (m ((c.tc : Thread nD τ).loc main_arg1)) (m ((c.tc : Thread nD τ).loc main_arg7)) (ix3 b p d))
          (fun j p d => Cert.ReferenceIdeal.ReadP.val_main_v44 (F := Ideal) (m ((c.tc : Thread nD τ).loc main_arg1)) (m ((c.tc : Thread nD τ).loc main_arg3)) (m ((c.tc : Thread nD τ).loc main_arg4)) (m ((c.tc : Thread nD τ).loc main_arg7)) (ix4 b j p d))
          (fun k d => ((m ((c.tc : Thread nD τ).loc main_arg6)) : S16x64.Idx → EReal) (ix2 k d))
          (fun d => ((m ((c.tc : Thread nD τ).loc main_arg8)) : S64x1.Idx → EReal) (ix2 d (0 : Fin 1))) := by
  unfold rowG
  have e0 : A0 m c (ix2 b (0 : Fin 1)) = ((m ((c.tc : Thread nD τ).loc main_arg0)) : S1024.Idx → BitVec 32) (ix1 b) := Cert.KHost.V_rel0 m c b
  have e1 : A1 m c = Cert.ReferenceIdeal.ReadP.val_main_v58 (F := Ideal) (m ((c.tc : Thread nD τ).loc main_arg1)) (m ((c.tc : Thread nD τ).loc main_arg3)) (m ((c.tc : Thread nD τ).loc main_arg5)) := Cert.KHost.V_rel1 m c
  have e2 : A2 m c = Cert.ReferenceIdeal.ReadP.val_main_v72 (F := Ideal) (m ((c.tc : Thread nD τ).loc main_arg1)) (m ((c.tc : Thread nD τ).loc main_arg3)) (m ((c.tc : Thread nD τ).loc main_arg4)) (m ((c.tc : Thread nD τ).loc main_arg5)) := Cert.KHost.V_rel2 m c
  have e3 : A3 m c = Cert.ReferenceIdeal.ReadP.val_main_v11 (F := Ideal) (m ((c.tc : Thread nD τ).loc main_arg1)) (m ((c.tc : Thread nD τ).loc main_arg2)) (m ((c.tc : Thread nD τ).loc main_arg3)) := Cert.KHost.V_mask0 m c
  have e4 : A4 m c = Cert.ReferenceIdeal.ReadP.val_main_v30 (F := Ideal) (m ((c.tc : Thread nD τ).loc main_arg1)) (m ((c.tc : Thread nD τ).loc main_arg2)) (m ((c.tc : Thread nD τ).loc main_arg3)) (m ((c.tc : Thread nD τ).loc main_arg4)) := Cert.KHost.V_mask1 m c
  have e5 : (fun (p : Fin 2) (d : Fin 64) => A5 m c (ix2 (⟨b.val * 2 + p.val, by omega⟩ : Fin 2048) d))
      = fun p d => Cert.ReferenceIdeal.ReadP.val_main_v37 (F := Ideal) (m ((c.tc : Thread nD τ).loc main_arg1)) (m ((c.tc : Thread nD τ).loc main_arg7)) (ix3 b p d) :=
    funext fun p => funext fun d => Cert.KHostEnt.V_ent0 m c b p d
  have e6 : (fun (j : Fin 32) (p : Fin 2) (d : Fin 64) => A6 m c (ix2 (⟨(b.val * 32 + j.val) * 2 + p.val, by omega⟩ : Fin 65536) d))
      = fun j p d => Cert.ReferenceIdeal.ReadP.val_main_v44 (F := Ideal) (m ((c.tc : Thread nD τ).loc main_arg1)) (m ((c.tc : Thread nD τ).loc main_arg3)) (m ((c.tc : Thread nD τ).loc main_arg4)) (m ((c.tc : Thread nD τ).loc main_arg7)) (ix4 b j p d) :=
    funext fun j => funext fun p => funext fun d => Cert.KHostEnt.V_ent1 m c b j p d
  have e7 : A7 m c = ((m ((c.tc : Thread nD τ).loc main_arg6)) : S16x64.Idx → EReal) := V_main_arg6 m c
  have e8 : (fun d : Fin 64 => A8 m c (ix2 (0 : Fin 1) d)) = fun d => ((m ((c.tc : Thread nD τ).loc main_arg8)) : S64x1.Idx → EReal) (ix2 d (0 : Fin 1)) :=
    funext fun d => Cert.KHost.V_w m c d
  rw [e0, e1, e2, e3, e4, e5, e6, e7, e8]

end Cert.Bridge

end
-- ==== Proof.KRun.lean ====
/-
  The kernel program's run, read. After the call the program reshapes the [1024, 1] result to [1024] and adds the
  bias to every entry: the program's result at row b is the per-row score of row b of the launched arrays plus the
  bias, and the arguments are unchanged.
-/
import proofs.«409295_j17566416241101_3_alg».proof.Proof.Gen.KernelIdeal.Frame
import proofs.«409295_j17566416241101_3_alg».proof.Proof.KBlocks
import proofs.«409295_j17566416241101_3_alg».proof.Proof.Bridge
import Idealize.ShloMosaic.Lib.StableHlo.Run
import Idealize.ShloMosaic.Lib.Pipeline.Value
import Idealize.ShloMosaic.Lib.ValueIdx

set_option maxRecDepth 16384

noncomputable section

namespace Cert.KRun

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Spec Cert.KBlocks

variable (m : (ℓ : Loc nD τ sig) → Buf (Elt Ideal) ℓ) (ρ : Dev nD → PrngReg)

/-- The program's result: the per-row scores plus the bias. -/
def result (c : Dev nD) : S1024.Idx → EReal := fun i =>
  rowG m c ⟨(i 0).val, (i 0).isLt⟩ + (m ((c.tc : Thread nD τ).loc main_arg9) : S1.Idx → EReal) (ix1 (0 : Fin 1))

set_option maxHeartbeats 1000000 in
/-- What the operations after the call leave in the result buffer. -/
theorem tail_eq (c : Dev nD) (h0 : ∀ i, (A0 m c i).toNat < 16) (h1 : ∀ i, (A1 m c i).toNat < 16)
    (h2 : ∀ i, (A2 m c i).toNat < 16) (hm1 : ∀ i, A4 m c i = 0 ∨ A4 m c i = 1) :
    Pipeline.afterTail₀ cfgs (dats m) 0 (V0 m) [hostOps1] c main_v67 = result m c := by
  unfold Pipeline.afterTail₀
  show StableHlo.after hostOps1 _ (Proc.devRef .tc main_v67) = _
  after_results
  have hw : Pipeline.withArrays (cfgs 0).spec c (V0 m c) (fun w => (dats m 0 c).arrAt w (cfgs 0).N)
      (Proc.tc.devRef main_v63) = G m c :=
    (Pipeline.withArrays_arr spec0 launch0.win.arr_inj c _ _ 9).trans (final9 m c h0 h1 h2 hm1)
  have hb : Pipeline.withArrays (cfgs 0).spec c (V0 m c) (fun w => (dats m 0 c).arrAt w (cfgs 0).N)
      (Proc.tc.devRef main_arg9) = m ((c.tc : Thread nD τ).loc main_arg9) :=
    (Pipeline.withArrays_of_ne _ c (V0 m c) _ main_arg9 (by exact (by decide : ∀ w, Pipeline.arrRef spec0 w ≠ main_arg9))).trans
      (V_main_arg9 m c)
  rw [hw, hb]
  funext i
  obtain ⟨b, rfl⟩ : ∃ b : Fin 1024, i = ix1 b := ⟨i 0, eq_ix1 i⟩
  show shapeCast S1024 (G m c) shapeCasts_S1024x1_S1024 (ix1 b)
      + broadcastInDim S1024 ![] bcast_S_S1024
          (fun i => shapeCast S_ (m ((c.tc : Thread nD τ).loc main_arg9) : S1.Idx → EReal) shapeCasts_S1_S_ i) (ix1 b)
    = rowG m c ⟨((ix1 b : S1024.Idx) 0).val, ((ix1 b : S1024.Idx) 0).isLt⟩
      + (m ((c.tc : Thread nD τ).loc main_arg9) : S1.Idx → EReal) (ix1 (0 : Fin 1))
  have e1 : shapeCast S1024 (G m c) shapeCasts_S1024x1_S1024 (ix1 b) = G m c (ix2 b (0 : Fin 1)) := by
    refine shapeCast_apply (s := S1024x1) (t := S1024) _ _ _ _ ?_
    rw [Shape.rowMajor_val_two, Shape.rowMajor_val_one]
    show b.val * 1 + 0 = b.val
    omega
  have e2 : broadcastInDim S1024 ![] bcast_S_S1024
      (fun i => shapeCast S_ (m ((c.tc : Thread nD τ).loc main_arg9) : S1.Idx → EReal) shapeCasts_S1_S_ i) (ix1 b)
      = shapeCast S_ (m ((c.tc : Thread nD τ).loc main_arg9) : S1.Idx → EReal) shapeCasts_S1_S_ ix0 :=
    broadcastInDim_apply _ bcast_S_S1024 _ (ix1 b) ix0 (fun a => a.elim0)
  have e3 : shapeCast S_ (m ((c.tc : Thread nD τ).loc main_arg9) : S1.Idx → EReal) shapeCasts_S1_S_ ix0
      = (m ((c.tc : Thread nD τ).loc main_arg9) : S1.Idx → EReal) (ix1 (0 : Fin 1)) := by
    refine shapeCast_apply (s := S1) (t := S_) _ _ _ _ ?_
    rw [Shape.rowMajor_val_one]
    have hlt := (S_.rowMajor ix0).isLt
    show (0 : Nat) = (S_.rowMajor ix0).val
    have hn : S_.numel = 1 := by decide
    omega
  rw [e1, e2, e3]
  rfl

/-- THE KERNEL PROGRAM'S RUN: under bounds on the relation ids and the edge-to-relation table, every weakly fair
    execution terminates with the result buffer at the per-row scores plus the bias and the arguments unchanged. -/
theorem run (hx0 : ∀ c : Dev nD, ∀ i, ((m ((c.tc : Thread nD τ).loc main_arg0) : S1024.Idx → BitVec 32) i).toNat < 16)
    (hx5 : ∀ c : Dev nD, ∀ i, ((m ((c.tc : Thread nD τ).loc main_arg5) : S2000000.Idx → BitVec 32) i).toNat < 16) :
    θ_run defs (onTc (τ := τ) (main (F := Ideal))) ⟨m, fun _ => 0, ρ⟩ (fun r => ∀ c : Dev nD,
      r.2.mem ((c.tc : Thread nD τ).loc main_v67) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      (((h c).2 main_v67 (Pipeline.mem_restRefs_of main_v67 (by decide) (by decide))).trans
        (tail_eq m c (Cert.Bridge.A0_lt m c (hx0 c)) (Cert.Bridge.A1_lt m c (hx5 c)) (Cert.Bridge.A2_lt m c (hx5 c))
          (Cert.Bridge.A4_01 m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).1 7).trans (((dats m 0 c).arrAt_in 7 rfl _).trans ((A_eq m c 7).trans (V_main_arg6 m c)))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.KRun

end
-- ==== Proof.lean ====
/-
  The two-hop relation/entity aggregation scorer: the kernel against the reference, over the extended reals.

  For a batch row b the reference gathers the row's relation vector, the relation vectors of its 32 first-hop and
  1024 second-hop neighbour edges, the 0/1 masks that hide the edge to predict, and the endpoint embeddings, applies
  the aggregation step (edge vector + half the sum over the two endpoints of endpoint embedding + masked mean of the
  neighbouring edge vectors) to the first-hop edges, to the row's own vector, and once more to the result, and scores
  the final vector against the weights, plus a bias. The kernel computes the same index chains and masks on the host,
  and inside its call looks relation vectors up by multiplying an indicator row with the 16-row relation table, and
  forms the second-hop masked sums by first counting the unmasked samples per relation and then multiplying the 16
  counts with the table. A lookup by indicator is the table's row when the id is below 16, and the count-then-multiply
  order is the masked sum of rows because the lookup is linear and the masks are 0 or 1; so, with every relation id
  and every entry of the edge-to-relation table in [0, 16) (the range of the table they index), both programs end at
  the per-row score plus the bias, row by row.

  The kernel's frames are the generated ones; the reference's frame is its run with the result dropped; the ideal
  pass's one rewrite (a narrowing to bf16 and back is the identity on extended reals) is its rule's statement.
-/
import proofs.«409295_j17566416241101_3_alg».proof.Defs
import proofs.«409295_j17566416241101_3_alg».proof.Proof.Gen.Kernel
import proofs.«409295_j17566416241101_3_alg».proof.Proof.Gen.Kernel.Skeleton
import proofs.«409295_j17566416241101_3_alg».proof.Proof.Gen.Kernel.Launch
import proofs.«409295_j17566416241101_3_alg».proof.Proof.Gen.Kernel.Points
import proofs.«409295_j17566416241101_3_alg».proof.Proof.Gen.Kernel.Frame
import proofs.«409295_j17566416241101_3_alg».proof.Proof.Gen.KernelIdeal
import proofs.«409295_j17566416241101_3_alg».proof.Proof.Gen.KernelIdeal.Skeleton
import proofs.«409295_j17566416241101_3_alg».proof.Proof.Gen.KernelIdeal.Launch
import proofs.«409295_j17566416241101_3_alg».proof.Proof.Gen.KernelIdeal.Points
import proofs.«409295_j17566416241101_3_alg».proof.Proof.Gen.KernelIdeal.Frame
import proofs.«409295_j17566416241101_3_alg».proof.Proof.Gen.ReferenceIdeal
import proofs.«409295_j17566416241101_3_alg».proof.Proof.Gen.Pre_finite_inputs
import proofs.«409295_j17566416241101_3_alg».proof.Proof.RefRun
import proofs.«409295_j17566416241101_3_alg».proof.Proof.RefRead
import proofs.«409295_j17566416241101_3_alg».proof.Proof.PreDecode
import proofs.«409295_j17566416241101_3_alg».proof.Proof.RRow
import proofs.«409295_j17566416241101_3_alg».proof.Proof.Bridge
import proofs.«409295_j17566416241101_3_alg».proof.Proof.KRun
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no call: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Narrowing the per-relation counts to bf16 and widening them back is the identity on extended reals. -/
theorem preserves : Cert.preserves_Kernel_KernelIdeal := IdealRules.truncf_extf.statement _ .f32 .bf16

/-- Both programs end at the per-row scores plus the bias. -/
theorem algebraic : Cert.algebraic_KernelIdeal_ReferenceIdeal := by
  intro m ρ m' ρ' hpre hagree
  have hr := fun c : Dev Cert.KernelIdeal.nD =>
    Cert.PreDecode.ranges_of_pre (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (hpre c)
  refine ⟨fun c => Cert.KRun.result m c, Cert.KRun.run m ρ (fun c => (hr c).1) (fun c => (hr c).2), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v151_eq]
  obtain ⟨a0, a1, a2, a3, a4, a5, a6, a7, a8, a9⟩ := hagree c
  rw [a0, a1, a2, a3, a4, a5, a6, a7, a8, a9]
  funext i
  obtain ⟨b, rfl⟩ : ∃ b : Fin 1024, i = ix1 b := ⟨i 0, eq_ix1 i⟩
  refine (Cert.RRow.ref_row _ _ _ _ _ _ _ _ _ _ (hr c).1 (hr c).2 b).trans ?_
  show _ = Cert.KBlocks.rowG m c ⟨((ix1 b : Cert.KernelIdeal.S1024.Idx) 0).val, ((ix1 b : Cert.KernelIdeal.S1024.Idx) 0).isLt⟩ + _
  rw [Cert.Bridge.rowG_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
